-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v119) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x32 .f32) (main_arg12 : FVec F S32 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x32 .f32 := Host.absf main_arg11
  let main_cst_16 : FVec F S_ .f32 := constant S_ .f32 0x7F800000#32
  let main_v45 : FVec F S128x32 .f32 := broadcastInDim S128x32 ![] bcast_S_S128x32 main_cst_16
  let main_v46 : IVec S128x32 1 := cmpf .olt main_v44 main_v45
  let main_c_17 : IVec S_ 1 := constantI S_ 1 1#1
  let main_v47 : IVec S_ 1 := (fun x v => Host.reduce IntOp.andi x v reducesTo_S128x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x32 .f32) (main_arg12 : FVec F S32 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x32 .f32) (main_arg12 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S100000x1 : Shape := ⟨2, ![100000, 1]⟩
abbrev S64 : Shape := ⟨1, ![64]⟩
abbrev S1x64 : Shape := ⟨2, ![1, 64]⟩
abbrev S100000x64 : Shape := ⟨2, ![100000, 64]⟩
abbrev S64x128 : Shape := ⟨2, ![64, 128]⟩
abbrev S5000x64 : Shape := ⟨2, ![5000, 64]⟩
abbrev S64x1 : Shape := ⟨2, ![64, 1]⟩
abbrev S64x32 : Shape := ⟨2, ![64, 32]⟩
abbrev S1x32 : Shape := ⟨2, ![1, 32]⟩

abbrev nBuf : Space → Nat
  | .hbm => 152
  | .vmem => 36
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x32, .f32⟩
  | 12 => ⟨S32, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S1x128, .f32⟩
  | 75 => ⟨S_, .f32⟩
  | 76 => ⟨S1x128, .f32⟩
  | 77 => ⟨S1x128, .f32⟩
  | 78 => ⟨S_, .f32⟩
  | 79 => ⟨S1x128, .f32⟩
  | 80 => ⟨S1x128, .f32⟩
  | 81 => ⟨S1x128, .f32⟩
  | 82 => ⟨S1x128, .f32⟩
  | 83 => ⟨S_, .f32⟩
  | 84 => ⟨S1x128, .f32⟩
  | 85 => ⟨S1x128, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S1x128, .f32⟩
  | 92 => ⟨S100000x128, .f32⟩
  | 93 => ⟨S100000x128, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000x128, .f32⟩
  | 103 => ⟨S1700000x1, .f32⟩
  | 104 => ⟨S1700000x128, .f32⟩
  | 105 => ⟨S1700000x128, .f32⟩
  | 106 => ⟨S_, .f32⟩
  | 107 => ⟨S100000x128, .f32⟩
  | 108 => ⟨S1700000x1, .i32⟩
  | 109 => ⟨S100000x128, .f32⟩
  | 110 => ⟨S1x128, .f32⟩
  | 111 => ⟨S100000x128, .f32⟩
  | 112 => ⟨S100000x128, .f32⟩
  | 113 => ⟨S1x128, .f32⟩
  | 114 => ⟨S1x128, .f32⟩
  | 115 => ⟨S_, .f32⟩
  | 116 => ⟨S1x128, .f32⟩
  | 117 => ⟨S1x128, .f32⟩
  | 118 => ⟨S_, .f32⟩
  | 119 => ⟨S1x128, .f32⟩
  | 120 => ⟨S1x128, .f32⟩
  | 121 => ⟨S1x128, .f32⟩
  | 122 => ⟨S1x128, .f32⟩
  | 123 => ⟨S_, .f32⟩
  | 124 => ⟨S1x128, .f32⟩
  | 125 => ⟨S1x128, .f32⟩
  | 126 => ⟨S1x128, .f32⟩
  | 127 => ⟨S1x128, .f32⟩
  | _ => ⟨S100000x128, .f32⟩

abbrev hbmTy0_1 (i : Nat) : BufTy := match i % 128 with
  | 0 => ⟨S1x128, .f32⟩
  | 1 => ⟨S1x128, .f32⟩
  | 2 => ⟨S1x128, .f32⟩
  | 3 => ⟨S1x128, .f32⟩
  | 4 => ⟨S100000x128, .f32⟩
  | 5 => ⟨S100000x1, .i32⟩
  | 6 => ⟨S64, .i32⟩
  | 7 => ⟨S1x64, .i32⟩
  | 8 => ⟨S100000x64, .i32⟩
  | 9 => ⟨S100000x64, .i32⟩
  | 10 => ⟨S100000x64, .i1⟩
  | 11 => ⟨S100000x64, .bf16⟩
  | 12 => ⟨S64x128, .f32⟩
  | 13 => ⟨S1x64, .f32⟩
  | 14 => ⟨S64x1, .f32⟩
  | 15 => ⟨S_, .f32⟩
  | 16 => ⟨S64x1, .f32⟩
  | 17 => ⟨S64x1, .f32⟩
  | 18 => ⟨S64x128, .f32⟩
  | 19 => ⟨S64x128, .f32⟩
  | 20 => ⟨S64x32, .f32⟩
  | 21 => ⟨S1x32, .f32⟩
  | 22 => ⟨S64x32, .f32⟩
  | 23 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S1x128, .f32⟩
  | .local _ .vmem, ⟨23, _⟩ => ⟨S1x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x64, .bf16⟩
  | .local _ .vmem, ⟨33, _⟩ => ⟨S5000x64, .bf16⟩
  | .local _ .vmem, ⟨34, _⟩ => ⟨S64x128, .f32⟩
  | .local _ .vmem, ⟨35, _⟩ => ⟨S1x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47_0 : Ref sig .tc := ⟨.hbm, 73, rfl⟩
abbrev main_v47_1 : Ref sig .tc := ⟨.hbm, 74, rfl⟩
abbrev main_cst_9 : Ref sig .tc := ⟨.hbm, 75, rfl⟩
abbrev main_v48 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_11 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_12 : Ref sig .tc := ⟨.hbm, 94, rfl⟩
abbrev main_v64 : Ref sig .tc := ⟨.hbm, 95, rfl⟩
abbrev main_v65 : Ref sig .tc := ⟨.hbm, 96, rfl⟩
abbrev main_c_13 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_cst_14 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80_0 : Ref sig .tc := ⟨.hbm, 113, rfl⟩
abbrev main_v80_1 : Ref sig .tc := ⟨.hbm, 114, rfl⟩
abbrev main_cst_15 : Ref sig .tc := ⟨.hbm, 115, rfl⟩
abbrev main_v81 : Ref sig .tc := ⟨.hbm, 116, rfl⟩
abbrev main_v82 : Ref sig .tc := ⟨.hbm, 117, rfl⟩
abbrev main_cst_16 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_17 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103_0 : Ref sig .tc := ⟨.hbm, 140, rfl⟩
abbrev main_v103_1 : Ref sig .tc := ⟨.hbm, 141, rfl⟩
abbrev main_v104 : Ref sig .tc := ⟨.hbm, 142, rfl⟩
abbrev main_cst_18 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc2_stg0_0 : Ref sig .tc := ⟨.vmem, 9, rfl⟩
abbrev cc2_stg0_1 : Ref sig .tc := ⟨.vmem, 10, rfl⟩
abbrev cc2_stg1_0 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg3_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc5_stg0_0 : Ref sig .tc := ⟨.vmem, 24, rfl⟩
abbrev cc5_stg0_1 : Ref sig .tc := ⟨.vmem, 25, rfl⟩
abbrev cc5_stg1_0 : Ref sig .tc := ⟨.vmem, 26, rfl⟩
abbrev cc5_stg2_0 : Ref sig .tc := ⟨.vmem, 27, rfl⟩
abbrev cc5_stg3_0 : Ref sig .tc := ⟨.vmem, 28, rfl⟩
abbrev cc5_stg3_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_stg3_0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem3_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc5_sem0_0 : DmaSem sig := 24
abbrev cc5_sem0_1 : DmaSem sig := 25
abbrev cc5_sem1_0 : DmaSem sig := 26
abbrev cc5_sem2_0 : DmaSem sig := 27
abbrev cc5_sem3_0 : DmaSem sig := 28
abbrev cc5_sem3_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc6_sem3_0 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  inb_S1x128_S1x128_0_0 : ∀ a, (![0, 0] : Fin 2 → Nat) a + S1x128.size a ≤ S1x128.size a
  h_S1x128 : 0 < S1x128.numel
  shapeCasts_S5000x128_S5000x128 : S5000x128.ShapeCasts S5000x128
  shapeCasts_S1x128_S1x128 : S1x128.ShapeCasts S1x128
  reduces_S5000x128_S128 : S5000x128.Reduces [0] S128
  shapeCasts_S128_S1x128 : S128.ShapeCasts S1x128
  bcast_S_S1x128 : S_.BroadcastsInDim S1x128 (![] : Fin 0 → Fin S1x128.rank)
  broadcasts_S1x128_S5000x128 : S1x128.Broadcasts S5000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  inb_S1x64_S1x64_0_0 : ∀ a, (![0, 0] : Fin 2 → Nat) a + S1x64.size a ≤ S1x64.size a
  h_S1x64 : 0 < S1x64.numel
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  shapeCasts_S64x128_S64x128 : S64x128.ShapeCasts S64x128
  shapeCasts_S1x64_S1x64 : S1x64.ShapeCasts S1x64
  reduces_S5000x64_S64 : S5000x64.Reduces [0] S64
  shapeCasts_S64_S1x64 : S64.ShapeCasts S1x64
  transposes_S1x64_S64x1_1_0 : S1x64.Transposes [1, 0] S64x1
  bcast_S_S64x1 : S_.BroadcastsInDim S64x1 (![] : Fin 0 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S5000x64_S5000x128_S64x128_0_0_1_1_n_n_wf : DotDims.WF S5000x64 S5000x128 S64x128 [0] [0] [1] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S100000x64.size a
  hwx6_1 : ∀ i : grid6.Coords, EltTy.bits .bf16 = 32 ∨ (Rect.block (s := S100000x64) S5000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x128.size a ≤ S64x128.size a
  hwx6_2 : ∀ i : grid6.Coords, EltTy.bits .f32 = 32 ∨ (Rect.block (s := S64x128) S64x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S5000x64_S5000x128_S64x128_0_0_1_1_n_n : DotDims S5000x64 S5000x128 S64x128 where
  lhsContracting := [0]
  rhsContracting := [0]
  lhsNonContracting := [1]
  rhsNonContracting := [1]
  lhsBatch := []
  rhsBatch := []
  wf := dot_S5000x64_S5000x128_S64x128_0_0_1_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x128.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x128.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v46) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v62) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v79) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v80_0) S1x128.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v80_1) S1x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v91) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v94) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v95) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v95) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S5000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v103_0) S64x128.size cc6_transform_2 reads6_2 true true 1 stage6_2 sem6_2
    hrank6 hreads6_2 hinb6_2 nbuf6_2 (Memref.isWhole_whole _) hwx6_2 hstage6_2

abbrev win6_3 : Pipeline.Window sig grid6 :=
  Pipeline.Window.ofSpec (Memref.whole main_v103_1) S1x64.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S64x128 : Shape := ⟨2, ![64, 128]⟩
abbrev S64x1 : Shape := ⟨2, ![64, 1]⟩
abbrev S64x32 : Shape := ⟨2, ![64, 32]⟩
abbrev S1x32 : Shape := ⟨2, ![1, 32]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x32, .f32⟩
  | 12 => ⟨S32, .f32⟩
  | 13 => ⟨S100000, .i32⟩
  | 14 => ⟨S1x1600000, .i32⟩
  | 15 => ⟨S1600000, .i32⟩
  | 16 => ⟨S1700000, .i32⟩
  | 17 => ⟨S1x1600000, .i32⟩
  | 18 => ⟨S1600000, .i32⟩
  | 19 => ⟨S1700000, .i32⟩
  | 20 => ⟨S_, .f32⟩
  | 21 => ⟨S1700000, .f32⟩
  | 22 => ⟨S_, .f32⟩
  | 23 => ⟨S100000, .f32⟩
  | 24 => ⟨S1700000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000, .f32⟩
  | 43 => ⟨S_, .i32⟩
  | 44 => ⟨S1700000, .i32⟩
  | 45 => ⟨S1700000, .i1⟩
  | 46 => ⟨S_, .i32⟩
  | 47 => ⟨S1700000, .i32⟩
  | 48 => ⟨S1700000, .i32⟩
  | 49 => ⟨S1700000, .i32⟩
  | 50 => ⟨S1700000x1, .i32⟩
  | 51 => ⟨S1700000, .f32⟩
  | 52 => ⟨S1700000, .f32⟩
  | 53 => ⟨S100000x128, .f32⟩
  | 54 => ⟨S_, .i32⟩
  | 55 => ⟨S1700000, .i32⟩
  | 56 => ⟨S1700000, .i1⟩
  | 57 => ⟨S_, .i32⟩
  | 58 => ⟨S1700000, .i32⟩
  | 59 => ⟨S1700000, .i32⟩
  | 60 => ⟨S1700000, .i32⟩
  | 61 => ⟨S1700000x1, .i32⟩
  | 62 => ⟨S1700000x128, .f32⟩
  | 63 => ⟨S1700000x1, .f32⟩
  | 64 => ⟨S1700000x128, .f32⟩
  | 65 => ⟨S1700000x128, .f32⟩
  | 66 => ⟨S_, .f32⟩
  | 67 => ⟨S100000x128, .f32⟩
  | 68 => ⟨S1700000x1, .i32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S128, .f32⟩
  | 75 => ⟨S_, .f32⟩
  | 76 => ⟨S128, .f32⟩
  | 77 => ⟨S128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S128, .f32⟩
  | 93 => ⟨S128, .f32⟩
  | 94 => ⟨S128, .f32⟩
  | 95 => ⟨S_, .f32⟩
  | 96 => ⟨S_, .i1⟩
  | 97 => ⟨S_, .f32⟩
  | 98 => ⟨S_, .f32⟩
  | 99 => ⟨S128, .f32⟩
  | 100 => ⟨S128, .f32⟩
  | 101 => ⟨S1x128, .f32⟩
  | 102 => ⟨S100000x128, .f32⟩
  | 103 => ⟨S100000x128, .f32⟩
  | 104 => ⟨S_, .f32⟩
  | 105 => ⟨S128, .f32⟩
  | 106 => ⟨S128, .f32⟩
  | 107 => ⟨S128, .f32⟩
  | 108 => ⟨S1x128, .f32⟩
  | 109 => ⟨S100000x128, .f32⟩
  | 110 => ⟨S100000x128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .i32⟩
  | 122 => ⟨S1700000, .i32⟩
  | 123 => ⟨S1700000, .i1⟩
  | 124 => ⟨S_, .i32⟩
  | 125 => ⟨S1700000, .i32⟩
  | 126 => ⟨S1700000, .i32⟩
  | 127 => ⟨S1700000, .i32⟩
  | _ => ⟨S100000x128, .f32⟩

abbrev hbmTy0_1 (i : Nat) : BufTy := match i % 128 with
  | 0 => ⟨S1700000x1, .i32⟩
  | 1 => ⟨S1700000x128, .f32⟩
  | 2 => ⟨S1700000x1, .f32⟩
  | 3 => ⟨S1700000x128, .f32⟩
  | 4 => ⟨S1700000x128, .f32⟩
  | 5 => ⟨S_, .f32⟩
  | 6 => ⟨S100000x128, .f32⟩
  | 7 => ⟨S1700000x1, .i32⟩
  | 8 => ⟨S100000x128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S_, .f32⟩
  | 15 => ⟨S128, .f32⟩
  | 16 => ⟨S128, .f32⟩
  | 17 => ⟨S_, .i32⟩
  | 18 => ⟨S_, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S100000x128, .f32⟩
  | 25 => ⟨S100000x128, .f32⟩
  | 26 => ⟨S100000x128, .f32⟩
  | 27 => ⟨S_, .f32⟩
  | 28 => ⟨S_, .f32⟩
  | 29 => ⟨S_, .f32⟩
  | 30 => ⟨S_, .f32⟩
  | 31 => ⟨S128, .f32⟩
  | 32 => ⟨S128, .f32⟩
  | 33 => ⟨S128, .f32⟩
  | 34 => ⟨S_, .f32⟩
  | 35 => ⟨S_, .i1⟩
  | 36 => ⟨S_, .f32⟩
  | 37 => ⟨S_, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S_, .f32⟩
  | 44 => ⟨S128, .f32⟩
  | 45 => ⟨S128, .f32⟩
  | 46 => ⟨S128, .f32⟩
  | 47 => ⟨S1x128, .f32⟩
  | 48 => ⟨S100000x128, .f32⟩
  | 49 => ⟨S100000x128, .f32⟩
  | 50 => ⟨S1x128, .f32⟩
  | 51 => ⟨S100000x128, .f32⟩
  | 52 => ⟨S100000x128, .f32⟩
  | 53 => ⟨S1x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S_, .f32⟩
  | 60 => ⟨S100000, .f32⟩
  | 61 => ⟨S_, .f32⟩
  | 62 => ⟨S64, .f32⟩
  | 63 => ⟨S100000x1, .i32⟩
  | 64 => ⟨S64, .f32⟩
  | 65 => ⟨S_, .f32⟩
  | 66 => ⟨S64x128, .f32⟩
  | 67 => ⟨S100000x1, .i32⟩
  | 68 => ⟨S64x128, .f32⟩
  | 69 => ⟨S_, .f32⟩
  | 70 => ⟨S64, .f32⟩
  | 71 => ⟨S64, .f32⟩
  | 72 => ⟨S64x1, .f32⟩
  | 73 => ⟨S64x128, .f32⟩
  | 74 => ⟨S64x128, .f32⟩
  | 75 => ⟨S64x32, .f32⟩
  | 76 => ⟨S1x32, .f32⟩
  | 77 => ⟨S64x32, .f32⟩
  | 78 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v14 : Ref sig .tc := ⟨.hbm, 33, rfl⟩
abbrev main_c : Ref sig .tc := ⟨.hbm, 34, rfl⟩
abbrev main_v15 : Ref sig .tc := ⟨.hbm, 35, rfl⟩
abbrev main_v16 : Ref sig .tc := ⟨.hbm, 36, rfl⟩
abbrev main_c_3 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_c_4 : Ref sig .tc := ⟨.hbm, 43, rfl⟩
abbrev main_v22 : Ref sig .tc := ⟨.hbm, 44, rfl⟩
abbrev main_v23 : Ref sig .tc := ⟨.hbm, 45, rfl⟩
abbrev main_c_5 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_9 : Ref sig .tc := ⟨.hbm, 73, rfl⟩
abbrev main_v47 : Ref sig .tc := ⟨.hbm, 74, rfl⟩
abbrev main_cst_10 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_call1_cst : Ref sig .tc := ⟨.hbm, 79, rfl⟩
abbrev main_call1_v0 : Ref sig .tc := ⟨.hbm, 80, rfl⟩
abbrev main_call1_v1 : Ref sig .tc := ⟨.hbm, 81, rfl⟩
abbrev main_call1_cst_0 : Ref sig .tc := ⟨.hbm, 82, rfl⟩
abbrev main_call1_v2 : Ref sig .tc := ⟨.hbm, 83, rfl⟩
abbrev main_call1_v3 : Ref sig .tc := ⟨.hbm, 84, rfl⟩
abbrev main_call1_v4 : Ref sig .tc := ⟨.hbm, 85, rfl⟩
abbrev main_call1_v5 : Ref sig .tc := ⟨.hbm, 86, rfl⟩
abbrev main_call1_v6 : Ref sig .tc := ⟨.hbm, 87, rfl⟩
abbrev main_call1_v7 : Ref sig .tc := ⟨.hbm, 88, rfl⟩
abbrev main_call1_cst_1 : Ref sig .tc := ⟨.hbm, 89, rfl⟩
abbrev main_call1_v8 : Ref sig .tc := ⟨.hbm, 90, rfl⟩
abbrev main_call1_cst_2 : Ref sig .tc := ⟨.hbm, 91, rfl⟩
abbrev main_call1_v9 : Ref sig .tc := ⟨.hbm, 92, rfl⟩
abbrev main_call1_v10 : Ref sig .tc := ⟨.hbm, 93, rfl⟩
abbrev main_call1_v11 : Ref sig .tc := ⟨.hbm, 94, rfl⟩
abbrev main_call1_cst_3 : Ref sig .tc := ⟨.hbm, 95, rfl⟩
abbrev main_call1_v12 : Ref sig .tc := ⟨.hbm, 96, rfl⟩
abbrev main_call1_cst_4 : Ref sig .tc := ⟨.hbm, 97, rfl⟩
abbrev main_call1_call0_v0 : Ref sig .tc := ⟨.hbm, 98, rfl⟩
abbrev main_call1_call0_v1 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_cst_12 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_call2_cst : Ref sig .tc := ⟨.hbm, 117, rfl⟩
abbrev main_call2_v0 : Ref sig .tc := ⟨.hbm, 118, rfl⟩
abbrev main_v66 : Ref sig .tc := ⟨.hbm, 119, rfl⟩
abbrev main_v67 : Ref sig .tc := ⟨.hbm, 120, rfl⟩
abbrev main_c_13 : Ref sig .tc := ⟨.hbm, 121, rfl⟩
abbrev main_v68 : Ref sig .tc := ⟨.hbm, 122, rfl⟩
abbrev main_v69 : Ref sig .tc := ⟨.hbm, 123, rfl⟩
abbrev main_c_14 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_cst_15 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_cst_16 : Ref sig .tc := ⟨.hbm, 140, rfl⟩
abbrev main_v84 : Ref sig .tc := ⟨.hbm, 141, rfl⟩
abbrev main_cst_17 : Ref sig .tc := ⟨.hbm, 142, rfl⟩
abbrev main_v85 : Ref sig .tc := ⟨.hbm, 143, rfl⟩
abbrev main_v86 : Ref sig .tc := ⟨.hbm, 144, rfl⟩
abbrev main_c_18 : Ref sig .tc := ⟨.hbm, 145, rfl⟩
abbrev main_call3_cst : Ref sig .tc := ⟨.hbm, 146, rfl⟩
abbrev main_call3_v0 : Ref sig .tc := ⟨.hbm, 147, rfl⟩
abbrev main_call3_v1 : Ref sig .tc := ⟨.hbm, 148, rfl⟩
abbrev main_call3_cst_0 : Ref sig .tc := ⟨.hbm, 149, rfl⟩
abbrev main_call3_v2 : Ref sig .tc := ⟨.hbm, 150, rfl⟩
abbrev main_call3_v3 : Ref sig .tc := ⟨.hbm, 151, rfl⟩
abbrev main_call3_v4 : Ref sig .tc := ⟨.hbm, 152, rfl⟩
abbrev main_call3_v5 : Ref sig .tc := ⟨.hbm, 153, rfl⟩
abbrev main_call3_v6 : Ref sig .tc := ⟨.hbm, 154, rfl⟩
abbrev main_call3_v7 : Ref sig .tc := ⟨.hbm, 155, rfl⟩
abbrev main_call3_cst_1 : Ref sig .tc := ⟨.hbm, 156, rfl⟩
abbrev main_call3_v8 : Ref sig .tc := ⟨.hbm, 157, rfl⟩
abbrev main_call3_cst_2 : Ref sig .tc := ⟨.hbm, 158, rfl⟩
abbrev main_call3_v9 : Ref sig .tc := ⟨.hbm, 159, rfl⟩
abbrev main_call3_v10 : Ref sig .tc := ⟨.hbm, 160, rfl⟩
abbrev main_call3_v11 : Ref sig .tc := ⟨.hbm, 161, rfl⟩
abbrev main_call3_cst_3 : Ref sig .tc := ⟨.hbm, 162, rfl⟩
abbrev main_call3_v12 : Ref sig .tc := ⟨.hbm, 163, rfl⟩
abbrev main_call3_cst_4 : Ref sig .tc := ⟨.hbm, 164, rfl⟩
abbrev main_call3_call0_v0 : Ref sig .tc := ⟨.hbm, 165, rfl⟩
abbrev main_call3_call0_v1 : Ref sig .tc := ⟨.hbm, 166, rfl⟩
abbrev main_v87 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_cst_19 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_v99 : Ref sig .tc := ⟨.hbm, 180, rfl⟩
abbrev main_v100 : Ref sig .tc := ⟨.hbm, 181, rfl⟩
abbrev main_v101 : Ref sig .tc := ⟨.hbm, 182, rfl⟩
abbrev main_v102 : Ref sig .tc := ⟨.hbm, 183, rfl⟩
abbrev main_call4_cst : Ref sig .tc := ⟨.hbm, 184, rfl⟩
abbrev main_call4_v0 : Ref sig .tc := ⟨.hbm, 185, rfl⟩
abbrev main_v103 : Ref sig .tc := ⟨.hbm, 186, rfl⟩
abbrev main_cst_20 : Ref sig .tc := ⟨.hbm, 187, rfl⟩
abbrev main_v104 : Ref sig .tc := ⟨.hbm, 188, rfl⟩
abbrev main_cst_21 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_22 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_23 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S64 : S_.BroadcastsInDim S64 (![] : Fin 0 → Fin S64.rank)
  bcast_S100000_S100000x1_0 : S100000.BroadcastsInDim S100000x1 (![0] : Fin 1 → Fin S100000x1.rank)
  bcast_S_S64x128 : S_.BroadcastsInDim S64x128 (![] : Fin 0 → Fin S64x128.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64_S100000x1_S100000_n_0_0_1_wf : ScatterDims.WF S64 S100000x1 S100000 [] [0] [0] 1
  scatter_S64x128_S100000x1_S100000x128_1_0_0_1_wf : ScatterDims.WF S64x128 S100000x1 S100000x128 [1] [0] [0] 1
  dot_S64x128_S128x32_S64x32_1_0_0_1_n_n_wf : DotDims.WF S64x128 S128x32 S64x32 [1] [0] [0] [1] [] []

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.KKept.lean ====
/-
  Buffers that ride through a stretch of @main untouched. The contents of the core's buffers at each boundary
  between segments are a fold from the launch memory: a host stretch changes only the buffers its operations write,
  and a region changes only its output arrays (an input array comes out as it went in). So an argument array still
  holds the launch contents at the boundary where it is read; the three arrays derived from the edge list before the
  first region are still there after the first and the fourth region; a layer's output is still there when the
  normalise pass reads it after the statistics pass and the coefficient arithmetic; and the second layer's
  normalised output is still there after the membership weights are made.
-/
import proofs.«417032_j62294205661279_1_alg».proof.Proof.Gen.KernelIdeal.Frame
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- A host stretch leaves a buffer as it found it when none of its operations writes that buffer: every operation of
    the list writes exactly one buffer (its result), and the buffer in question differs from each of those results. The
    first argument is the stretch's list of operations, the second the buffer that is kept. -/
local macro "host_keeps " ops:ident buf:ident : term =>
  `(StableHlo.after_of_forall_not_mem (b := Proc.devRef .tc $buf) _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## An argument array holds the launch contents where it is read

No host operation and no region has an argument array as a result: a host operation writes a fresh buffer, and a
region's outputs are fresh buffers too. So the fold at an argument's buffer is the identity at every step between the
launch and the boundary where the array is read, and the first boundary is the launch memory itself. -/

/-- The edge list at launch (the first boundary IS the launch memory). -/
theorem keep0_main_arg1 (c : Dev nD) : W0 m ρ c (Proc.devRef .tc main_arg1) = m ((c : Thread nD τ).loc main_arg1) := by
  rfl

/-- At the first region's entry: only the three opening host stretches lie between the launch and this boundary,
    and none of their operations has an argument as its result. -/
theorem keep3_main_arg0 (c : Dev nD) : W3 m ρ c (Proc.devRef .tc main_arg0) = m ((c : Thread nD τ).loc main_arg0) := by
  calc W3 m ρ c (Proc.devRef .tc main_arg0)
    _ = W2 m ρ c (Proc.devRef .tc main_arg0) := host_keeps hostOps0_2 main_arg0
    _ = W1 m ρ c (Proc.devRef .tc main_arg0) := host_keeps hostOps0_1 main_arg0
    _ = W0 m ρ c (Proc.devRef .tc main_arg0) := host_keeps hostOps0 main_arg0
    _ = m ((c : Thread nD τ).loc main_arg0) := rfl

/-- The first region's other input array, likewise untouched by the three opening host stretches. -/
theorem keep3_main_arg3 (c : Dev nD) : W3 m ρ c (Proc.devRef .tc main_arg3) = m ((c : Thread nD τ).loc main_arg3) := by
  calc W3 m ρ c (Proc.devRef .tc main_arg3)
    _ = W2 m ρ c (Proc.devRef .tc main_arg3) := host_keeps hostOps0_2 main_arg3
    _ = W1 m ρ c (Proc.devRef .tc main_arg3) := host_keeps hostOps0_1 main_arg3
    _ = W0 m ρ c (Proc.devRef .tc main_arg3) := host_keeps hostOps0 main_arg3
    _ = m ((c : Thread nD τ).loc main_arg3) := rfl

/-- Read after the first region: that region's arrays are its two inputs and its output, and this argument is none
    of them, so the region passes it through. -/
theorem keep4_main_arg4 (c : Dev nD) : W4 m ρ c (Proc.devRef .tc main_arg4) = m ((c : Thread nD τ).loc main_arg4) := by
  calc W4 m ρ c (Proc.devRef .tc main_arg4)
    _ = W3 m ρ c (Proc.devRef .tc main_arg4) := W4_of_ne m ρ c main_arg4 (by decide)
    _ = W2 m ρ c (Proc.devRef .tc main_arg4) := host_keeps hostOps0_2 main_arg4
    _ = W1 m ρ c (Proc.devRef .tc main_arg4) := host_keeps hostOps0_1 main_arg4
    _ = W0 m ρ c (Proc.devRef .tc main_arg4) := host_keeps hostOps0 main_arg4
    _ = m ((c : Thread nD τ).loc main_arg4) := rfl

/-- Read after the second region: two regions and four host stretches lie between, none touching it. -/
theorem keep6_main_arg5 (c : Dev nD) : W6 m ρ c (Proc.devRef .tc main_arg5) = m ((c : Thread nD τ).loc main_arg5) := by
  calc W6 m ρ c (Proc.devRef .tc main_arg5)
    _ = W5 m ρ c (Proc.devRef .tc main_arg5) := W6_of_ne m ρ c main_arg5 (by decide)
    _ = W4 m ρ c (Proc.devRef .tc main_arg5) := host_keeps hostOps1 main_arg5
    _ = W3 m ρ c (Proc.devRef .tc main_arg5) := W4_of_ne m ρ c main_arg5 (by decide)
    _ = W2 m ρ c (Proc.devRef .tc main_arg5) := host_keeps hostOps0_2 main_arg5
    _ = W1 m ρ c (Proc.devRef .tc main_arg5) := host_keeps hostOps0_1 main_arg5
    _ = W0 m ρ c (Proc.devRef .tc main_arg5) := host_keeps hostOps0 main_arg5
    _ = m ((c : Thread nD τ).loc main_arg5) := rfl

/-- Another argument read at the same boundary, by the same walk. -/
theorem keep6_main_arg6 (c : Dev nD) : W6 m ρ c (Proc.devRef .tc main_arg6) = m ((c : Thread nD τ).loc main_arg6) := by
  calc W6 m ρ c (Proc.devRef .tc main_arg6)
    _ = W5 m ρ c (Proc.devRef .tc main_arg6) := W6_of_ne m ρ c main_arg6 (by decide)
    _ = W4 m ρ c (Proc.devRef .tc main_arg6) := host_keeps hostOps1 main_arg6
    _ = W3 m ρ c (Proc.devRef .tc main_arg6) := W4_of_ne m ρ c main_arg6 (by decide)
    _ = W2 m ρ c (Proc.devRef .tc main_arg6) := host_keeps hostOps0_2 main_arg6
    _ = W1 m ρ c (Proc.devRef .tc main_arg6) := host_keeps hostOps0_1 main_arg6
    _ = W0 m ρ c (Proc.devRef .tc main_arg6) := host_keeps hostOps0 main_arg6
    _ = m ((c : Thread nD τ).loc main_arg6) := rfl

/-- At the entry of the fourth region, which reads it: the three regions before work on other arrays, and the host
    stretches between write only their own results. -/
theorem keep8_main_arg7 (c : Dev nD) : W8 m ρ c (Proc.devRef .tc main_arg7) = m ((c : Thread nD τ).loc main_arg7) := by
  calc W8 m ρ c (Proc.devRef .tc main_arg7)
    _ = W7 m ρ c (Proc.devRef .tc main_arg7) := W8_of_ne m ρ c main_arg7 (by decide)
    _ = W6 m ρ c (Proc.devRef .tc main_arg7) := host_keeps hostOps2 main_arg7
    _ = W5 m ρ c (Proc.devRef .tc main_arg7) := W6_of_ne m ρ c main_arg7 (by decide)
    _ = W4 m ρ c (Proc.devRef .tc main_arg7) := host_keeps hostOps1 main_arg7
    _ = W3 m ρ c (Proc.devRef .tc main_arg7) := W4_of_ne m ρ c main_arg7 (by decide)
    _ = W2 m ρ c (Proc.devRef .tc main_arg7) := host_keeps hostOps0_2 main_arg7
    _ = W1 m ρ c (Proc.devRef .tc main_arg7) := host_keeps hostOps0_1 main_arg7
    _ = W0 m ρ c (Proc.devRef .tc main_arg7) := host_keeps hostOps0 main_arg7
    _ = m ((c : Thread nD τ).loc main_arg7) := rfl

/-- Read after the fourth region, which has neither this array among its inputs nor among its outputs. -/
theorem keep9_main_arg8 (c : Dev nD) : W9 m ρ c (Proc.devRef .tc main_arg8) = m ((c : Thread nD τ).loc main_arg8) := by
  calc W9 m ρ c (Proc.devRef .tc main_arg8)
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := host_keeps hostOps2 main_arg8
    _ = W5 m ρ c (Proc.devRef .tc main_arg8) := W6_of_ne m ρ c main_arg8 (by decide)
    _ = W4 m ρ c (Proc.devRef .tc main_arg8) := host_keeps hostOps1 main_arg8
    _ = W3 m ρ c (Proc.devRef .tc main_arg8) := W4_of_ne m ρ c main_arg8 (by decide)
    _ = W2 m ρ c (Proc.devRef .tc main_arg8) := host_keeps hostOps0_2 main_arg8
    _ = W1 m ρ c (Proc.devRef .tc main_arg8) := host_keeps hostOps0_1 main_arg8
    _ = W0 m ρ c (Proc.devRef .tc main_arg8) := host_keeps hostOps0 main_arg8
    _ = m ((c : Thread nD τ).loc main_arg8) := rfl

/-- Read after the fifth region: five regions and six host stretches lie between, none touching it. -/
theorem keep11_main_arg9 (c : Dev nD) : W11 m ρ c (Proc.devRef .tc main_arg9) = m ((c : Thread nD τ).loc main_arg9) := by
  calc W11 m ρ c (Proc.devRef .tc main_arg9)
    _ = W10 m ρ c (Proc.devRef .tc main_arg9) := W11_of_ne m ρ c main_arg9 (by decide)
    _ = W9 m ρ c (Proc.devRef .tc main_arg9) := host_keeps hostOps4 main_arg9
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := host_keeps hostOps2 main_arg9
    _ = W5 m ρ c (Proc.devRef .tc main_arg9) := W6_of_ne m ρ c main_arg9 (by decide)
    _ = W4 m ρ c (Proc.devRef .tc main_arg9) := host_keeps hostOps1 main_arg9
    _ = W3 m ρ c (Proc.devRef .tc main_arg9) := W4_of_ne m ρ c main_arg9 (by decide)
    _ = W2 m ρ c (Proc.devRef .tc main_arg9) := host_keeps hostOps0_2 main_arg9
    _ = W1 m ρ c (Proc.devRef .tc main_arg9) := host_keeps hostOps0_1 main_arg9
    _ = W0 m ρ c (Proc.devRef .tc main_arg9) := host_keeps hostOps0 main_arg9
    _ = m ((c : Thread nD τ).loc main_arg9) := rfl

/-- Another argument read at the same boundary, by the same walk. -/
theorem keep11_main_arg10 (c : Dev nD) : W11 m ρ c (Proc.devRef .tc main_arg10) = m ((c : Thread nD τ).loc main_arg10) := by
  calc W11 m ρ c (Proc.devRef .tc main_arg10)
    _ = W10 m ρ c (Proc.devRef .tc main_arg10) := W11_of_ne m ρ c main_arg10 (by decide)
    _ = W9 m ρ c (Proc.devRef .tc main_arg10) := host_keeps hostOps4 main_arg10
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := host_keeps hostOps2 main_arg10
    _ = W5 m ρ c (Proc.devRef .tc main_arg10) := W6_of_ne m ρ c main_arg10 (by decide)
    _ = W4 m ρ c (Proc.devRef .tc main_arg10) := host_keeps hostOps1 main_arg10
    _ = W3 m ρ c (Proc.devRef .tc main_arg10) := W4_of_ne m ρ c main_arg10 (by decide)
    _ = W2 m ρ c (Proc.devRef .tc main_arg10) := host_keeps hostOps0_2 main_arg10
    _ = W1 m ρ c (Proc.devRef .tc main_arg10) := host_keeps hostOps0_1 main_arg10
    _ = W0 m ρ c (Proc.devRef .tc main_arg10) := host_keeps hostOps0 main_arg10
    _ = m ((c : Thread nD τ).loc main_arg10) := rfl

/-- Read after the sixth region: six regions pass it through, and seven host stretches write other buffers. -/
theorem keep13_main_arg2 (c : Dev nD) : W13 m ρ c (Proc.devRef .tc main_arg2) = m ((c : Thread nD τ).loc main_arg2) := by
  calc W13 m ρ c (Proc.devRef .tc main_arg2)
    _ = W12 m ρ c (Proc.devRef .tc main_arg2) := W13_of_ne m ρ c main_arg2 (by decide)
    _ = W11 m ρ c (Proc.devRef .tc main_arg2) := host_keeps hostOps5 main_arg2
    _ = W10 m ρ c (Proc.devRef .tc main_arg2) := W11_of_ne m ρ c main_arg2 (by decide)
    _ = W9 m ρ c (Proc.devRef .tc main_arg2) := host_keeps hostOps4 main_arg2
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := host_keeps hostOps2 main_arg2
    _ = W5 m ρ c (Proc.devRef .tc main_arg2) := W6_of_ne m ρ c main_arg2 (by decide)
    _ = W4 m ρ c (Proc.devRef .tc main_arg2) := host_keeps hostOps1 main_arg2
    _ = W3 m ρ c (Proc.devRef .tc main_arg2) := W4_of_ne m ρ c main_arg2 (by decide)
    _ = W2 m ρ c (Proc.devRef .tc main_arg2) := host_keeps hostOps0_2 main_arg2
    _ = W1 m ρ c (Proc.devRef .tc main_arg2) := host_keeps hostOps0_1 main_arg2
    _ = W0 m ρ c (Proc.devRef .tc main_arg2) := host_keeps hostOps0 main_arg2
    _ = m ((c : Thread nD τ).loc main_arg2) := rfl

/-- Read after the last region: all seven regions pass it through, and the eight host stretches before that
    boundary write other buffers. -/
theorem keep15_main_arg11 (c : Dev nD) : W15 m ρ c (Proc.devRef .tc main_arg11) = m ((c : Thread nD τ).loc main_arg11) := by
  calc W15 m ρ c (Proc.devRef .tc main_arg11)
    _ = W14 m ρ c (Proc.devRef .tc main_arg11) := W15_of_ne m ρ c main_arg11 (by decide)
    _ = W13 m ρ c (Proc.devRef .tc main_arg11) := host_keeps hostOps6 main_arg11
    _ = W12 m ρ c (Proc.devRef .tc main_arg11) := W13_of_ne m ρ c main_arg11 (by decide)
    _ = W11 m ρ c (Proc.devRef .tc main_arg11) := host_keeps hostOps5 main_arg11
    _ = W10 m ρ c (Proc.devRef .tc main_arg11) := W11_of_ne m ρ c main_arg11 (by decide)
    _ = W9 m ρ c (Proc.devRef .tc main_arg11) := host_keeps hostOps4 main_arg11
    _ = W8 m ρ c (Proc.devRef .tc main_arg11) := W9_of_ne m ρ c main_arg11 (by decide)
    _ = W7 m ρ c (Proc.devRef .tc main_arg11) := W8_of_ne m ρ c main_arg11 (by decide)
    _ = W6 m ρ c (Proc.devRef .tc main_arg11) := host_keeps hostOps2 main_arg11
    _ = W5 m ρ c (Proc.devRef .tc main_arg11) := W6_of_ne m ρ c main_arg11 (by decide)
    _ = W4 m ρ c (Proc.devRef .tc main_arg11) := host_keeps hostOps1 main_arg11
    _ = W3 m ρ c (Proc.devRef .tc main_arg11) := W4_of_ne m ρ c main_arg11 (by decide)
    _ = W2 m ρ c (Proc.devRef .tc main_arg11) := host_keeps hostOps0_2 main_arg11
    _ = W1 m ρ c (Proc.devRef .tc main_arg11) := host_keeps hostOps0_1 main_arg11
    _ = W0 m ρ c (Proc.devRef .tc main_arg11) := host_keeps hostOps0 main_arg11
    _ = m ((c : Thread nD τ).loc main_arg11) := rfl

/-- Another argument read at the same boundary, by the same walk. -/
theorem keep15_main_arg12 (c : Dev nD) : W15 m ρ c (Proc.devRef .tc main_arg12) = m ((c : Thread nD τ).loc main_arg12) := by
  calc W15 m ρ c (Proc.devRef .tc main_arg12)
    _ = W14 m ρ c (Proc.devRef .tc main_arg12) := W15_of_ne m ρ c main_arg12 (by decide)
    _ = W13 m ρ c (Proc.devRef .tc main_arg12) := host_keeps hostOps6 main_arg12
    _ = W12 m ρ c (Proc.devRef .tc main_arg12) := W13_of_ne m ρ c main_arg12 (by decide)
    _ = W11 m ρ c (Proc.devRef .tc main_arg12) := host_keeps hostOps5 main_arg12
    _ = W10 m ρ c (Proc.devRef .tc main_arg12) := W11_of_ne m ρ c main_arg12 (by decide)
    _ = W9 m ρ c (Proc.devRef .tc main_arg12) := host_keeps hostOps4 main_arg12
    _ = W8 m ρ c (Proc.devRef .tc main_arg12) := W9_of_ne m ρ c main_arg12 (by decide)
    _ = W7 m ρ c (Proc.devRef .tc main_arg12) := W8_of_ne m ρ c main_arg12 (by decide)
    _ = W6 m ρ c (Proc.devRef .tc main_arg12) := host_keeps hostOps2 main_arg12
    _ = W5 m ρ c (Proc.devRef .tc main_arg12) := W6_of_ne m ρ c main_arg12 (by decide)
    _ = W4 m ρ c (Proc.devRef .tc main_arg12) := host_keeps hostOps1 main_arg12
    _ = W3 m ρ c (Proc.devRef .tc main_arg12) := W4_of_ne m ρ c main_arg12 (by decide)
    _ = W2 m ρ c (Proc.devRef .tc main_arg12) := host_keeps hostOps0_2 main_arg12
    _ = W1 m ρ c (Proc.devRef .tc main_arg12) := host_keeps hostOps0_1 main_arg12
    _ = W0 m ρ c (Proc.devRef .tc main_arg12) := host_keeps hostOps0 main_arg12
    _ = m ((c : Thread nD τ).loc main_arg12) := rfl

/-! ## A derived array is still there at a later boundary

The three arrays made from the edge list before the first region are arrays of none of the first four regions, and
the two host stretches between those regions write other buffers. A layer's output enters the statistics pass as an
input array, and an input array leaves a region as it entered; the coefficient arithmetic after the pass writes only
its own results. -/

/-- The first region's arrays are its two inputs and its output; this derived array is none of them. -/
theorem keep4_main_v3 (c : Dev nD) : W4 m ρ c (Proc.devRef .tc main_v3) = W3 m ρ c (Proc.devRef .tc main_v3) := by
  exact W4_of_ne m ρ c main_v3 (by decide)

theorem keep4_main_v6 (c : Dev nD) : W4 m ρ c (Proc.devRef .tc main_v6) = W3 m ρ c (Proc.devRef .tc main_v6) := by
  exact W4_of_ne m ρ c main_v6 (by decide)

theorem keep4_main_v29 (c : Dev nD) : W4 m ρ c (Proc.devRef .tc main_v29) = W3 m ρ c (Proc.devRef .tc main_v29) := by
  exact W4_of_ne m ρ c main_v29 (by decide)

/-- From the fourth region's exit back to the first region's entry: four regions, none having this array, and the
    two host stretches between them, neither writing it. -/
theorem keep9_main_v3 (c : Dev nD) : W9 m ρ c (Proc.devRef .tc main_v3) = W3 m ρ c (Proc.devRef .tc main_v3) := by
  calc W9 m ρ c (Proc.devRef .tc main_v3)
    _ = W8 m ρ c (Proc.devRef .tc main_v3) := W9_of_ne m ρ c main_v3 (by decide)
    _ = W7 m ρ c (Proc.devRef .tc main_v3) := W8_of_ne m ρ c main_v3 (by decide)
    _ = W6 m ρ c (Proc.devRef .tc main_v3) := host_keeps hostOps2 main_v3
    _ = W5 m ρ c (Proc.devRef .tc main_v3) := W6_of_ne m ρ c main_v3 (by decide)
    _ = W4 m ρ c (Proc.devRef .tc main_v3) := host_keeps hostOps1 main_v3
    _ = W3 m ρ c (Proc.devRef .tc main_v3) := W4_of_ne m ρ c main_v3 (by decide)

theorem keep9_main_v6 (c : Dev nD) : W9 m ρ c (Proc.devRef .tc main_v6) = W3 m ρ c (Proc.devRef .tc main_v6) := by
  calc W9 m ρ c (Proc.devRef .tc main_v6)
    _ = W8 m ρ c (Proc.devRef .tc main_v6) := W9_of_ne m ρ c main_v6 (by decide)
    _ = W7 m ρ c (Proc.devRef .tc main_v6) := W8_of_ne m ρ c main_v6 (by decide)
    _ = W6 m ρ c (Proc.devRef .tc main_v6) := host_keeps hostOps2 main_v6
    _ = W5 m ρ c (Proc.devRef .tc main_v6) := W6_of_ne m ρ c main_v6 (by decide)
    _ = W4 m ρ c (Proc.devRef .tc main_v6) := host_keeps hostOps1 main_v6
    _ = W3 m ρ c (Proc.devRef .tc main_v6) := W4_of_ne m ρ c main_v6 (by decide)

theorem keep9_main_v29 (c : Dev nD) : W9 m ρ c (Proc.devRef .tc main_v29) = W3 m ρ c (Proc.devRef .tc main_v29) := by
  calc W9 m ρ c (Proc.devRef .tc main_v29)
    _ = W8 m ρ c (Proc.devRef .tc main_v29) := W9_of_ne m ρ c main_v29 (by decide)
    _ = W7 m ρ c (Proc.devRef .tc main_v29) := W8_of_ne m ρ c main_v29 (by decide)
    _ = W6 m ρ c (Proc.devRef .tc main_v29) := host_keeps hostOps2 main_v29
    _ = W5 m ρ c (Proc.devRef .tc main_v29) := W6_of_ne m ρ c main_v29 (by decide)
    _ = W4 m ρ c (Proc.devRef .tc main_v29) := host_keeps hostOps1 main_v29
    _ = W3 m ρ c (Proc.devRef .tc main_v29) := W4_of_ne m ρ c main_v29 (by decide)

/-- The first layer's output is the statistics pass's one input array: at the pass's exit an input array holds what
    the pass was given, which is the entry contents; the coefficient arithmetic that follows writes other buffers. -/
theorem keep7_main_v46 (c : Dev nD) : W7 m ρ c (Proc.devRef .tc main_v46) = W5 m ρ c (Proc.devRef .tc main_v46) := by
  calc W7 m ρ c (Proc.devRef .tc main_v46)
    _ = W6 m ρ c (Proc.devRef .tc main_v46) := host_keeps hostOps2 main_v46
    _ = W5 m ρ c (Proc.devRef .tc main_v46) :=
          (W6_arr m ρ c 0).trans (((dat1 (V5 m ρ) c).arrAt_in 0 rfl _).trans (A_eq1 (V5 m ρ) c 0))

/-- The second layer's output through its statistics pass and the coefficient arithmetic, in the same way. -/
theorem keep12_main_v79 (c : Dev nD) : W12 m ρ c (Proc.devRef .tc main_v79) = W10 m ρ c (Proc.devRef .tc main_v79) := by
  calc W12 m ρ c (Proc.devRef .tc main_v79)
    _ = W11 m ρ c (Proc.devRef .tc main_v79) := host_keeps hostOps5 main_v79
    _ = W10 m ρ c (Proc.devRef .tc main_v79) :=
          (W11_arr m ρ c 0).trans (((dat4 (V10 m ρ) c).arrAt_in 0 rfl _).trans (A_eq4 (V10 m ρ) c 0))

/-- The second layer's normalised output is not a result of any operation that makes the membership weights. -/
theorem keep14_main_v95 (c : Dev nD) : W14 m ρ c (Proc.devRef .tc main_v95) = W13 m ρ c (Proc.devRef .tc main_v95) := by
  exact host_keeps hostOps6 main_v95

end Cert.KernelIdeal.Val

end
-- ==== Proof.KStageDefs.lean ====
/-
  The host arithmetic of the kernel program between its regions, each stretch named as one function of the arrays it
  reads. Nothing is simplified: each definition is the stretch's operations composed in order.
    layerTail : a layer after its dense product — the rows gathered at the edges' sources (a negative index wraps by
                the row count), each scaled by its edge's weight, summed into the edges' destinations from zero, plus
                the bias spread over the rows.
    bnScale, bnShift : the per-column coefficients of batch normalisation from the column sums `s`, the column sums of
                squares `q`, and the learnt gain and offset: mean = s / 100000, var = q / 100000 - mean²,
                scale = gain · (var + eps)^(-1/2), shift = offset - mean · scale.
    oneHot  : the membership weights, 1 where a node's graph id equals the column's number 0 … 63 and 0 elsewhere.
    poolTail: the pooled sums divided by max(count, 1), times the last weight matrix, plus the last bias.
-/
import proofs.«417032_j62294205661279_1_alg».proof.KernelIdeal
import proofs.«417032_j62294205661279_1_alg».proof.Proof.Gen.KernelIdeal

noncomputable section

namespace Cert.KernelIdeal.Val

open Idealize.ShloMosaic Idealize.ShloMosaic.TcCoe
open Cert.KernelIdeal Cert.KernelIdeal.Gen

variable {F : FTy → Type} [FloatOps F]

/-- A layer after its dense product `hw`: gather at the sources, scale by the edge weights, scatter-add at the
    destinations into zeros, add the bias. -/
def layerTail (hw : FVec F S100000x128 .f32) (src dst : IVec S1700000 32) (norm : FVec F S1700000 .f32)
    (b : FVec F S128 .f32) : FVec F S100000x128 .f32 :=
  addf
    (Host.scatterAdd scatter_S100000x128_S1700000x1_S1700000x128_1_0_0_1
      (broadcastInDim S100000x128 ![] bcast_S_S100000x128 (constant S_ .f32 0#32))
      (broadcastInDim S1700000x1 ![0] bcast_S1700000_S1700000x1_0 dst)
      (mulf
        (Host.gather gather_S100000x128_S1700000x1_S1700000x128_1_0_n_n_0_1_1128 hw
          (broadcastInDim S1700000x1 ![0] bcast_S1700000_S1700000x1_0
            (select
              (cmpi .slt src (broadcastInDim S1700000 ![] bcast_S_S1700000 (constantI S_ 32 0#32)))
              (addi src (broadcastInDim S1700000 ![] bcast_S_S1700000 (constantI S_ 32 100000#32)))
              src)))
        (broadcastInDim S1700000x128 ![0, 1] bcast_S1700000x1_S1700000x128_0_1
          (broadcastInDim S1700000x1 ![0] bcast_S1700000_S1700000x1_0 norm))))
    (broadcastInDim S100000x128 ![0, 1] bcast_S1x128_S100000x128_0_1
      (broadcastInDim S1x128 ![1] bcast_S128_S1x128_1 b))

/-- The per-column scale of batch normalisation from the two column statistics and the gain. -/
def bnScale (s q : FVec F S1x128 .f32) (g : FVec F S128 .f32) : FVec F S1x128 .f32 :=
  mulf (broadcastInDim S1x128 ![1] bcast_S128_S1x128_1 g)
    (Host.rsqrt
      (addf
        (subf
          (Host.divf q (broadcastInDim S1x128 ![] bcast_S_S1x128 (constant S_ .f32 1203982336#32)))
          (mulf
            (Host.divf s (broadcastInDim S1x128 ![] bcast_S_S1x128 (constant S_ .f32 1203982336#32)))
            (Host.divf s (broadcastInDim S1x128 ![] bcast_S_S1x128 (constant S_ .f32 1203982336#32)))))
        (broadcastInDim S1x128 ![] bcast_S_S1x128 (constant S_ .f32 925353388#32))))

/-- The per-column shift of batch normalisation: the offset less the mean times the scale. -/
def bnShift (s q : FVec F S1x128 .f32) (g be : FVec F S128 .f32) : FVec F S1x128 .f32 :=
  subf (broadcastInDim S1x128 ![1] bcast_S128_S1x128_1 be)
    (mulf
      (Host.divf s (broadcastInDim S1x128 ![] bcast_S_S1x128 (constant S_ .f32 1203982336#32)))
      (bnScale s q g))

/-- The membership weights: entry (n, k) is 1 when node n's graph id is k, else 0. -/
def oneHot (bt : IVec S100000 32) : FVec F S100000x64 .bf16 :=
  uitofp .bf16
    (cmpi .eq
      (broadcastInDim S100000x64 ![0, 1] bcast_S100000x1_S100000x64_0_1
        (broadcastInDim S100000x1 ![0] bcast_S100000_S100000x1_0 bt))
      (broadcastInDim S100000x64 ![0, 1] bcast_S1x64_S100000x64_0_1
        (broadcastInDim S1x64 ![1] bcast_S64_S1x64_1 (iotaInDim S64 32 0))))

/-- The pooled sums `P` divided by max(count, 1), times the last weight matrix, plus the last bias. -/
def poolTail (P : FVec F S64x128 .f32) (C : FVec F S1x64 .f32) (wfc : FVec F S128x32 .f32) (bfc : FVec F S32 .f32) :
    FVec F S64x32 .f32 :=
  addf
    (Host.dotGeneral dot_S64x128_S128x32_S64x32_1_0_0_1_n_n none
      (Host.divf P
        (broadcastInDim S64x128 ![0, 1] bcast_S64x1_S64x128_0_1
          (maximumf (transpose S64x1 [1, 0] C transposes_S1x64_S64x1_1_0)
            (broadcastInDim S64x1 ![] bcast_S_S64x1 (constant S_ .f32 1065353216#32)))))
      wfc)
    (broadcastInDim S64x32 ![0, 1] bcast_S1x32_S64x32_0_1
      (broadcastInDim S1x32 ![1] bcast_S32_S1x32_1 bfc))

end Cert.KernelIdeal.Val

end
-- ==== Proof.KStageEdge.lean ====
/-
  The three arrays the kernel program derives from the edge list before its first region, each named as one function
  of the edge list; nothing is simplified.
    srcOf, dstOf : the source and the target end of every edge, the listed edges first (rows 0 and 1 of the edge list),
                   then one self-loop per node, `0 … 99999`.
    degOf  : every node's in-degree, ones summed at the target ends from zero.
    dinvOf : the table `1/√degree` where the degree is positive, zero elsewhere.
    wrapIdx: an index vector with each negative entry raised once by the row count.
    normOf : every edge's weight, the table at its source times the table at its target.
-/
import proofs.«417032_j62294205661279_1_alg».proof.KernelIdeal
import proofs.«417032_j62294205661279_1_alg».proof.Proof.Gen.KernelIdeal

noncomputable section

namespace Cert.KernelIdeal.Val

open Idealize.ShloMosaic Idealize.ShloMosaic.TcCoe
open Cert.KernelIdeal Cert.KernelIdeal.Gen

variable {F : FTy → Type} [FloatOps F]

/-- The source end of every edge, the self-loops after the listed edges. -/
def srcOf (ei : IVec S2x1600000 32) : IVec S1700000 32 :=
  concatenate S1700000 0
    [⟨S1600000, shapeCast S1600000 (extractStridedSlice S1x1600000 ![0, 0] ei slices_S2x1600000_S1x1600000_0_0)
        shapeCasts_S1x1600000_S1600000⟩,
     ⟨S100000, iotaInDim S100000 32 0⟩]
    concatenates_S1600000_S100000_S1700000_d0

/-- The target end of every edge, the self-loops after the listed edges. -/
def dstOf (ei : IVec S2x1600000 32) : IVec S1700000 32 :=
  concatenate S1700000 0
    [⟨S1600000, shapeCast S1600000 (extractStridedSlice S1x1600000 ![1, 0] ei slices_S2x1600000_S1x1600000_1_0)
        shapeCasts_S1x1600000_S1600000⟩,
     ⟨S100000, iotaInDim S100000 32 0⟩]
    concatenates_S1600000_S100000_S1700000_d0

/-- An index vector with each negative entry raised once by the row count. -/
def wrapIdx (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32)))
    v

/-- Every node's in-degree: ones summed at the target ends, from zero. -/
def degOf (ei : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstOf ei))
    (broadcastInDim S1700000 ![] bcast_S_S1700000 (constant S_ .f32 0x3F800000#32))

/-- The inverse square root of the degree where it is positive, zero elsewhere. -/
def dinvOf (ei : IVec S2x1600000 32) : FVec F S100000 .f32 :=
  select (cmpf (F := F) .ogt (degOf ei) (broadcastInDim S100000 ![] bcast_S_S100000 (constant S_ .f32 0x00000000#32)))
    (Host.rsqrt (degOf ei))
    (broadcastInDim S100000 ![] bcast_S_S100000 (id (constant S_ .f32 0x00000000#32)))

/-- Every edge's weight: the table at its source times the table at its target. -/
def normOf (ei : IVec S2x1600000 32) : FVec F S1700000 .f32 :=
  mulf
    (Host.gather gather_S100000_S1700000x1_S1700000_n_0_n_n_0_1_1 (dinvOf ei)
      (broadcastInDim S1700000x1 ![0] bcast_S1700000_S1700000x1_0 (wrapIdx (srcOf ei))))
    (Host.gather gather_S100000_S1700000x1_S1700000_n_0_n_n_0_1_1 (dinvOf ei)
      (broadcastInDim S1700000x1 ![0] bcast_S1700000_S1700000x1_0 (wrapIdx (dstOf ei))))

end Cert.KernelIdeal.Val

end
-- ==== Proof.KStageA.lean ====
/-
  The three arrays derived from the edge list as boundary contents: when the first region is entered, after the three
  stretches of host operations that open @main (the second of them the body of the outlined select), the buffers of
  the edges' sources, of their targets and of their weights hold `srcOf`, `dstOf` and `normOf` of the edge list as
  launched. The operations are unrolled and composed; the reshape and the outlined call's typed references are the
  identity on the contents.
-/
import proofs.«417032_j62294205661279_1_alg».proof.Proof.Gen.KernelIdeal.Frame
import proofs.«417032_j62294205661279_1_alg».proof.Proof.KStageDefs
import proofs.«417032_j62294205661279_1_alg».proof.Proof.KStageEdge
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 16000000 in
/-- The sources of the edges and self-loops at the first region's entry. -/
theorem stage3_src (c : Dev nD) : W3 m ρ c (Proc.devRef .tc main_v3) = srcOf (W0 m ρ c (Proc.devRef .tc main_arg1)) := by
  dsimp only [W3, W2, W1]
  after_results
  rfl

set_option maxHeartbeats 16000000 in
/-- The targets of the edges and self-loops at the first region's entry. -/
theorem stage3_dst (c : Dev nD) : W3 m ρ c (Proc.devRef .tc main_v6) = dstOf (W0 m ρ c (Proc.devRef .tc main_arg1)) := by
  dsimp only [W3, W2, W1]
  after_results
  rfl

set_option maxHeartbeats 16000000 in
/-- The edge weights at the first region's entry. -/
theorem stage3_norm (c : Dev nD) : W3 m ρ c (Proc.devRef .tc main_v29) = normOf (W0 m ρ c (Proc.devRef .tc main_arg1)) := by
  dsimp only [W3, W2, W1]
  after_results
  rfl

end Cert.KernelIdeal.Val

end
-- ==== Proof.KStageB.lean ====
/-
  The two layer tails as boundary contents: after the stretch that follows a dense product, the layer's output buffer
  holds `layerTail` of the product's array, the three arrays derived from the edge list and the layer's bias, each
  read at the boundary before the stretch. The stretch's operations are unrolled and composed; the two layers run the
  same text.
-/
import proofs.«417032_j62294205661279_1_alg».proof.Proof.Gen.KernelIdeal.Frame
import proofs.«417032_j62294205661279_1_alg».proof.Proof.KStageDefs
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 4000000 in
/-- First layer: the output buffer after the stretch that follows the first dense product. -/
theorem stage5 (c : Dev nD) : W5 m ρ c (Proc.devRef .tc main_v46) = layerTail (W4 m ρ c (Proc.devRef .tc main_v30)) (W4 m ρ c (Proc.devRef .tc main_v3)) (W4 m ρ c (Proc.devRef .tc main_v6)) (W4 m ρ c (Proc.devRef .tc main_v29)) (W4 m ρ c (Proc.devRef .tc main_arg4)) := by
  dsimp only [W5]
  after_results
  rfl

set_option maxHeartbeats 4000000 in
/-- Second layer: the same stretch after the second dense product. -/
theorem stage10 (c : Dev nD) : W10 m ρ c (Proc.devRef .tc main_v79) = layerTail (W9 m ρ c (Proc.devRef .tc main_v63)) (W9 m ρ c (Proc.devRef .tc main_v3)) (W9 m ρ c (Proc.devRef .tc main_v6)) (W9 m ρ c (Proc.devRef .tc main_v29)) (W9 m ρ c (Proc.devRef .tc main_arg8)) := by
  dsimp only [W10]
  after_results
  rfl

end Cert.KernelIdeal.Val

end
-- ==== Proof.KStageC.lean ====
/-
  The short stretches as boundary contents: the batch-normalisation coefficients after each statistics pass, the
  membership weights before the pooling pass, and the result after it, each the named function of the buffers read
  at the boundary before the stretch.
-/
import proofs.«417032_j62294205661279_1_alg».proof.Proof.Gen.KernelIdeal.Frame
import proofs.«417032_j62294205661279_1_alg».proof.Proof.KStageDefs
import Idealize.ShloMosaic.Lib.StableHlo.Run
import Idealize.ShloMosaic.Lib.Tactic

set_option maxRecDepth 16384

noncomputable section

namespace Cert.KernelIdeal.Val

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

set_option maxHeartbeats 4000000 in
/-- First layer: the scale row after the coefficient arithmetic. -/
theorem stage7_scale (c : Dev nD) : W7 m ρ c (Proc.devRef .tc main_v58) = bnScale (W6 m ρ c (Proc.devRef .tc main_v47_0)) (W6 m ρ c (Proc.devRef .tc main_v47_1)) (W6 m ρ c (Proc.devRef .tc main_arg5)) := by
  dsimp only [W7]
  after_results
  rfl

set_option maxHeartbeats 4000000 in
/-- First layer: the shift row after the coefficient arithmetic. -/
theorem stage7_shift (c : Dev nD) : W7 m ρ c (Proc.devRef .tc main_v61) = bnShift (W6 m ρ c (Proc.devRef .tc main_v47_0)) (W6 m ρ c (Proc.devRef .tc main_v47_1)) (W6 m ρ c (Proc.devRef .tc main_arg5)) (W6 m ρ c (Proc.devRef .tc main_arg6)) := by
  dsimp only [W7]
  after_results
  rfl

set_option maxHeartbeats 4000000 in
/-- Second layer: the scale row. -/
theorem stage12_scale (c : Dev nD) : W12 m ρ c (Proc.devRef .tc main_v91) = bnScale (W11 m ρ c (Proc.devRef .tc main_v80_0)) (W11 m ρ c (Proc.devRef .tc main_v80_1)) (W11 m ρ c (Proc.devRef .tc main_arg9)) := by
  dsimp only [W12]
  after_results
  rfl

set_option maxHeartbeats 4000000 in
/-- Second layer: the shift row. -/
theorem stage12_shift (c : Dev nD) : W12 m ρ c (Proc.devRef .tc main_v94) = bnShift (W11 m ρ c (Proc.devRef .tc main_v80_0)) (W11 m ρ c (Proc.devRef .tc main_v80_1)) (W11 m ρ c (Proc.devRef .tc main_arg9)) (W11 m ρ c (Proc.devRef .tc main_arg10)) := by
  dsimp only [W12]
  after_results
  rfl

set_option maxHeartbeats 4000000 in
/-- The membership weights before the pooling pass. -/
theorem stage14 (c : Dev nD) : W14 m ρ c (Proc.devRef .tc main_v102) = oneHot (W13 m ρ c (Proc.devRef .tc main_arg2)) := by
  dsimp only [W14]
  after_results
  rfl

set_option maxHeartbeats 4000000 in
/-- The result buffer after the last stretch. -/
theorem stage16 (c : Dev nD) : W16 m ρ c (Proc.devRef .tc main_v112) = poolTail (W15 m ρ c (Proc.devRef .tc main_v103_0)) (W15 m ρ c (Proc.devRef .tc main_v103_1)) (W15 m ρ c (Proc.devRef .tc main_arg11)) (W15 m ρ c (Proc.devRef .tc main_arg12)) := by
  dsimp only [W16]
  after_results
  rfl

end Cert.KernelIdeal.Val

end
-- ==== Proof.Spec.lean ====
/-
  The arithmetic of the certificate, as plain functions over finite index types on the extended reals: a two-layer
  graph convolution (a dense product with a weight matrix, a degree-normalised sum over incoming edges, a bias), each
  layer followed by batch normalisation over the nodes and a rectifier, then a mean over each graph of the batch and a
  last dense product. Only the pieces the two programs compute DIFFERENTLY are named here; the gather / scale /
  scatter chain over the edge list is the same text in both and is carried as one function (Proof/Shared.lean).

  A rank-2 array is read through its two coordinates (`cur2`), so every law below is a statement about sums over
  `Fin n`: nothing here knows a tiling, a staging buffer or a program.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An entry of a rank-2 array as a function of its row and its column. -/
abbrev cur2 {α : Type} {a b : Nat} (v : (⟨2, ![a, b]⟩ : Shape).Idx → α) : Fin a → Fin b → α := fun p q => v (ix2 p q)

/-- An entry of a rank-1 array as a function of its one coordinate. -/
abbrev cur1 {α : Type} {a : Nat} (v : (⟨1, ![a]⟩ : Shape).Idx → α) : Fin a → α := fun p => v (ix1 p)

/-- Every entry is a real number (neither infinity). -/
def Real2 {a b : Nat} (x : Fin a → Fin b → EReal) : Prop := ∀ p q, ∃ r : ℝ, x p q = (r : EReal)

/-- Every entry is a real number (neither infinity). -/
def Real1 {a : Nat} (x : Fin a → EReal) : Prop := ∀ p, ∃ r : ℝ, x p = (r : EReal)

/-- Node features times a weight matrix: row `n` of `x` against column `j` of `w`. -/
def mm {n k o : Nat} (x : Fin n → Fin k → EReal) (w : Fin k → Fin o → EReal) : Fin n → Fin o → EReal :=
  fun p j => ∑ l : Fin k, x p l * w l j

/-- The sum of each column over all rows. -/
def colSum {n h : Nat} (a : Fin n → Fin h → EReal) : Fin h → EReal := fun j => ∑ p : Fin n, a p j

/-- The sum of the squares of each column over all rows. -/
def colSumSq {n h : Nat} (a : Fin n → Fin h → EReal) : Fin h → EReal := fun j => ∑ p : Fin n, a p j * a p j

/-- Scale and shift each column, then clamp below at zero. -/
def affRelu {n h : Nat} (a : Fin n → Fin h → EReal) (sc sh : Fin h → EReal) : Fin n → Fin h → EReal :=
  fun p j => max (a p j * sc j + sh j) 0

/-- The rows of `y` summed with the weights `oh · g`: with `oh` a membership indicator, the sum of graph `g`'s rows. -/
def poolSum {n g h : Nat} (y : Fin n → Fin h → EReal) (oh : Fin n → Fin g → EReal) : Fin g → Fin h → EReal :=
  fun q j => ∑ p : Fin n, oh p q * y p j

/-- The weights of each graph summed: with `oh` a membership indicator, the number of its nodes. -/
def poolCnt {n g : Nat} (oh : Fin n → Fin g → EReal) : Fin g → EReal := fun q => ∑ p : Fin n, oh p q

end Cert.Spec

end
-- ==== Proof.KOut.lean ====
/-
  What the kernel program computes, as one function of its thirteen argument arrays on the extended reals: per layer a
  dense product (row by column, `Spec.mm`), the shared aggregation over the edges (`layerTail`), and batch
  normalisation with the rectifier in its scale-and-shift form, the coefficients made from the column sums and the
  column sums of squares; then the membership-weighted sums and weight sums over all nodes and the pooling tail.
-/
import proofs.«417032_j62294205661279_1_alg».proof.Proof.KStageDefs
import proofs.«417032_j62294205661279_1_alg».proof.Proof.KStageEdge
import proofs.«417032_j62294205661279_1_alg».proof.Proof.Spec
import Idealize.ShloMosaic.Lib.ValueIdx

noncomputable section

namespace Cert.KernelIdeal.Val

open Idealize.ShloMosaic Idealize.ShloMosaic.TcCoe Idealize.ShloMosaic.ValueIdx
open Cert.KernelIdeal Cert.KernelIdeal.Gen Cert.Spec

/-- The dense product as an array: entry (n, j) is row n of `x` against column j of `w`. -/
def denseK (x : FVec Ideal S100000x128 .f32) (w : FVec Ideal S128x128 .f32) : FVec Ideal S100000x128 .f32 :=
  fun i => mm (cur2 x) (cur2 w) (i 0) (i 1)

/-- The column sums of `a` as a 1 x 128 row. -/
def sumRow (a : FVec Ideal S100000x128 .f32) : FVec Ideal S1x128 .f32 := fun j => colSum (cur2 a) (j 1)

/-- The column sums of squares of `a` as a 1 x 128 row. -/
def sqRow (a : FVec Ideal S100000x128 .f32) : FVec Ideal S1x128 .f32 := fun j => colSumSq (cur2 a) (j 1)

/-- Scale, shift and clamp every entry by its column's coefficients. -/
def applyK (a : FVec Ideal S100000x128 .f32) (sc sh : FVec Ideal S1x128 .f32) : FVec Ideal S100000x128 .f32 :=
  fun i => affRelu (cur2 a) (fun j => sc (ix2 0 j)) (fun j => sh (ix2 0 j)) (i 0) (i 1)

/-- Batch normalisation and the rectifier, coefficients from the two column statistics. -/
def bnK (a : FVec Ideal S100000x128 .f32) (g be : FVec Ideal S128 .f32) : FVec Ideal S100000x128 .f32 :=
  applyK a (bnScale (F := Ideal) (sumRow a) (sqRow a) g) (bnShift (F := Ideal) (sumRow a) (sqRow a) g be)

/-- One graph-convolution layer before normalisation: dense product, aggregation over the edges, bias. -/
def layerK (ei : IVec S2x1600000 32) (y : FVec Ideal S100000x128 .f32) (w : FVec Ideal S128x128 .f32)
    (b : FVec Ideal S128 .f32) : FVec Ideal S100000x128 .f32 :=
  layerTail (F := Ideal) (denseK y w) (srcOf ei) (dstOf ei) (normOf (F := Ideal) ei) b

/-- The membership-weighted sums of the rows of `y`, one row per graph. -/
def pooledK (bt : IVec S100000 32) (y : FVec Ideal S100000x128 .f32) : FVec Ideal S64x128 .f32 :=
  fun i => poolSum (cur2 y) (cur2 (oneHot (F := Ideal) bt)) (i 0) (i 1)

/-- The membership weights summed, one entry per graph. -/
def countK (bt : IVec S100000 32) : FVec Ideal S1x64 .f32 :=
  fun j => poolCnt (cur2 (oneHot (F := Ideal) bt)) (j 1)

/-- The whole program's result. -/
def outK (x : FVec Ideal S100000x128 .f32) (ei : IVec S2x1600000 32) (bt : IVec S100000 32)
    (w0 : FVec Ideal S128x128 .f32) (b0 g0 be0 : FVec Ideal S128 .f32) (w1 : FVec Ideal S128x128 .f32)
    (b1 g1 be1 : FVec Ideal S128 .f32) (wfc : FVec Ideal S128x32 .f32) (bfc : FVec Ideal S32 .f32) :
    FVec Ideal S64x32 .f32 :=
  poolTail (F := Ideal)
    (pooledK bt (bnK (layerK ei (bnK (layerK ei x w0 b0) g0 be0) w1 b1) g1 be1))
    (countK bt) wfc bfc

end Cert.KernelIdeal.Val

end
-- ==== Proof.AlgSum.lean ====
/-
  Two facts about finite sums in a commutative additive monoid, with no program in sight.
  (1) An accumulator that is reset to `z + f 0` at the first step and adds `f t` at every later step holds, after step
      `t`, `z` plus the sum of `f` over the steps so far: the order of the additions does not matter.
  (2) A sum over `Fin (b * s)` is the sum over the `b` blocks of `s` consecutive indices of each block's sum; block `t`
      holds the indices `r + s * t`, `r < s` (Mathlib's `finProdFinEquiv`).
-/
import Mathlib.Algebra.BigOperators.Fin
import Mathlib.Algebra.BigOperators.Intervals
import Mathlib.Logic.Equiv.Fin.Basic

namespace Cert.AlgSum

/-- The accumulator after step `t`: `z + f 0` at the first step, the previous value plus `f t` afterwards. -/
def accChain {M : Type*} [Add M] (z : M) (f : ℕ → M) : ℕ → M
  | 0 => z + f 0
  | t + 1 => accChain z f t + f (t + 1)

/-- The accumulator after step `t` is `z` plus the sum of the first `t + 1` terms. -/
theorem accChain_eq_sum {M : Type*} [AddCommMonoid M] (z : M) (f : ℕ → M) (t : ℕ) :
    accChain z f t = z + ∑ u ∈ Finset.range (t + 1), f u := by
  induction t with
  | zero => simp [accChain]
  | succ t ih => rw [accChain, ih, Finset.sum_range_succ _ (t + 1), add_assoc]

/-- A sum over `b * s` consecutive indices, block by block. -/
theorem sum_blocks {M : Type*} [AddCommMonoid M] (b s : ℕ) (a : Fin (b * s) → M) :
    ∑ t : Fin b, ∑ r : Fin s, a (finProdFinEquiv (t, r)) = ∑ n : Fin (b * s), a n := by
  rw [← Fintype.sum_prod_type' (f := fun t r => a (finProdFinEquiv (t, r)))]
  exact Equiv.sum_comp finProdFinEquiv a

/-- The same sum over the first `b` steps counted by a natural number, as an accumulator's steps are. -/
theorem sum_range_blocks {M : Type*} [AddCommMonoid M] (b : ℕ) (f : Fin b → M) (g : ℕ → M)
    (hg : ∀ t : Fin b, g t.val = f t) : ∑ u ∈ Finset.range b, g u = ∑ t : Fin b, f t := by
  rw [Finset.sum_range]
  exact Finset.sum_congr rfl fun t _ => hg t

end Cert.AlgSum
-- ==== Proof.RegMM.lean ====
/-
  The two dense products. Each of the twenty grid points multiplies a block of 5000 consecutive rows of the node
  features by the whole 128 x 128 weight matrix and writes the block of the result with the same rows; a change of
  float format is the identity on the extended reals and the product accumulates into zero. The blocks tile the
  rows, so after the last point the result array is, row by row, the rows of the features against the columns of
  the weights.
-/
import proofs.«417032_j62294205661279_1_alg».proof.Proof.Gen.KernelIdeal.Frame
import proofs.«417032_j62294205661279_1_alg».proof.Proof.Spec
import proofs.«417032_j62294205661279_1_alg».proof.Proof.AlgSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

-- the contents of the core's buffers when a region is entered: every lemma below holds for any of them
variable (V : (c : Dev nD) → (b : Ref sig .tc) → Buf (Elt Ideal) ((c : Thread nD τ).loc b))

/-- A block is loaded and stored whole: both offsets are zero. -/
theorem mm_hz : (![0, 0] : Fin 2 → Nat) = fun _ => 0 := funext fun a => by fin_cases a <;> rfl

/-- The product's dimension numbers: rows of the left operand against columns of the right. -/
abbrev mmDims : DotDims S5000x128 S128x128 S5000x128 := dot_S5000x128_S128x128_S5000x128_1_0_0_1_n_n

/-- The left operand is read at the result's row and at the contraction position; the right operand at the
    contraction position and at the result's column (the next four facts, one per operand axis). -/
theorem mmDims_lhs_0 (j : S5000x128.Idx) (k : mmDims.contr.Idx) :
    (dot_S5000x128_S128x128_S5000x128_1_0_0_1_n_n.lhsIdx j k 0).val = (j 0).val := by
  simp [DotDims.lhsIdx, dot_S5000x128_S128x128_S5000x128_1_0_0_1_n_n]; rfl

theorem mmDims_lhs_1 (j : S5000x128.Idx) (k : mmDims.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

theorem mmDims_rhs_0 (j : S5000x128.Idx) (k : mmDims.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

theorem mmDims_rhs_1 (j : S5000x128.Idx) (k : mmDims.contr.Idx) :
    (dot_S5000x128_S128x128_S5000x128_1_0_0_1_n_n.rhsIdx j k 1).val = (j 1).val := by
  simp [DotDims.rhsIdx, dot_S5000x128_S128x128_S5000x128_1_0_0_1_n_n]; rfl

/-- The block's product at an entry: the format changes are the identity and the accumulator is zero, so the entry
    is the row of the left block against the column of the weights. -/
theorem mm_pay0_apply (x : Vec Ideal S5000x128 .f32) (w : Vec Ideal S128x128 .f32) (p : Fin 5000) (q : Fin 128) :
    (k0_pay1 (F := Ideal) x w) (ix2 p q) = ∑ l : Fin 128, x (ix2 p l) * w (ix2 l q) := by
  unfold k0_pay1
  refine (Ideal.matmul_constant_zero_apply dot_S5000x128_S128x128_S5000x128_1_0_0_1_n_n none _ _ (ix2 p q)).trans ?_
  rw [← Equiv.sum_comp (contrEquiv1 dot_S5000x128_S128x128_S5000x128_1_0_0_1_n_n 128 rfl rfl).symm]
  refine Finset.sum_congr rfl fun l _ => ?_
  have hk := contrEquiv1_symm_val dot_S5000x128_S128x128_S5000x128_1_0_0_1_n_n 128 rfl rfl l
  rw [truncf_apply, truncf_apply]
  congr 2
  · funext a; apply Fin.ext
    match a with
    | ⟨0, _⟩ => exact mmDims_lhs_0 _ _
    | ⟨1, _⟩ => exact (mmDims_lhs_1 _ _).trans hk
  · funext a; apply Fin.ext
    match a with
    | ⟨0, _⟩ => exact (mmDims_rhs_0 _ _).trans hk
    | ⟨1, _⟩ => exact mmDims_rhs_1 _ _

/-- Where the windows sit at a point: the feature block and the result block are the point's 5000 rows, all 128
    columns; the weights are whole at every point. -/
theorem mm_idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature block at point `t` is rows `5000 t … 5000 t + 4999` of the features. -/
theorem mm_xblk0_apply (c : Dev nD) (t : Fin cfg0.N) (y : S5000x128.Idx) (k : S100000x128.Idx)
    (hk0 : (k 0).val = 5000 * t.val + (y 0).val) (hk1 : (k 1).val = (y 1).val) :
    (iblk0 (F := Ideal) V c 0 t : Vec Ideal S5000x128 .f32) y = (V c main_arg0 : FVec Ideal S100000x128 .f32) k := by
  obtain ⟨e00, e01, -, -, -, -⟩ := mm_idx0 t
  show (V c main_arg0 : FVec Ideal S100000x128 .f32) (((cfg0.win 0).blk t).view.emb y) = _
  refine congrArg (V c main_arg0 : FVec Ideal S100000x128 .f32) (funext fun a => Fin.ext ?_)
  match a with
  | ⟨0, _⟩ => show win0_0.index t (0 : Fin 2) * 5000 + 1 * (y 0).val = (k 0).val; omega
  | ⟨1, _⟩ => show win0_0.index t (1 : Fin 2) * 128 + 1 * (y 1).val = (k 1).val; omega

/-- The weight block at every point is the whole weight matrix. -/
theorem mm_wblk0_eq (c : Dev nD) (t : Fin cfg0.N) :
    (iblk0 (F := Ideal) V c 1 t : Vec Ideal S128x128 .f32) = (V c main_arg3 : FVec Ideal S128x128 .f32) := by
  obtain ⟨-, -, e10, e11, -, -⟩ := mm_idx0 t
  funext y
  show (V c main_arg3 : FVec Ideal S128x128 .f32) (((cfg0.win 1).blk t).view.emb y) = _
  refine congrArg (V c main_arg3 : FVec Ideal S128x128 .f32) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The block product over a block of rows `5000 T …` of `X` and the whole of `W`, at an entry, is the entry of the
    whole product in the same row of `X` and the same column. -/
theorem mm_pay0_blk (x : Vec Ideal S5000x128 .f32) (w : Vec Ideal S128x128 .f32)
    (X : FVec Ideal S100000x128 .f32) (W : FVec Ideal S128x128 .f32) (T : Nat)
    (hx : ∀ (y : S5000x128.Idx) (k : S100000x128.Idx), (k 0).val = 5000 * T + (y 0).val → (k 1).val = (y 1).val → x y = X k)
    (hw : w = W) (j : S5000x128.Idx) (i : S100000x128.Idx)
    (hi0 : (i 0).val = 5000 * T + (j 0).val) (hi1 : (i 1).val = (j 1).val) :
    (k0_pay1 (F := Ideal) x w) j = mm (cur2 X) (cur2 W) (i 0) (i 1) := by
  obtain ⟨p, q, rfl⟩ : ∃ (p : Fin 5000) (q : Fin 128), j = ix2 p q := ⟨j 0, j 1, eq_ix2 j⟩
  obtain ⟨r, s, rfl⟩ : ∃ (r : Fin 100000) (s : Fin 128), i = ix2 r s := ⟨i 0, i 1, eq_ix2 i⟩
  have hs : s = q := Fin.ext hi1
  subst hs hw
  rw [mm_pay0_apply]
  show _ = ∑ l : Fin 128, X (ix2 r l) * w (ix2 l s)
  exact Finset.sum_congr rfl fun l _ => congrArg (· * w (ix2 l s)) (hx (ix2 p l) (ix2 r l) hi0 rfl)

/-- The whole product: row `i 0` of the features against column `i 1` of the weights. -/
abbrev mm_prod0 (c : Dev nD) : FVec Ideal S100000x128 .f32 :=
  fun i => mm (cur2 (V c main_arg0 : FVec Ideal S100000x128 .f32)) (cur2 (V c main_arg3 : FVec Ideal S128x128 .f32)) (i 0) (i 1)

/-- What point `t` writes back is its block of rows of the whole product. -/
theorem mm_flushed0_eq (c : Dev nD) (t : Fin cfg0.N) :
    (dat0 (F := Ideal) V c).flushed 2 t = ((cfg0.win 2).blk t).view.read (Elt Ideal) (mm_prod0 V c) := by
  show (cfg0.win 2).cut (grid0.coords t) ((dat0 (F := Ideal) V c).after 2 t) = _
  rw [after0_2]
  unfold out0_2
  rw [View.canon_unit_zero mm_hz]
  simp only [View.ld_unit_zero (S := S5000x128) mm_hz, View.ld_unit_zero (S := S128x128) mm_hz]
  obtain ⟨-, -, -, -, e20, e21⟩ := mm_idx0 t
  funext j
  refine mm_pay0_blk (iblk0 (F := Ideal) V c 0 t) (iblk0 (F := Ideal) V c 1 t) (V c main_arg0) (V c main_arg3) t.val
    (fun y k h0 h1 => mm_xblk0_apply V c t y k h0 h1) (mm_wblk0_eq V c t) j (((cfg0.win 2).blk t).view.emb j) ?_ ?_
  · show win0_2.index t (0 : Fin 2) * 5000 + 1 * (j 0).val = _; omega
  · show win0_2.index t (1 : Fin 2) * 128 + 1 * (j 1).val = _; omega

/-- An entry of the result array is in point `t`'s block iff each coordinate is in the block's range on its axis. -/
theorem mm_mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- The twenty blocks of 5000 rows tile the 100000 rows: row `r` lies in the block of point `r / 5000`. -/
theorem mm_cover0 (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 20 := N_0
  refine ⟨⟨(i 0).val / 5000, by rw [hN]; omega⟩, flush0_2 _, ?_⟩
  obtain ⟨-, -, -, -, e20, e21⟩ := mm_idx0 ⟨(i 0).val / 5000, by rw [hN]; omega⟩
  rw [mm_mem_blk0]
  intro a
  match a with
  | ⟨0, _⟩ =>
    show win0_2.index _ (0 : Fin 2) * 5000 ≤ (i 0).val ∧ (i 0).val < win0_2.index _ (0 : Fin 2) * 5000 + 5000
    rw [e20]; show (i 0).val / 5000 * 5000 ≤ (i 0).val ∧ (i 0).val < (i 0).val / 5000 * 5000 + 5000; omega
  | ⟨1, _⟩ =>
    show win0_2.index _ (1 : Fin 2) * 128 ≤ (i 1).val ∧ (i 1).val < win0_2.index _ (1 : Fin 2) * 128 + 128
    rw [e21]; omega

/-- First layer: the result array after the run is the node features times the weight matrix. -/
theorem final0 (c : Dev nD) :
    (dat0 (F := Ideal) V c).arrAt 2 cfg0.N
      = ((fun i => mm (cur2 (V c main_arg0 : FVec Ideal S100000x128 .f32)) (cur2 (V c main_arg3 : FVec Ideal S128x128 .f32)) (i 0) (i 1))
          : FVec Ideal S100000x128 .f32) :=
  (dat0 (F := Ideal) V c).arrAt_eq_of_cover 2 (mm_prod0 V c) (fun t _ => mm_flushed0_eq V c t) mm_cover0

/-- The second product's block payload is the first's: the one extra cast of a block to its own shape is the identity. -/
theorem mm_pay3_eq (x : Vec Ideal S5000x128 .f32) (w : Vec Ideal S128x128 .f32) :
    k3_pay1 (F := Ideal) x w = k0_pay1 (F := Ideal) x w := by
  unfold k3_pay1 k0_pay1
  simp only [shapeCast_self]

/-- Where the second product's windows sit at a point: as the first's. -/
theorem mm_idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left block at point `t` is rows `5000 t … 5000 t + 4999` of the first layer's output. -/
theorem mm_xblk3_apply (c : Dev nD) (t : Fin cfg3.N) (y : S5000x128.Idx) (k : S100000x128.Idx)
    (hk0 : (k 0).val = 5000 * t.val + (y 0).val) (hk1 : (k 1).val = (y 1).val) :
    (iblk3 (F := Ideal) V c 0 t : Vec Ideal S5000x128 .f32) y = (V c main_v62 : FVec Ideal S100000x128 .f32) k := by
  obtain ⟨e00, e01, -, -, -, -⟩ := mm_idx3 t
  show (V c main_v62 : FVec Ideal S100000x128 .f32) (((cfg3.win 0).blk t).view.emb y) = _
  refine congrArg (V c main_v62 : FVec Ideal S100000x128 .f32) (funext fun a => Fin.ext ?_)
  match a with
  | ⟨0, _⟩ => show win3_0.index t (0 : Fin 2) * 5000 + 1 * (y 0).val = (k 0).val; omega
  | ⟨1, _⟩ => show win3_0.index t (1 : Fin 2) * 128 + 1 * (y 1).val = (k 1).val; omega

/-- The weight block at every point is the whole second weight matrix. -/
theorem mm_wblk3_eq (c : Dev nD) (t : Fin cfg3.N) :
    (iblk3 (F := Ideal) V c 1 t : Vec Ideal S128x128 .f32) = (V c main_arg7 : FVec Ideal S128x128 .f32) := by
  obtain ⟨-, -, e10, e11, -, -⟩ := mm_idx3 t
  funext y
  show (V c main_arg7 : FVec Ideal S128x128 .f32) (((cfg3.win 1).blk t).view.emb y) = _
  refine congrArg (V c main_arg7 : FVec Ideal S128x128 .f32) (funext fun a => Fin.ext ?_)
  match a with
  | ⟨0, _⟩ => show win3_1.index t (0 : Fin 2) * 128 + 1 * (y 0).val = (y 0).val; omega
  | ⟨1, _⟩ => show win3_1.index t (1 : Fin 2) * 128 + 1 * (y 1).val = (y 1).val; omega

/-- The whole second product: row `i 0` of the first layer's output against column `i 1` of the second weights. -/
abbrev mm_prod3 (c : Dev nD) : FVec Ideal S100000x128 .f32 :=
  fun i => mm (cur2 (V c main_v62 : FVec Ideal S100000x128 .f32)) (cur2 (V c main_arg7 : FVec Ideal S128x128 .f32)) (i 0) (i 1)

/-- What point `t` writes back is its block of rows of the whole second product. -/
theorem mm_flushed3_eq (c : Dev nD) (t : Fin cfg3.N) :
    (dat3 (F := Ideal) V c).flushed 2 t = ((cfg3.win 2).blk t).view.read (Elt Ideal) (mm_prod3 V c) := by
  show (cfg3.win 2).cut (grid3.coords t) ((dat3 (F := Ideal) V c).after 2 t) = _
  rw [after3_2]
  unfold out3_2
  rw [View.canon_unit_zero mm_hz]
  simp only [View.ld_unit_zero (S := S5000x128) mm_hz, View.ld_unit_zero (S := S128x128) mm_hz]
  obtain ⟨-, -, -, -, e20, e21⟩ := mm_idx3 t
  funext j
  refine (congrFun (mm_pay3_eq (iblk3 (F := Ideal) V c 0 t) (iblk3 (F := Ideal) V c 1 t)) j).trans ?_
  refine mm_pay0_blk (iblk3 (F := Ideal) V c 0 t) (iblk3 (F := Ideal) V c 1 t) (V c main_v62) (V c main_arg7) t.val
    (fun y k h0 h1 => mm_xblk3_apply V c t y k h0 h1) (mm_wblk3_eq V c t) j (((cfg3.win 2).blk t).view.emb j) ?_ ?_
  · show win3_2.index t (0 : Fin 2) * 5000 + 1 * (j 0).val = _; omega
  · show win3_2.index t (1 : Fin 2) * 128 + 1 * (j 1).val = _; omega

/-- An entry of the second result array is in point `t`'s block iff each coordinate is in the block's range on its axis. -/
theorem mm_mem_blk3 (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v63).slice (win3_2.rect t)).set ↔ _
  rw [View.set_slice_whole, Rect.mem_set_unit]
  exact Iff.rfl

/-- Again the twenty blocks of 5000 rows tile the 100000 rows: row `r` lies in the block of point `r / 5000`. -/
theorem mm_cover3 (i : S100000x128.Idx) :
    ∃ t : Fin cfg3.N, (cfg3.win 2).flush t = true ∧ i ∈ ((cfg3.win 2).blk t).view.set := by
  have hi0 : (i 0).val < 100000 := idx2_lt0 i
  have hi1 : (i 1).val < 128 := idx2_lt1 i
  have hN : cfg3.N = 20 := N_3
  refine ⟨⟨(i 0).val / 5000, by rw [hN]; omega⟩, flush3_2 _, ?_⟩
  obtain ⟨-, -, -, -, e20, e21⟩ := mm_idx3 ⟨(i 0).val / 5000, by rw [hN]; omega⟩
  rw [mm_mem_blk3]
  intro a
  match a with
  | ⟨0, _⟩ =>
    show win3_2.index _ (0 : Fin 2) * 5000 ≤ (i 0).val ∧ (i 0).val < win3_2.index _ (0 : Fin 2) * 5000 + 5000
    rw [e20]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e21]; omega

/-- Second layer: the same product, of the first layer's output with the second weight matrix. -/
theorem final3 (c : Dev nD) :
    (dat3 (F := Ideal) V c).arrAt 2 cfg3.N
      = ((fun i => mm (cur2 (V c main_v62 : FVec Ideal S100000x128 .f32)) (cur2 (V c main_arg7 : FVec Ideal S128x128 .f32)) (i 0) (i 1))
          : FVec Ideal S100000x128 .f32) :=
  (dat3 (F := Ideal) V c).arrAt_eq_of_cover 2 (mm_prod3 V c) (fun t _ => mm_flushed3_eq V c t) mm_cover3

end Cert.KernelIdeal.Val

end
-- ==== Proof.RegStats.lean ====
/-
  The two column statistics. The two outputs are one 1 x 128 block each whose index never moves: the first grid
  point resets them to zero, every point adds to the first the column sums of its block of 5000 rows and to the
  second the column sums of the squares, and the block is written back after the last point. An accumulator's
  value does not depend on the order of its additions, and the twenty blocks tile the rows, so the arrays end at
  the column sums, and the column sums of squares, over all rows.

  The argument, layer by layer: (1) what a point leaves in each output block, as the body's arithmetic applied to the
  point's block of rows and to what the output block held (zero at the first point); (2) that arithmetic at column
  `j`: the old entry plus the sum over the block's 5000 rows of the entry (of its square) in column `j`; (3) row `r`
  of block `t` is row `r + 5000 t` of the array; (4) by induction on the point, the output block after point `n`
  is the accumulator `0 + s 0 + … + s n` of the blocks' column sums `s t`; (5) after the last point that is the
  sum over the twenty blocks of the sums over their rows, which is the sum over all 100000 rows; (6) the one
  write-back, after the last point, writes the whole 1 x 128 array.
-/
import proofs.«417032_j62294205661279_1_alg».proof.Proof.Gen.KernelIdeal.Frame
import proofs.«417032_j62294205661279_1_alg».proof.Proof.Spec
import proofs.«417032_j62294205661279_1_alg».proof.Proof.AlgSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

-- the contents of the core's buffers when a region is entered: every lemma below holds for any of them
variable (V : (c : Dev nD) → (b : Ref sig .tc) → Buf (Elt Ideal) ((c : Thread nD τ).loc b))

/-- The zero offsets of a whole-block access. -/
theorem stat_hz : (![0, 0] : Fin 2 → Nat) = fun _ => 0 := funext fun a => by fin_cases a <;> rfl

/-- The row index a column index `jj` of the reduced vector and a row `r` stand for: entry `(r, jj)` of the block. -/
theorem stat_lift_row (jj : S128.Idx) (r : Fin 5000) :
    reduces_S5000x128_S128.lift jj r = (ix2 r (jj 0) : S5000x128.Idx) :=
  funext fun a => match a with | ⟨0, _⟩ => Fin.ext rfl | ⟨1, _⟩ => Fin.ext rfl

/-! ## First layer: what one point leaves in the two output blocks -/

section Pieces1
variable {F : FTy → Type} [FloatOps F]

/-- A later point leaves in the first output block the body's sum-update of the point's rows `x` and of what the
    block held, `xo1`: its one store covers the block, and its loads read the whole buffers. -/
theorem stat1_out_B_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_1 c i a1 h1 a2 h2 a3 h3 hc x xo1 xo2 = k1_pay4 x xo1 := by
  unfold out1_B_1
  rw [View.read_writes_eq_canon _ _ _ (cover1_B_1 c i a1 h1 a2 h2 a3 h3 hc x xo1 xo2)]
  unfold kernelRun1_B
  dsimp only
  sl_unfold_words
  rw [View.canon_unit_zero stat_hz]
  simp only [View.readAt_eq_ld, h1.read_unread, h2.read_unread, View.ld_unit_zero (S := S5000x128) stat_hz,
    View.ld_unit_zero (S := S1x128) stat_hz]

/-- A later point leaves in the second output block the body's square-update of `x` and of what the block held, `xo2`. -/
theorem stat1_out_B_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond1_0 i) (x : Vec F S5000x128 .f32) (xo1 xo2 : Vec F S1x128 .f32) :
    out1_B_2 c i a1 h1 a2 h2 a3 h3 hc x xo1 xo2 = k1_pay5 x xo2 := by
  unfold out1_B_2
  rw [View.read_writes_eq_canon _ _ _ (cover1_B_2 c i a1 h1 a2 h2 a3 h3 hc x xo1 xo2)]
  unfold kernelRun1_B
  dsimp only
  sl_unfold_words
  rw [View.canon_unit_zero stat_hz]
  simp only [View.readAt_eq_ld, h1.read_unread, h3.read_unread, View.ld_unit_zero (S := S5000x128) stat_hz,
    View.ld_unit_zero (S := S1x128) stat_hz]

/-- The first point stores the zero block, reads it back, and leaves the sum-update of its rows and of that zero block:
    the later store covers the block, and what it read is what the earlier store wrote. -/
theorem stat1_out_A_1 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_1 c i a1 h1 a2 h2 a3 h3 hc x = k1_pay4 x (k1_pay1 (F := F)) := by
  unfold out1_A_1
  rw [View.read_writes_eq_canon _ _ _ (cover1_A_1 c i a1 h1 a2 h2 a3 h3 hc x)]
  unfold kernelRun1_A
  dsimp only
  sl_unfold_words
  rw [View.canon_cons_unit_zero (S := S1x128) stat_hz, View.readCov_unit_zero (S := S1x128) _ stat_hz]
  simp only [View.readAt_eq_ld, h1.read_unread, View.ld_unit_zero (S := S5000x128) stat_hz]

/-- The same at the first point for the second output block. -/
theorem stat1_out_A_2 (c : Dev nD) (i : grid1.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond1_0 i) (x : Vec F S5000x128 .f32) :
    out1_A_2 c i a1 h1 a2 h2 a3 h3 hc x = k1_pay5 x (k1_pay2 (F := F)) := by
  unfold out1_A_2
  rw [View.read_writes_eq_canon _ _ _ (cover1_A_2 c i a1 h1 a2 h2 a3 h3 hc x)]
  unfold kernelRun1_A
  dsimp only
  sl_unfold_words
  rw [View.canon_cons_unit_zero (S := S1x128) stat_hz, View.readCov_unit_zero (S := S1x128) _ stat_hz]
  simp only [View.readAt_eq_ld, h1.read_unread, View.ld_unit_zero (S := S5000x128) stat_hz]

end Pieces1

/-! ### The body's arithmetic at a column -/

/-- The sum-update at column `j`: the old entry plus the sum of column `j` over the block's 5000 rows. The casts to the
    same shape are the identity, the cast 128 → 1 x 128 reads the reduced vector at `j`, and a sum-reduction over the
    row axis is the sum over the rows. -/
theorem stat1_pay4_apply (x : FVec Ideal S5000x128 .f32) (a : FVec Ideal S1x128 .f32) (j : Fin 128) :
    k1_pay4 (F := Ideal) x a (ix2 (0 : Fin 1) j) = a (ix2 0 j) + ∑ r : Fin 5000, x (ix2 r j) := by
  unfold k1_pay4 k1_pay3
  dsimp only
  rw [shapeCast_self, shapeCast_self]
  refine (addf_apply _ _ _).trans ?_
  refine congrArg (a (ix2 0 j) + ·) ?_
  refine (shapeCast_addUnit_apply ![128] _ shapeCasts_S128_S1x128 (ix2 0 j)).trans ?_
  refine (Ideal.multiReduction_add_single x _ reduces_S5000x128_S128 _ _ _).trans ?_
  show ∑ r : Fin 5000, x (reduces_S5000x128_S128.lift (fun a => ix2 (0 : Fin 1) j a.succ) r) = _
  exact Finset.sum_congr rfl fun r _ => congrArg x (stat_lift_row _ r)

/-- The square-update at column `j`: the old entry plus the sum of the squares of column `j` over the block's rows. -/
theorem stat1_pay5_apply (x : FVec Ideal S5000x128 .f32) (a : FVec Ideal S1x128 .f32) (j : Fin 128) :
    k1_pay5 (F := Ideal) x a (ix2 (0 : Fin 1) j) = a (ix2 0 j) + ∑ r : Fin 5000, x (ix2 r j) * x (ix2 r j) := by
  unfold k1_pay5 k1_pay3
  dsimp only
  rw [shapeCast_self, shapeCast_self]
  refine (addf_apply _ _ _).trans ?_
  refine congrArg (a (ix2 0 j) + ·) ?_
  refine (shapeCast_addUnit_apply ![128] _ shapeCasts_S128_S1x128 (ix2 0 j)).trans ?_
  refine (Ideal.multiReduction_add_single (mulf x x) _ reduces_S5000x128_S128 _ _ _).trans ?_
  show ∑ r : Fin 5000, mulf x x (reduces_S5000x128_S128.lift (fun a => ix2 (0 : Fin 1) j a.succ) r) = _
  exact Finset.sum_congr rfl fun r _ => (congrArg (mulf x x) (stat_lift_row _ r)).trans (mulf_apply x x _)

/-- The two reset blocks are zero at every column. -/
theorem stat1_pay1_apply (j : Fin 128) : k1_pay1 (F := Ideal) (ix2 (0 : Fin 1) j) = 0 := Ideal.ofBits_zero_f32
theorem stat1_pay2_apply (j : Fin 128) : k1_pay2 (F := Ideal) (ix2 (0 : Fin 1) j) = 0 := Ideal.ofBits_zero_f32

/-! ### The blocks of rows -/

/-- Point `t`'s block of the input is block `(t, 0)`. -/
theorem stat1_idx : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

/-- The layer's output, 100000 rows of 128 columns, as the region finds it; -/
abbrev stat1_arr (c : Dev nD) : FVec Ideal S100000x128 .f32 := V c main_v46
/-- and the 5000 rows point `t` reads of it. -/
abbrev stat1_blk (c : Dev nD) (t : Fin cfg1.N) : FVec Ideal S5000x128 .f32 := iblk1 V c 0 t

/-- Row `r` of block `t` is row `r + 5000 t` of the array: a block's coordinate is its index times its size plus the
    coordinate inside it. -/
theorem stat1_blk_apply (c : Dev nD) (t : Fin cfg1.N) (r : Fin 5000) (j : Fin 128) (p : Fin 100000)
    (hp : p.val = r.val + 5000 * t.val) :
    stat1_blk V c t (ix2 r j) = stat1_arr V c (ix2 p j) := by
  have hi := stat1_idx t
  unfold stat1_blk iblk1
  rw [View.read_apply]
  show V c main_v46 _ = V c main_v46 _
  congr 1
  funext a
  apply Fin.ext
  match a with
  | ⟨0, _⟩ => show win1_0.index t 0 * 5000 + 1 * r.val = p.val; rw [hi.1, hp]; omega
  | ⟨1, _⟩ => show win1_0.index t 1 * 128 + 1 * j.val = j.val; rw [hi.2]; omega

/-! ### The accumulator -/

/-- Column `j` of block `t` summed over the block's rows (zero past the grid), -/
def stat1_blkSum (c : Dev nD) (j : Fin 128) (t : ℕ) : EReal :=
  if h : t < cfg1.N then ∑ r : Fin 5000, stat1_blk V c ⟨t, h⟩ (ix2 r j) else 0

/-- and its squares summed. -/
def stat1_blkSq (c : Dev nD) (j : Fin 128) (t : ℕ) : EReal :=
  if h : t < cfg1.N then ∑ r : Fin 5000, stat1_blk V c ⟨t, h⟩ (ix2 r j) * stat1_blk V c ⟨t, h⟩ (ix2 r j) else 0

/-- After point `n` the two output blocks hold, at column `j`, the accumulators of the blocks' column sums and of
    their sums of squares — by induction on the point: the first point starts from the zero it has just stored, every
    later point adds to what the point before left (the block is not written back in between). -/
theorem stat1_outs_eq (c : Dev nD) (j : Fin 128) : ∀ (n : ℕ) (h : n < cfg1.N),
    (outsAt1 (F := Ideal) V c n h).1 (ix2 (0 : Fin 1) j) = AlgSum.accChain 0 (stat1_blkSum V c j) n
      ∧ (outsAt1 (F := Ideal) V c n h).2 (ix2 (0 : Fin 1) j) = AlgSum.accChain 0 (stat1_blkSq V c j) n
  | 0, h => by
    rw [outsAt1_A V c ⟨0, h⟩ rfl]
    dsimp only
    constructor
    · refine (congrFun (stat1_out_A_1 (F := Ideal) c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) ((hcond1_0 ⟨0, h⟩).mpr rfl) (iblk1 V c 0 ⟨0, h⟩)) (ix2 (0 : Fin 1) j)).trans ?_
      refine (stat1_pay4_apply (stat1_blk V c ⟨0, h⟩) (k1_pay1 (F := Ideal)) j).trans ?_
      rw [stat1_pay1_apply, AlgSum.accChain, stat1_blkSum, dif_pos h]
    · refine (congrFun (stat1_out_A_2 (F := Ideal) c (grid1.coords ⟨0, h⟩) (ms1_0 ⟨0, h⟩) (hs1_0 ⟨0, h⟩) (ms1_1 ⟨0, h⟩) (hs1_1 ⟨0, h⟩)
        (ms1_2 ⟨0, h⟩) (hs1_2 ⟨0, h⟩) ((hcond1_0 ⟨0, h⟩).mpr rfl) (iblk1 V c 0 ⟨0, h⟩)) (ix2 (0 : Fin 1) j)).trans ?_
      refine (stat1_pay5_apply (stat1_blk V c ⟨0, h⟩) (k1_pay2 (F := Ideal)) j).trans ?_
      rw [stat1_pay2_apply, AlgSum.accChain, stat1_blkSq, dif_pos h]
  | n + 1, h => by
    have hN : cfg1.N = 20 := N_1
    have h20 : n + 1 < 20 := lt_of_lt_of_eq h hN
    have hB : ¬(⟨n + 1, h⟩ : Fin cfg1.N).val % 20 = 0 := by dsimp only; omega
    have ih := stat1_outs_eq c j n (Nat.lt_of_succ_lt h)
    rw [outsAt1_B V c ⟨n + 1, h⟩ hB]
    dsimp only
    constructor
    · refine (congrFun (stat1_out_B_1 (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (fun hh => hB ((hcond1_0 ⟨n + 1, h⟩).mp hh)) (iblk1 V c 0 ⟨n + 1, h⟩)
        (outsAt1 V c n (Nat.lt_of_succ_lt h)).1 (outsAt1 V c n (Nat.lt_of_succ_lt h)).2) (ix2 (0 : Fin 1) j)).trans ?_
      refine (stat1_pay4_apply (stat1_blk V c ⟨n + 1, h⟩) (outsAt1 V c n (Nat.lt_of_succ_lt h)).1 j).trans ?_
      rw [ih.1, AlgSum.accChain, stat1_blkSum, dif_pos h]
    · refine (congrFun (stat1_out_B_2 (F := Ideal) c (grid1.coords ⟨n + 1, h⟩) (ms1_0 ⟨n + 1, h⟩) (hs1_0 ⟨n + 1, h⟩) (ms1_1 ⟨n + 1, h⟩) (hs1_1 ⟨n + 1, h⟩)
        (ms1_2 ⟨n + 1, h⟩) (hs1_2 ⟨n + 1, h⟩) (fun hh => hB ((hcond1_0 ⟨n + 1, h⟩).mp hh)) (iblk1 V c 0 ⟨n + 1, h⟩)
        (outsAt1 V c n (Nat.lt_of_succ_lt h)).1 (outsAt1 V c n (Nat.lt_of_succ_lt h)).2) (ix2 (0 : Fin 1) j)).trans ?_
      refine (stat1_pay5_apply (stat1_blk V c ⟨n + 1, h⟩) (outsAt1 V c n (Nat.lt_of_succ_lt h)).2 j).trans ?_
      rw [ih.2, AlgSum.accChain, stat1_blkSq, dif_pos h]

/-! ### After the last point -/

/-- The accumulator of the twenty blocks' column sums is the column's sum over all rows: an accumulator is a sum,
    and the sum over 20 x 5000 rows block by block is the sum over the 100000 rows. -/
theorem stat1_acc_sum (c : Dev nD) (j : Fin 128) :
    AlgSum.accChain 0 (stat1_blkSum V c j) 19 = colSum (cur2 (stat1_arr V c)) j := by
  have hN : cfg1.N = 20 := N_1
  have hg : ∀ t : Fin 20, stat1_blkSum V c j t.val
      = ∑ r : Fin 5000, (fun n : Fin (20 * 5000) => cur2 (stat1_arr V c) n j) (finProdFinEquiv (t, r)) := fun t => by
    have ht : t.val < cfg1.N := lt_of_lt_of_eq t.isLt hN.symm
    rw [stat1_blkSum, dif_pos ht]
    exact Finset.sum_congr rfl fun r _ => stat1_blk_apply V c ⟨t.val, ht⟩ r j (finProdFinEquiv (t, r)) rfl
  rw [AlgSum.accChain_eq_sum, zero_add]
  refine (AlgSum.sum_range_blocks 20 _ (stat1_blkSum V c j) hg).trans ?_
  exact AlgSum.sum_blocks 20 5000 (fun n : Fin (20 * 5000) => cur2 (stat1_arr V c) n j)

/-- The same for the squares. -/
theorem stat1_acc_sq (c : Dev nD) (j : Fin 128) :
    AlgSum.accChain 0 (stat1_blkSq V c j) 19 = colSumSq (cur2 (stat1_arr V c)) j := by
  have hN : cfg1.N = 20 := N_1
  have hg : ∀ t : Fin 20, stat1_blkSq V c j t.val
      = ∑ r : Fin 5000, (fun n : Fin (20 * 5000) => cur2 (stat1_arr V c) n j * cur2 (stat1_arr V c) n j) (finProdFinEquiv (t, r)) := fun t => by
    have ht : t.val < cfg1.N := lt_of_lt_of_eq t.isLt hN.symm
    rw [stat1_blkSq, dif_pos ht]
    refine Finset.sum_congr rfl fun r _ => ?_
    rw [stat1_blk_apply V c ⟨t.val, ht⟩ r j (finProdFinEquiv (t, r)) rfl]
  rw [AlgSum.accChain_eq_sum, zero_add]
  refine (AlgSum.sum_range_blocks 20 _ (stat1_blkSq V c j) hg).trans ?_
  exact AlgSum.sum_blocks 20 5000 (fun n : Fin (20 * 5000) => cur2 (stat1_arr V c) n j * cur2 (stat1_arr V c) n j)

/-- The two results: every column's sum, and every column's sum of squares, over all rows. -/
abbrev stat1_sum (c : Dev nD) : FVec Ideal S1x128 .f32 := fun j => colSum (cur2 (stat1_arr V c)) (j 1)
abbrev stat1_sq (c : Dev nD) : FVec Ideal S1x128 .f32 := fun j => colSumSq (cur2 (stat1_arr V c)) (j 1)

/-- After the last point the two output blocks hold them. -/
theorem stat1_outs_last (c : Dev nD) (t : Fin cfg1.N) (h19 : t.val = 19) :
    (outsAt1 (F := Ideal) V c t.val t.isLt).1 = stat1_sum V c ∧ (outsAt1 (F := Ideal) V c t.val t.isLt).2 = stat1_sq V c := by
  constructor <;> funext y
  · obtain ⟨p, q, rfl⟩ : ∃ (p : Fin 1) (q : Fin 128), y = ix2 p q := ⟨y 0, y 1, eq_ix2 y⟩
    obtain rfl : p = 0 := Subsingleton.elim _ _
    refine ((stat1_outs_eq V c q t.val t.isLt).1).trans ?_
    rw [h19]; exact stat1_acc_sum V c q
  · obtain ⟨p, q, rfl⟩ : ∃ (p : Fin 1) (q : Fin 128), y = ix2 p q := ⟨y 0, y 1, eq_ix2 y⟩
    obtain rfl : p = 0 := Subsingleton.elim _ _
    refine ((stat1_outs_eq V c q t.val t.isLt).2).trans ?_
    rw [h19]; exact stat1_acc_sq V c q

/-- The one write-back of the first output, after the last point, writes the column sums: block (0, 0) of a 1 x 128
    array read through zero offsets is the array. -/
theorem stat1_flushed_1 (c : Dev nD) (t : Fin cfg1.N) (hf : (cfg1.win 1).flush t = true) :
    (dat1 (F := Ideal) V c).flushed 1 t = ((cfg1.win 1).blk t).view.read (Elt Ideal) (stat1_sum V c) := by
  have hN : t.val < 20 := lt_of_lt_of_eq t.isLt (show cfg1.N = 20 from N_1)
  have h19 : t.val = 19 := by have := (flush1_1 t).mp hf; omega
  show (cfg1.win 1).cut (grid1.coords t) ((dat1 V c).after 1 t) = _
  rw [after1_1, (stat1_outs_last V c t h19).1]
  have hz' : (fun a => win1_1.index t a * main_v47_0.ty.shape.size a) = fun _ => 0 := funext fun a => by fin_cases a <;> rfl
  exact (Memref.read_access_unit_zero (Elt Ideal) main_v47_0 hz' (fun a => by rw [congrFun hz' a]; simp) (stat1_sum V c)).symm

/-- The one write-back of the second output writes the column sums of squares. -/
theorem stat1_flushed_2 (c : Dev nD) (t : Fin cfg1.N) (hf : (cfg1.win 2).flush t = true) :
    (dat1 (F := Ideal) V c).flushed 2 t = ((cfg1.win 2).blk t).view.read (Elt Ideal) (stat1_sq V c) := by
  have hN : t.val < 20 := lt_of_lt_of_eq t.isLt (show cfg1.N = 20 from N_1)
  have h19 : t.val = 19 := by have := (flush1_2 t).mp hf; omega
  show (cfg1.win 2).cut (grid1.coords t) ((dat1 V c).after 2 t) = _
  rw [after1_2, (stat1_outs_last V c t h19).2]
  have hz' : (fun a => win1_2.index t a * main_v47_1.ty.shape.size a) = fun _ => 0 := funext fun a => by fin_cases a <;> rfl
  exact (Memref.read_access_unit_zero (Elt Ideal) main_v47_1 hz' (fun a => by rw [congrFun hz' a]; simp) (stat1_sq V c)).symm

/-- The last point of the grid. -/
theorem stat1_last : (19 : ℕ) < cfg1.N := lt_of_lt_of_eq (by decide : (19 : ℕ) < 20) N_1.symm

/-- The last point's block of the first output is the whole array: every index lies in it. -/
theorem stat1_cover_1 (c : Dev nD) (i : ((cfg1.win 1).arr.view.loc (c.tc : Thread nD τ)).2.ty.Idx) :
    ∃ t : Fin cfg1.N, (cfg1.win 1).flush t = true ∧ i ∈ ((cfg1.win 1).blk t).view.set :=
  ⟨⟨19, stat1_last⟩, (flush1_1 ⟨19, stat1_last⟩).mpr rfl, by
    show i ∈ ((View.whole main_v47_0).slice (win1_1.rect ⟨19, stat1_last⟩)).set
    rw [View.set_slice_whole, Rect.mem_set_unit]
    intro a
    have h0 : (i 0 : Nat) < 1 := (i 0).isLt
    have h1 : (i 1 : Nat) < 128 := (i 1).isLt
    match a with
    | ⟨0, _⟩ =>
      show win1_1.index ⟨19, stat1_last⟩ 0 * win1_1.size 0 ≤ (i 0 : Nat)
        ∧ (i 0 : Nat) < win1_1.index ⟨19, stat1_last⟩ 0 * win1_1.size 0 + win1_1.xsize (grid1.coords ⟨19, stat1_last⟩) 0
      rw [show win1_1.index ⟨19, stat1_last⟩ 0 * win1_1.size 0 = 0 from rfl,
        show win1_1.xsize (grid1.coords ⟨19, stat1_last⟩) 0 = 1 from rfl]; omega
    | ⟨1, _⟩ =>
      show win1_1.index ⟨19, stat1_last⟩ 1 * win1_1.size 1 ≤ (i 1 : Nat)
        ∧ (i 1 : Nat) < win1_1.index ⟨19, stat1_last⟩ 1 * win1_1.size 1 + win1_1.xsize (grid1.coords ⟨19, stat1_last⟩) 1
      rw [show win1_1.index ⟨19, stat1_last⟩ 1 * win1_1.size 1 = 0 from rfl,
        show win1_1.xsize (grid1.coords ⟨19, stat1_last⟩) 1 = 128 from rfl]; omega⟩

/-- The same for the second output. -/
theorem stat1_cover_2 (c : Dev nD) (i : ((cfg1.win 2).arr.view.loc (c.tc : Thread nD τ)).2.ty.Idx) :
    ∃ t : Fin cfg1.N, (cfg1.win 2).flush t = true ∧ i ∈ ((cfg1.win 2).blk t).view.set :=
  ⟨⟨19, stat1_last⟩, (flush1_2 ⟨19, stat1_last⟩).mpr rfl, by
    show i ∈ ((View.whole main_v47_1).slice (win1_2.rect ⟨19, stat1_last⟩)).set
    rw [View.set_slice_whole, Rect.mem_set_unit]
    intro a
    have h0 : (i 0 : Nat) < 1 := (i 0).isLt
    have h1 : (i 1 : Nat) < 128 := (i 1).isLt
    match a with
    | ⟨0, _⟩ =>
      show win1_2.index ⟨19, stat1_last⟩ 0 * win1_2.size 0 ≤ (i 0 : Nat)
        ∧ (i 0 : Nat) < win1_2.index ⟨19, stat1_last⟩ 0 * win1_2.size 0 + win1_2.xsize (grid1.coords ⟨19, stat1_last⟩) 0
      rw [show win1_2.index ⟨19, stat1_last⟩ 0 * win1_2.size 0 = 0 from rfl,
        show win1_2.xsize (grid1.coords ⟨19, stat1_last⟩) 0 = 1 from rfl]; omega
    | ⟨1, _⟩ =>
      show win1_2.index ⟨19, stat1_last⟩ 1 * win1_2.size 1 ≤ (i 1 : Nat)
        ∧ (i 1 : Nat) < win1_2.index ⟨19, stat1_last⟩ 1 * win1_2.size 1 + win1_2.xsize (grid1.coords ⟨19, stat1_last⟩) 1
      rw [show win1_2.index ⟨19, stat1_last⟩ 1 * win1_2.size 1 = 0 from rfl,
        show win1_2.xsize (grid1.coords ⟨19, stat1_last⟩) 1 = 128 from rfl]; omega⟩

/-- First layer: the sum and the sum of squares of every column of the layer's output. -/
theorem final1 (c : Dev nD) :
    (dat1 (F := Ideal) V c).arrAt 1 cfg1.N
        = ((fun j => colSum (cur2 (V c main_v46 : FVec Ideal S100000x128 .f32)) (j 1)) : FVec Ideal S1x128 .f32)
    ∧ (dat1 (F := Ideal) V c).arrAt 2 cfg1.N
        = ((fun j => colSumSq (cur2 (V c main_v46 : FVec Ideal S100000x128 .f32)) (j 1)) : FVec Ideal S1x128 .f32) :=
  ⟨(dat1 (F := Ideal) V c).arrAt_eq_of_cover 1 (stat1_sum V c) (stat1_flushed_1 V c) (stat1_cover_1 c),
    (dat1 (F := Ideal) V c).arrAt_eq_of_cover 2 (stat1_sq V c) (stat1_flushed_2 V c) (stat1_cover_2 c)⟩

/-! ## Second layer: what one point leaves in the two output blocks -/

section Pieces4
variable {F : FTy → Type} [FloatOps F]

/-- A later point leaves in the first output block the body's sum-update of the point's rows `x` and of what the
    block held, `xo1`: its one store covers the block, and its loads read the whole buffers. -/
theorem stat4_out_B_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_1 c i a1 h1 a2 h2 a3 h3 hc x xo1 xo2 = k4_pay4 x xo1 := by
  unfold out4_B_1
  rw [View.read_writes_eq_canon _ _ _ (cover4_B_1 c i a1 h1 a2 h2 a3 h3 hc x xo1 xo2)]
  unfold kernelRun4_B
  dsimp only
  sl_unfold_words
  rw [View.canon_unit_zero stat_hz]
  simp only [View.readAt_eq_ld, h1.read_unread, h2.read_unread, View.ld_unit_zero (S := S5000x128) stat_hz,
    View.ld_unit_zero (S := S1x128) stat_hz]

/-- A later point leaves in the second output block the body's square-update of `x` and of what the block held, `xo2`. -/
theorem stat4_out_B_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : ¬cond4_0 i) (x : Vec F S5000x128 .f32) (xo1 xo2 : Vec F S1x128 .f32) :
    out4_B_2 c i a1 h1 a2 h2 a3 h3 hc x xo1 xo2 = k4_pay5 x xo2 := by
  unfold out4_B_2
  rw [View.read_writes_eq_canon _ _ _ (cover4_B_2 c i a1 h1 a2 h2 a3 h3 hc x xo1 xo2)]
  unfold kernelRun4_B
  dsimp only
  sl_unfold_words
  rw [View.canon_unit_zero stat_hz]
  simp only [View.readAt_eq_ld, h1.read_unread, h3.read_unread, View.ld_unit_zero (S := S5000x128) stat_hz,
    View.ld_unit_zero (S := S1x128) stat_hz]

/-- The first point stores the zero block, reads it back, and leaves the sum-update of its rows and of that zero block:
    the later store covers the block, and what it read is what the earlier store wrote. -/
theorem stat4_out_A_1 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_1 c i a1 h1 a2 h2 a3 h3 hc x = k4_pay4 x (k4_pay1 (F := F)) := by
  unfold out4_A_1
  rw [View.read_writes_eq_canon _ _ _ (cover4_A_1 c i a1 h1 a2 h2 a3 h3 hc x)]
  unfold kernelRun4_A
  dsimp only
  sl_unfold_words
  rw [View.canon_cons_unit_zero (S := S1x128) stat_hz, View.readCov_unit_zero (S := S1x128) _ stat_hz]
  simp only [View.readAt_eq_ld, h1.read_unread, View.ld_unit_zero (S := S5000x128) stat_hz]

/-- The same at the first point for the second output block. -/
theorem stat4_out_A_2 (c : Dev nD) (i : grid4.Coords) (a1 : Memref sig .tc .vmem S5000x128 .f32) (h1 : a1.IsWhole)
    (a2 : Memref sig .tc .vmem S1x128 .f32) (h2 : a2.IsWhole) (a3 : Memref sig .tc .vmem S1x128 .f32) (h3 : a3.IsWhole)
    (hc : cond4_0 i) (x : Vec F S5000x128 .f32) :
    out4_A_2 c i a1 h1 a2 h2 a3 h3 hc x = k4_pay5 x (k4_pay2 (F := F)) := by
  unfold out4_A_2
  rw [View.read_writes_eq_canon _ _ _ (cover4_A_2 c i a1 h1 a2 h2 a3 h3 hc x)]
  unfold kernelRun4_A
  dsimp only
  sl_unfold_words
  rw [View.canon_cons_unit_zero (S := S1x128) stat_hz, View.readCov_unit_zero (S := S1x128) _ stat_hz]
  simp only [View.readAt_eq_ld, h1.read_unread, View.ld_unit_zero (S := S5000x128) stat_hz]

end Pieces4

/-! ### The body's arithmetic at a column -/

/-- The sum-update at column `j`: the old entry plus the sum of column `j` over the block's 5000 rows. The casts to the
    same shape are the identity, the cast 128 → 1 x 128 reads the reduced vector at `j`, and a sum-reduction over the
    row axis is the sum over the rows. -/
theorem stat4_pay4_apply (x : FVec Ideal S5000x128 .f32) (a : FVec Ideal S1x128 .f32) (j : Fin 128) :
    k4_pay4 (F := Ideal) x a (ix2 (0 : Fin 1) j) = a (ix2 0 j) + ∑ r : Fin 5000, x (ix2 r j) := by
  unfold k4_pay4 k4_pay3
  dsimp only
  rw [shapeCast_self, shapeCast_self]
  refine (addf_apply _ _ _).trans ?_
  refine congrArg (a (ix2 0 j) + ·) ?_
  refine (shapeCast_addUnit_apply ![128] _ shapeCasts_S128_S1x128 (ix2 0 j)).trans ?_
  refine (Ideal.multiReduction_add_single x _ reduces_S5000x128_S128 _ _ _).trans ?_
  show ∑ r : Fin 5000, x (reduces_S5000x128_S128.lift (fun a => ix2 (0 : Fin 1) j a.succ) r) = _
  exact Finset.sum_congr rfl fun r _ => congrArg x (stat_lift_row _ r)

/-- The square-update at column `j`: the old entry plus the sum of the squares of column `j` over the block's rows. -/
theorem stat4_pay5_apply (x : FVec Ideal S5000x128 .f32) (a : FVec Ideal S1x128 .f32) (j : Fin 128) :
    k4_pay5 (F := Ideal) x a (ix2 (0 : Fin 1) j) = a (ix2 0 j) + ∑ r : Fin 5000, x (ix2 r j) * x (ix2 r j) := by
  unfold k4_pay5 k4_pay3
  dsimp only
  rw [shapeCast_self, shapeCast_self]
  refine (addf_apply _ _ _).trans ?_
  refine congrArg (a (ix2 0 j) + ·) ?_
  refine (shapeCast_addUnit_apply ![128] _ shapeCasts_S128_S1x128 (ix2 0 j)).trans ?_
  refine (Ideal.multiReduction_add_single (mulf x x) _ reduces_S5000x128_S128 _ _ _).trans ?_
  show ∑ r : Fin 5000, mulf x x (reduces_S5000x128_S128.lift (fun a => ix2 (0 : Fin 1) j a.succ) r) = _
  exact Finset.sum_congr rfl fun r _ => (congrArg (mulf x x) (stat_lift_row _ r)).trans (mulf_apply x x _)

/-- The two reset blocks are zero at every column. -/
theorem stat4_pay1_apply (j : Fin 128) : k4_pay1 (F := Ideal) (ix2 (0 : Fin 1) j) = 0 := Ideal.ofBits_zero_f32
theorem stat4_pay2_apply (j : Fin 128) : k4_pay2 (F := Ideal) (ix2 (0 : Fin 1) j) = 0 := Ideal.ofBits_zero_f32

/-! ### The blocks of rows -/

/-- Point `t`'s block of the input is block `(t, 0)`. -/
theorem stat4_idx : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

/-- The layer's output, 100000 rows of 128 columns, as the region finds it; -/
abbrev stat4_arr (c : Dev nD) : FVec Ideal S100000x128 .f32 := V c main_v79
/-- and the 5000 rows point `t` reads of it. -/
abbrev stat4_blk (c : Dev nD) (t : Fin cfg4.N) : FVec Ideal S5000x128 .f32 := iblk4 V c 0 t

/-- Row `r` of block `t` is row `r + 5000 t` of the array: a block's coordinate is its index times its size plus the
    coordinate inside it. -/
theorem stat4_blk_apply (c : Dev nD) (t : Fin cfg4.N) (r : Fin 5000) (j : Fin 128) (p : Fin 100000)
    (hp : p.val = r.val + 5000 * t.val) :
    stat4_blk V c t (ix2 r j) = stat4_arr V c (ix2 p j) := by
  have hi := stat4_idx t
  unfold stat4_blk iblk4
  rw [View.read_apply]
  show V c main_v79 _ = V c main_v79 _
  congr 1
  funext a
  apply Fin.ext
  match a with
  | ⟨0, _⟩ => show win4_0.index t 0 * 5000 + 1 * r.val = p.val; rw [hi.1, hp]; omega
  | ⟨1, _⟩ => show win4_0.index t 1 * 128 + 1 * j.val = j.val; rw [hi.2]; omega

/-! ### The accumulator -/

/-- Column `j` of block `t` summed over the block's rows (zero past the grid), -/
def stat4_blkSum (c : Dev nD) (j : Fin 128) (t : ℕ) : EReal :=
  if h : t < cfg4.N then ∑ r : Fin 5000, stat4_blk V c ⟨t, h⟩ (ix2 r j) else 0

/-- and its squares summed. -/
def stat4_blkSq (c : Dev nD) (j : Fin 128) (t : ℕ) : EReal :=
  if h : t < cfg4.N then ∑ r : Fin 5000, stat4_blk V c ⟨t, h⟩ (ix2 r j) * stat4_blk V c ⟨t, h⟩ (ix2 r j) else 0

/-- After point `n` the two output blocks hold, at column `j`, the accumulators of the blocks' column sums and of
    their sums of squares — by induction on the point: the first point starts from the zero it has just stored, every
    later point adds to what the point before left (the block is not written back in between). -/
theorem stat4_outs_eq (c : Dev nD) (j : Fin 128) : ∀ (n : ℕ) (h : n < cfg4.N),
    (outsAt4 (F := Ideal) V c n h).1 (ix2 (0 : Fin 1) j) = AlgSum.accChain 0 (stat4_blkSum V c j) n
      ∧ (outsAt4 (F := Ideal) V c n h).2 (ix2 (0 : Fin 1) j) = AlgSum.accChain 0 (stat4_blkSq V c j) n
  | 0, h => by
    rw [outsAt4_A V c ⟨0, h⟩ rfl]
    dsimp only
    constructor
    · refine (congrFun (stat4_out_A_1 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) ((hcond4_0 ⟨0, h⟩).mpr rfl) (iblk4 V c 0 ⟨0, h⟩)) (ix2 (0 : Fin 1) j)).trans ?_
      refine (stat4_pay4_apply (stat4_blk V c ⟨0, h⟩) (k4_pay1 (F := Ideal)) j).trans ?_
      rw [stat4_pay1_apply, AlgSum.accChain, stat4_blkSum, dif_pos h]
    · refine (congrFun (stat4_out_A_2 (F := Ideal) c (grid4.coords ⟨0, h⟩) (ms4_0 ⟨0, h⟩) (hs4_0 ⟨0, h⟩) (ms4_1 ⟨0, h⟩) (hs4_1 ⟨0, h⟩)
        (ms4_2 ⟨0, h⟩) (hs4_2 ⟨0, h⟩) ((hcond4_0 ⟨0, h⟩).mpr rfl) (iblk4 V c 0 ⟨0, h⟩)) (ix2 (0 : Fin 1) j)).trans ?_
      refine (stat4_pay5_apply (stat4_blk V c ⟨0, h⟩) (k4_pay2 (F := Ideal)) j).trans ?_
      rw [stat4_pay2_apply, AlgSum.accChain, stat4_blkSq, dif_pos h]
  | n + 1, h => by
    have hN : cfg4.N = 20 := N_4
    have h20 : n + 1 < 20 := lt_of_lt_of_eq h hN
    have hB : ¬(⟨n + 1, h⟩ : Fin cfg4.N).val % 20 = 0 := by dsimp only; omega
    have ih := stat4_outs_eq c j n (Nat.lt_of_succ_lt h)
    rw [outsAt4_B V c ⟨n + 1, h⟩ hB]
    dsimp only
    constructor
    · refine (congrFun (stat4_out_B_1 (F := Ideal) c (grid4.coords ⟨n + 1, h⟩) (ms4_0 ⟨n + 1, h⟩) (hs4_0 ⟨n + 1, h⟩) (ms4_1 ⟨n + 1, h⟩) (hs4_1 ⟨n + 1, h⟩)
        (ms4_2 ⟨n + 1, h⟩) (hs4_2 ⟨n + 1, h⟩) (fun hh => hB ((hcond4_0 ⟨n + 1, h⟩).mp hh)) (iblk4 V c 0 ⟨n + 1, h⟩)
        (outsAt4 V c n (Nat.lt_of_succ_lt h)).1 (outsAt4 V c n (Nat.lt_of_succ_lt h)).2) (ix2 (0 : Fin 1) j)).trans ?_
      refine (stat4_pay4_apply (stat4_blk V c ⟨n + 1, h⟩) (outsAt4 V c n (Nat.lt_of_succ_lt h)).1 j).trans ?_
      rw [ih.1, AlgSum.accChain, stat4_blkSum, dif_pos h]
    · refine (congrFun (stat4_out_B_2 (F := Ideal) c (grid4.coords ⟨n + 1, h⟩) (ms4_0 ⟨n + 1, h⟩) (hs4_0 ⟨n + 1, h⟩) (ms4_1 ⟨n + 1, h⟩) (hs4_1 ⟨n + 1, h⟩)
        (ms4_2 ⟨n + 1, h⟩) (hs4_2 ⟨n + 1, h⟩) (fun hh => hB ((hcond4_0 ⟨n + 1, h⟩).mp hh)) (iblk4 V c 0 ⟨n + 1, h⟩)
        (outsAt4 V c n (Nat.lt_of_succ_lt h)).1 (outsAt4 V c n (Nat.lt_of_succ_lt h)).2) (ix2 (0 : Fin 1) j)).trans ?_
      refine (stat4_pay5_apply (stat4_blk V c ⟨n + 1, h⟩) (outsAt4 V c n (Nat.lt_of_succ_lt h)).2 j).trans ?_
      rw [ih.2, AlgSum.accChain, stat4_blkSq, dif_pos h]

/-! ### After the last point -/

/-- The accumulator of the twenty blocks' column sums is the column's sum over all rows: an accumulator is a sum,
    and the sum over 20 x 5000 rows block by block is the sum over the 100000 rows. -/
theorem stat4_acc_sum (c : Dev nD) (j : Fin 128) :
    AlgSum.accChain 0 (stat4_blkSum V c j) 19 = colSum (cur2 (stat4_arr V c)) j := by
  have hN : cfg4.N = 20 := N_4
  have hg : ∀ t : Fin 20, stat4_blkSum V c j t.val
      = ∑ r : Fin 5000, (fun n : Fin (20 * 5000) => cur2 (stat4_arr V c) n j) (finProdFinEquiv (t, r)) := fun t => by
    have ht : t.val < cfg4.N := lt_of_lt_of_eq t.isLt hN.symm
    rw [stat4_blkSum, dif_pos ht]
    exact Finset.sum_congr rfl fun r _ => stat4_blk_apply V c ⟨t.val, ht⟩ r j (finProdFinEquiv (t, r)) rfl
  rw [AlgSum.accChain_eq_sum, zero_add]
  refine (AlgSum.sum_range_blocks 20 _ (stat4_blkSum V c j) hg).trans ?_
  exact AlgSum.sum_blocks 20 5000 (fun n : Fin (20 * 5000) => cur2 (stat4_arr V c) n j)

/-- The same for the squares. -/
theorem stat4_acc_sq (c : Dev nD) (j : Fin 128) :
    AlgSum.accChain 0 (stat4_blkSq V c j) 19 = colSumSq (cur2 (stat4_arr V c)) j := by
  have hN : cfg4.N = 20 := N_4
  have hg : ∀ t : Fin 20, stat4_blkSq V c j t.val
      = ∑ r : Fin 5000, (fun n : Fin (20 * 5000) => cur2 (stat4_arr V c) n j * cur2 (stat4_arr V c) n j) (finProdFinEquiv (t, r)) := fun t => by
    have ht : t.val < cfg4.N := lt_of_lt_of_eq t.isLt hN.symm
    rw [stat4_blkSq, dif_pos ht]
    refine Finset.sum_congr rfl fun r _ => ?_
    rw [stat4_blk_apply V c ⟨t.val, ht⟩ r j (finProdFinEquiv (t, r)) rfl]
  rw [AlgSum.accChain_eq_sum, zero_add]
  refine (AlgSum.sum_range_blocks 20 _ (stat4_blkSq V c j) hg).trans ?_
  exact AlgSum.sum_blocks 20 5000 (fun n : Fin (20 * 5000) => cur2 (stat4_arr V c) n j * cur2 (stat4_arr V c) n j)

/-- The two results: every column's sum, and every column's sum of squares, over all rows. -/
abbrev stat4_sum (c : Dev nD) : FVec Ideal S1x128 .f32 := fun j => colSum (cur2 (stat4_arr V c)) (j 1)
abbrev stat4_sq (c : Dev nD) : FVec Ideal S1x128 .f32 := fun j => colSumSq (cur2 (stat4_arr V c)) (j 1)

/-- After the last point the two output blocks hold them. -/
theorem stat4_outs_last (c : Dev nD) (t : Fin cfg4.N) (h19 : t.val = 19) :
    (outsAt4 (F := Ideal) V c t.val t.isLt).1 = stat4_sum V c ∧ (outsAt4 (F := Ideal) V c t.val t.isLt).2 = stat4_sq V c := by
  constructor <;> funext y
  · obtain ⟨p, q, rfl⟩ : ∃ (p : Fin 1) (q : Fin 128), y = ix2 p q := ⟨y 0, y 1, eq_ix2 y⟩
    obtain rfl : p = 0 := Subsingleton.elim _ _
    refine ((stat4_outs_eq V c q t.val t.isLt).1).trans ?_
    rw [h19]; exact stat4_acc_sum V c q
  · obtain ⟨p, q, rfl⟩ : ∃ (p : Fin 1) (q : Fin 128), y = ix2 p q := ⟨y 0, y 1, eq_ix2 y⟩
    obtain rfl : p = 0 := Subsingleton.elim _ _
    refine ((stat4_outs_eq V c q t.val t.isLt).2).trans ?_
    rw [h19]; exact stat4_acc_sq V c q

/-- The one write-back of the first output, after the last point, writes the column sums: block (0, 0) of a 1 x 128
    array read through zero offsets is the array. -/
theorem stat4_flushed_1 (c : Dev nD) (t : Fin cfg4.N) (hf : (cfg4.win 1).flush t = true) :
    (dat4 (F := Ideal) V c).flushed 1 t = ((cfg4.win 1).blk t).view.read (Elt Ideal) (stat4_sum V c) := by
  have hN : t.val < 20 := lt_of_lt_of_eq t.isLt (show cfg4.N = 20 from N_4)
  have h19 : t.val = 19 := by have := (flush4_1 t).mp hf; omega
  show (cfg4.win 1).cut (grid4.coords t) ((dat4 V c).after 1 t) = _
  rw [after4_1, (stat4_outs_last V c t h19).1]
  have hz' : (fun a => win4_1.index t a * main_v80_0.ty.shape.size a) = fun _ => 0 := funext fun a => by fin_cases a <;> rfl
  exact (Memref.read_access_unit_zero (Elt Ideal) main_v80_0 hz' (fun a => by rw [congrFun hz' a]; simp) (stat4_sum V c)).symm

/-- The one write-back of the second output writes the column sums of squares. -/
theorem stat4_flushed_2 (c : Dev nD) (t : Fin cfg4.N) (hf : (cfg4.win 2).flush t = true) :
    (dat4 (F := Ideal) V c).flushed 2 t = ((cfg4.win 2).blk t).view.read (Elt Ideal) (stat4_sq V c) := by
  have hN : t.val < 20 := lt_of_lt_of_eq t.isLt (show cfg4.N = 20 from N_4)
  have h19 : t.val = 19 := by have := (flush4_2 t).mp hf; omega
  show (cfg4.win 2).cut (grid4.coords t) ((dat4 V c).after 2 t) = _
  rw [after4_2, (stat4_outs_last V c t h19).2]
  have hz' : (fun a => win4_2.index t a * main_v80_1.ty.shape.size a) = fun _ => 0 := funext fun a => by fin_cases a <;> rfl
  exact (Memref.read_access_unit_zero (Elt Ideal) main_v80_1 hz' (fun a => by rw [congrFun hz' a]; simp) (stat4_sq V c)).symm

/-- The last point of the grid. -/
theorem stat4_last : (19 : ℕ) < cfg4.N := lt_of_lt_of_eq (by decide : (19 : ℕ) < 20) N_4.symm

/-- The last point's block of the first output is the whole array: every index lies in it. -/
theorem stat4_cover_1 (c : Dev nD) (i : ((cfg4.win 1).arr.view.loc (c.tc : Thread nD τ)).2.ty.Idx) :
    ∃ t : Fin cfg4.N, (cfg4.win 1).flush t = true ∧ i ∈ ((cfg4.win 1).blk t).view.set :=
  ⟨⟨19, stat4_last⟩, (flush4_1 ⟨19, stat4_last⟩).mpr rfl, by
    show i ∈ ((View.whole main_v80_0).slice (win4_1.rect ⟨19, stat4_last⟩)).set
    rw [View.set_slice_whole, Rect.mem_set_unit]
    intro a
    have h0 : (i 0 : Nat) < 1 := (i 0).isLt
    have h1 : (i 1 : Nat) < 128 := (i 1).isLt
    match a with
    | ⟨0, _⟩ =>
      show win4_1.index ⟨19, stat4_last⟩ 0 * win4_1.size 0 ≤ (i 0 : Nat)
        ∧ (i 0 : Nat) < win4_1.index ⟨19, stat4_last⟩ 0 * win4_1.size 0 + win4_1.xsize (grid4.coords ⟨19, stat4_last⟩) 0
      rw [show win4_1.index ⟨19, stat4_last⟩ 0 * win4_1.size 0 = 0 from rfl,
        show win4_1.xsize (grid4.coords ⟨19, stat4_last⟩) 0 = 1 from rfl]; omega
    | ⟨1, _⟩ =>
      show win4_1.index ⟨19, stat4_last⟩ 1 * win4_1.size 1 ≤ (i 1 : Nat)
        ∧ (i 1 : Nat) < win4_1.index ⟨19, stat4_last⟩ 1 * win4_1.size 1 + win4_1.xsize (grid4.coords ⟨19, stat4_last⟩) 1
      rw [show win4_1.index ⟨19, stat4_last⟩ 1 * win4_1.size 1 = 0 from rfl,
        show win4_1.xsize (grid4.coords ⟨19, stat4_last⟩) 1 = 128 from rfl]; omega⟩

/-- The same for the second output. -/
theorem stat4_cover_2 (c : Dev nD) (i : ((cfg4.win 2).arr.view.loc (c.tc : Thread nD τ)).2.ty.Idx) :
    ∃ t : Fin cfg4.N, (cfg4.win 2).flush t = true ∧ i ∈ ((cfg4.win 2).blk t).view.set :=
  ⟨⟨19, stat4_last⟩, (flush4_2 ⟨19, stat4_last⟩).mpr rfl, by
    show i ∈ ((View.whole main_v80_1).slice (win4_2.rect ⟨19, stat4_last⟩)).set
    rw [View.set_slice_whole, Rect.mem_set_unit]
    intro a
    have h0 : (i 0 : Nat) < 1 := (i 0).isLt
    have h1 : (i 1 : Nat) < 128 := (i 1).isLt
    match a with
    | ⟨0, _⟩ =>
      show win4_2.index ⟨19, stat4_last⟩ 0 * win4_2.size 0 ≤ (i 0 : Nat)
        ∧ (i 0 : Nat) < win4_2.index ⟨19, stat4_last⟩ 0 * win4_2.size 0 + win4_2.xsize (grid4.coords ⟨19, stat4_last⟩) 0
      rw [show win4_2.index ⟨19, stat4_last⟩ 0 * win4_2.size 0 = 0 from rfl,
        show win4_2.xsize (grid4.coords ⟨19, stat4_last⟩) 0 = 1 from rfl]; omega
    | ⟨1, _⟩ =>
      show win4_2.index ⟨19, stat4_last⟩ 1 * win4_2.size 1 ≤ (i 1 : Nat)
        ∧ (i 1 : Nat) < win4_2.index ⟨19, stat4_last⟩ 1 * win4_2.size 1 + win4_2.xsize (grid4.coords ⟨19, stat4_last⟩) 1
      rw [show win4_2.index ⟨19, stat4_last⟩ 1 * win4_2.size 1 = 0 from rfl,
        show win4_2.xsize (grid4.coords ⟨19, stat4_last⟩) 1 = 128 from rfl]; omega⟩

/-- Second layer: the same two statistics of the second layer's output. -/
theorem final4 (c : Dev nD) :
    (dat4 (F := Ideal) V c).arrAt 1 cfg4.N
        = ((fun j => colSum (cur2 (V c main_v79 : FVec Ideal S100000x128 .f32)) (j 1)) : FVec Ideal S1x128 .f32)
    ∧ (dat4 (F := Ideal) V c).arrAt 2 cfg4.N
        = ((fun j => colSumSq (cur2 (V c main_v79 : FVec Ideal S100000x128 .f32)) (j 1)) : FVec Ideal S1x128 .f32) :=
  ⟨(dat4 (F := Ideal) V c).arrAt_eq_of_cover 1 (stat4_sum V c) (stat4_flushed_1 V c) (stat4_cover_1 c),
    (dat4 (F := Ideal) V c).arrAt_eq_of_cover 2 (stat4_sq V c) (stat4_flushed_2 V c) (stat4_cover_2 c)⟩

end Cert.KernelIdeal.Val

end
-- ==== Proof.RegApply.lean ====
/-
  The two normalise-and-clamp passes. Each grid point reads a block of 5000 rows, multiplies every column by that
  column's scale, adds that column's shift (both 1 x 128 rows broadcast down the block) and clamps below at zero;
  the blocks tile the rows, so the result array is that pointwise function of the whole input.

  For each pass: the stored value at an entry of a block (the product, the sum and the maximum are entrywise, and a
  one-row array broadcast down the rows reads its single row at the entry's column); block t of the input is rows
  5000 t … 5000 t + 4999 of its array and every block of a coefficient row is the whole row; hence what point t
  writes back is block t of the pointwise function of the whole arrays; row r lies in the block of point r / 5000,
  so the twenty blocks cover the result array.
-/
import proofs.«417032_j62294205661279_1_alg».proof.Proof.Gen.KernelIdeal.Frame
import proofs.«417032_j62294205661279_1_alg».proof.Proof.Spec
import proofs.«417032_j62294205661279_1_alg».proof.Proof.AlgSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

-- the contents of the core's buffers when a region is entered: every lemma below holds for any of them
variable (V : (c : Dev nD) → (b : Ref sig .tc) → Buf (Elt Ideal) ((c : Thread nD τ).loc b))

/-- The zero offsets of a rectangle that is a whole buffer. -/
theorem relu_off0 : (![0, 0] : Fin 2 → Nat) = fun _ => 0 := funext fun a => by fin_cases a <;> rfl

/-! ## The first pass -/

/-- The stored value at entry (p, q) of a block: the block's entry times the scale row's entry of column q, plus the
    shift row's, clamped below at zero. -/
theorem pay2_apply (x0 : Vec Ideal S5000x128 .f32) (x1 x2 : Vec Ideal S1x128 .f32) (p : Fin 5000) (q : Fin 128) :
    k2_pay1 (F := Ideal) x0 x1 x2 (ix2 p q) = max (x0 (ix2 p q) * x1 (ix2 (0 : Fin 1) q) + x2 (ix2 (0 : Fin 1) q)) 0 := by
  unfold k2_pay1
  rw [maximumf_apply, addf_apply, mulf_apply, broadcast_apply, Ideal.ofBits_def, Ideal.ofBits_zero_f32,
    broadcastTo_1b_ab_apply, broadcastTo_1b_ab_apply, shapeCast_self, shapeCast_self, shapeCast_self]

/-- The output buffer after the body is that stored value: one store over the whole buffer, of whole-buffer loads. -/
theorem out2_3_apply (x0 : Vec Ideal S5000x128 .f32) (x1 x2 : Vec Ideal S1x128 .f32) (p : Fin 5000) (q : Fin 128) :
    out2_3 (F := Ideal) x0 x1 x2 (ix2 p q) = max (x0 (ix2 p q) * x1 (ix2 (0 : Fin 1) q) + x2 (ix2 (0 : Fin 1) q)) 0 := by
  unfold out2_3
  rw [View.canon_unit_zero relu_off0]
  simp only [View.ld_unit_zero (S := S5000x128) relu_off0, View.ld_unit_zero (S := S1x128) relu_off0]
  exact pay2_apply x0 x1 x2 p q

/-- The block indices at point t: the input's and the output's blocks are the t-th block of rows, the coefficient
    rows' the one block of their arrays. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Block t of the input is rows 5000 t … 5000 t + 4999 of its array. -/
theorem iblk2_0_apply (c : Dev nD) (t : Fin cfg2.N) (p : Fin 5000) (q : Fin 128) (k : S100000x128.Idx)
    (hk0 : (k 0).val = 5000 * t.val + p.val) (hk1 : (k 1).val = q.val) :
    (iblk2 (F := Ideal) V c 0 t : Vec Ideal S5000x128 .f32) (ix2 p q) = (V c main_v46 : FVec Ideal S100000x128 .f32) k := by
  obtain ⟨e0, e1, -⟩ := idx2 t
  unfold iblk2
  rw [View.read_apply]
  show V c main_v46 _ = V c main_v46 _
  congr 1
  funext a
  apply Fin.ext
  match a with
  | ⟨0, _⟩ => show win2_0.index t (0 : Fin 2) * 5000 + 1 * p.val = (k 0).val; rw [e0, hk0]; omega
  | ⟨1, _⟩ => show win2_0.index t (1 : Fin 2) * 128 + 1 * q.val = (k 1).val; rw [e1, hk1]; omega

/-- Every block of the scale row is the whole row. -/
theorem iblk2_1_apply (c : Dev nD) (t : Fin cfg2.N) (q : Fin 128) :
    (iblk2 (F := Ideal) V c 1 t : Vec Ideal S1x128 .f32) (ix2 (0 : Fin 1) q) = (V c main_v58 : FVec Ideal S1x128 .f32) (ix2 (0 : Fin 1) q) := by
  obtain ⟨-, -, e0, e1, -⟩ := idx2 t
  unfold iblk2
  rw [View.read_apply]
  show V c main_v58 _ = V c main_v58 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- Every block of the shift row is the whole row. -/
theorem iblk2_2_apply (c : Dev nD) (t : Fin cfg2.N) (q : Fin 128) :
    (iblk2 (F := Ideal) V c 2 t : Vec Ideal S1x128 .f32) (ix2 (0 : Fin 1) q) = (V c main_v61 : FVec Ideal S1x128 .f32) (ix2 (0 : Fin 1) q) := by
  obtain ⟨-, -, -, -, e0, e1, -⟩ := idx2 t
  unfold iblk2
  rw [View.read_apply]
  show V c main_v61 _ = V c main_v61 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- The whole result: the pointwise pass over the input array with the two coefficient rows. -/
abbrev G2 (c : Dev nD) : FVec Ideal S100000x128 .f32 :=
  fun i => affRelu (cur2 (V c main_v46 : FVec Ideal S100000x128 .f32))
    (fun j => (V c main_v58 : FVec Ideal S1x128 .f32) (ix2 0 j)) (fun j => (V c main_v61 : FVec Ideal S1x128 .f32) (ix2 0 j)) (i 0) (i 1)

/-- Entry (p, q) of the output's block t sits at row 5000 t + p, column q of its array. -/
theorem blk2_3_emb (t : Fin cfg2.N) (p : Fin 5000) (q : Fin 128) (r : Fin 100000) (hr : r.val = 5000 * t.val + p.val) :
    ((cfg2.win 3).blk t).view.emb (ix2 p q) = (ix2 r q : S100000x128.Idx) := by
  obtain ⟨-, -, -, -, -, -, e0, e1⟩ := idx2 t
  funext a
  apply Fin.ext
  match a with
  | ⟨0, _⟩ => show win2_3.index t (0 : Fin 2) * 5000 + 1 * p.val = r.val; rw [e0, hr]; omega
  | ⟨1, _⟩ => show win2_3.index t (1 : Fin 2) * 128 + 1 * q.val = q.val; rw [e1]; omega

/-- What point t writes back is block t of the whole result: the input's block and the output's block are the same
    rows, and the coefficient rows are read whole. -/
theorem flushed2_eq (c : Dev nD) (t : Fin cfg2.N) :
    (dat2 (F := Ideal) V c).flushed 3 t = ((cfg2.win 3).blk t).view.read (Elt Ideal) (G2 V c) := by
  show (cfg2.win 3).cut (grid2.coords t) ((dat2 (F := Ideal) V c).after 3 t) = _
  rw [after2_3]
  funext j
  obtain ⟨p, q, rfl⟩ : ∃ (p : Fin 5000) (q : Fin 128), j = ix2 p q := ⟨j 0, j 1, eq_ix2 j⟩
  have hN : cfg2.N = 20 := N_2
  have ht : t.val < 20 := hN ▸ t.isLt
  show out2_3 (F := Ideal) (iblk2 V c 0 t) (iblk2 V c 1 t) (iblk2 V c 2 t) (ix2 p q) = G2 V c (((cfg2.win 3).blk t).view.emb (ix2 p q))
  refine (out2_3_apply (iblk2 V c 0 t) (iblk2 V c 1 t) (iblk2 V c 2 t) p q).trans ?_
  rw [blk2_3_emb t p q ⟨5000 * t.val + p.val, by omega⟩ rfl,
    iblk2_0_apply V c t p q (ix2 ⟨5000 * t.val + p.val, by omega⟩ q) rfl rfl, iblk2_1_apply V c t q, iblk2_2_apply V c t q]
  rfl

/-- An index of the output's array is in point t's block iff each coordinate is in the block's range on its axis. -/
theorem mem_blk2_3 (t : Fin cfg2.N) (i : S100000x128.Idx) :
    i ∈ ((cfg2.win 3).blk t).view.set ↔ ∀ a : Fin 2, win2_3.index t a * S5000x128.size a ≤ (i a).val ∧ (i a).val < win2_3.index t a * S5000x128.size a + S5000x128.size a := by
  show i ∈ ((View.whole main_v62).slice (win2_3.rect t)).set ↔ _
  rw [View.set_slice_whole, Rect.mem_set_unit]
  exact Iff.rfl

/-- Row r of the output's array is written back by point r / 5000: the twenty blocks tile the rows. -/
theorem cover2_arr (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  have hN : cfg2.N = 20 := N_2
  have hlt : (i 0).val / 5000 < cfg2.N := by rw [hN]; omega
  obtain ⟨-, -, -, -, -, -, e0, e1⟩ := idx2 ⟨(i 0).val / 5000, hlt⟩
  refine ⟨⟨(i 0).val / 5000, hlt⟩, flush2_3 _, ?_⟩
  rw [mem_blk2_3]
  intro a
  match a with
  | ⟨0, _⟩ =>
    show win2_3.index ⟨(i 0).val / 5000, hlt⟩ (0 : Fin 2) * 5000 ≤ (i 0).val ∧ (i 0).val < win2_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win2_3.index ⟨(i 0).val / 5000, hlt⟩ (1 : Fin 2) * 128 ≤ (i 1).val ∧ (i 1).val < win2_3.index ⟨(i 0).val / 5000, hlt⟩ (1 : Fin 2) * 128 + 128
    rw [e1]; omega

/-- First layer: every entry scaled and shifted by its column's coefficients, then clamped at zero. -/
theorem final2 (c : Dev nD) :
    (dat2 (F := Ideal) V c).arrAt 3 cfg2.N
      = ((fun i => affRelu (cur2 (V c main_v46 : FVec Ideal S100000x128 .f32))
            (fun j => (V c main_v58 : FVec Ideal S1x128 .f32) (ix2 0 j)) (fun j => (V c main_v61 : FVec Ideal S1x128 .f32) (ix2 0 j)) (i 0) (i 1))
          : FVec Ideal S100000x128 .f32) :=
  (dat2 (F := Ideal) V c).arrAt_eq_of_cover 3 (G2 V c) (fun t _ => flushed2_eq V c t) cover2_arr

/-! ## The second pass -/

/-- The stored value at entry (p, q) of a block: the block's entry times the scale row's entry of column q, plus the
    shift row's, clamped below at zero. -/
theorem pay5_apply (x0 : Vec Ideal S5000x128 .f32) (x1 x2 : Vec Ideal S1x128 .f32) (p : Fin 5000) (q : Fin 128) :
    k5_pay1 (F := Ideal) x0 x1 x2 (ix2 p q) = max (x0 (ix2 p q) * x1 (ix2 (0 : Fin 1) q) + x2 (ix2 (0 : Fin 1) q)) 0 := by
  unfold k5_pay1
  rw [maximumf_apply, addf_apply, mulf_apply, broadcast_apply, Ideal.ofBits_def, Ideal.ofBits_zero_f32,
    broadcastTo_1b_ab_apply, broadcastTo_1b_ab_apply, shapeCast_self, shapeCast_self, shapeCast_self]

/-- The output buffer after the body is that stored value: one store over the whole buffer, of whole-buffer loads. -/
theorem out5_3_apply (x0 : Vec Ideal S5000x128 .f32) (x1 x2 : Vec Ideal S1x128 .f32) (p : Fin 5000) (q : Fin 128) :
    out5_3 (F := Ideal) x0 x1 x2 (ix2 p q) = max (x0 (ix2 p q) * x1 (ix2 (0 : Fin 1) q) + x2 (ix2 (0 : Fin 1) q)) 0 := by
  unfold out5_3
  rw [View.canon_unit_zero relu_off0]
  simp only [View.ld_unit_zero (S := S5000x128) relu_off0, View.ld_unit_zero (S := S1x128) relu_off0]
  exact pay5_apply x0 x1 x2 p q

/-- The block indices at point t: the input's and the output's blocks are the t-th block of rows, the coefficient
    rows' the one block of their arrays. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- Block t of the input is rows 5000 t … 5000 t + 4999 of its array. -/
theorem iblk5_0_apply (c : Dev nD) (t : Fin cfg5.N) (p : Fin 5000) (q : Fin 128) (k : S100000x128.Idx)
    (hk0 : (k 0).val = 5000 * t.val + p.val) (hk1 : (k 1).val = q.val) :
    (iblk5 (F := Ideal) V c 0 t : Vec Ideal S5000x128 .f32) (ix2 p q) = (V c main_v79 : FVec Ideal S100000x128 .f32) k := by
  obtain ⟨e0, e1, -⟩ := idx5 t
  unfold iblk5
  rw [View.read_apply]
  show V c main_v79 _ = V c main_v79 _
  congr 1
  funext a
  apply Fin.ext
  match a with
  | ⟨0, _⟩ => show win5_0.index t (0 : Fin 2) * 5000 + 1 * p.val = (k 0).val; rw [e0, hk0]; omega
  | ⟨1, _⟩ => show win5_0.index t (1 : Fin 2) * 128 + 1 * q.val = (k 1).val; rw [e1, hk1]; omega

/-- Every block of the scale row is the whole row. -/
theorem iblk5_1_apply (c : Dev nD) (t : Fin cfg5.N) (q : Fin 128) :
    (iblk5 (F := Ideal) V c 1 t : Vec Ideal S1x128 .f32) (ix2 (0 : Fin 1) q) = (V c main_v91 : FVec Ideal S1x128 .f32) (ix2 (0 : Fin 1) q) := by
  obtain ⟨-, -, e0, e1, -⟩ := idx5 t
  unfold iblk5
  rw [View.read_apply]
  show V c main_v91 _ = V c main_v91 _
  congr 1
  funext a
  apply Fin.ext
  match a with
  | ⟨0, _⟩ => show win5_1.index t (0 : Fin 2) * 1 + 1 * 0 = 0; rw [e0]
  | ⟨1, _⟩ => show win5_1.index t (1 : Fin 2) * 128 + 1 * q.val = q.val; rw [e1]; omega

/-- Every block of the shift row is the whole row. -/
theorem iblk5_2_apply (c : Dev nD) (t : Fin cfg5.N) (q : Fin 128) :
    (iblk5 (F := Ideal) V c 2 t : Vec Ideal S1x128 .f32) (ix2 (0 : Fin 1) q) = (V c main_v94 : FVec Ideal S1x128 .f32) (ix2 (0 : Fin 1) q) := by
  obtain ⟨-, -, -, -, e0, e1, -⟩ := idx5 t
  unfold iblk5
  rw [View.read_apply]
  show V c main_v94 _ = V c main_v94 _
  congr 1
  funext a
  apply Fin.ext
  match a with
  | ⟨0, _⟩ => show win5_2.index t (0 : Fin 2) * 1 + 1 * 0 = 0; rw [e0]
  | ⟨1, _⟩ => show win5_2.index t (1 : Fin 2) * 128 + 1 * q.val = q.val; rw [e1]; omega

/-- The whole result: the pointwise pass over the input array with the two coefficient rows. -/
abbrev G5 (c : Dev nD) : FVec Ideal S100000x128 .f32 :=
  fun i => affRelu (cur2 (V c main_v79 : FVec Ideal S100000x128 .f32))
    (fun j => (V c main_v91 : FVec Ideal S1x128 .f32) (ix2 0 j)) (fun j => (V c main_v94 : FVec Ideal S1x128 .f32) (ix2 0 j)) (i 0) (i 1)

/-- Entry (p, q) of the output's block t sits at row 5000 t + p, column q of its array. -/
theorem blk5_3_emb (t : Fin cfg5.N) (p : Fin 5000) (q : Fin 128) (r : Fin 100000) (hr : r.val = 5000 * t.val + p.val) :
    ((cfg5.win 3).blk t).view.emb (ix2 p q) = (ix2 r q : S100000x128.Idx) := by
  obtain ⟨-, -, -, -, -, -, e0, e1⟩ := idx5 t
  funext a
  apply Fin.ext
  match a with
  | ⟨0, _⟩ => show win5_3.index t (0 : Fin 2) * 5000 + 1 * p.val = r.val; rw [e0, hr]; omega
  | ⟨1, _⟩ => show win5_3.index t (1 : Fin 2) * 128 + 1 * q.val = q.val; rw [e1]; omega

/-- What point t writes back is block t of the whole result: the input's block and the output's block are the same
    rows, and the coefficient rows are read whole. -/
theorem flushed5_eq (c : Dev nD) (t : Fin cfg5.N) :
    (dat5 (F := Ideal) V c).flushed 3 t = ((cfg5.win 3).blk t).view.read (Elt Ideal) (G5 V c) := by
  show (cfg5.win 3).cut (grid5.coords t) ((dat5 (F := Ideal) V c).after 3 t) = _
  rw [after5_3]
  funext j
  obtain ⟨p, q, rfl⟩ : ∃ (p : Fin 5000) (q : Fin 128), j = ix2 p q := ⟨j 0, j 1, eq_ix2 j⟩
  have hN : cfg5.N = 20 := N_5
  have ht : t.val < 20 := hN ▸ t.isLt
  show out5_3 (F := Ideal) (iblk5 V c 0 t) (iblk5 V c 1 t) (iblk5 V c 2 t) (ix2 p q) = G5 V c (((cfg5.win 3).blk t).view.emb (ix2 p q))
  refine (out5_3_apply (iblk5 V c 0 t) (iblk5 V c 1 t) (iblk5 V c 2 t) p q).trans ?_
  rw [blk5_3_emb t p q ⟨5000 * t.val + p.val, by omega⟩ rfl,
    iblk5_0_apply V c t p q (ix2 ⟨5000 * t.val + p.val, by omega⟩ q) rfl rfl, iblk5_1_apply V c t q, iblk5_2_apply V c t q]
  rfl

/-- An index of the output's array is in point t's block iff each coordinate is in the block's range on its axis. -/
theorem mem_blk5_3 (t : Fin cfg5.N) (i : S100000x128.Idx) :
    i ∈ ((cfg5.win 3).blk t).view.set ↔ ∀ a : Fin 2, win5_3.index t a * S5000x128.size a ≤ (i a).val ∧ (i a).val < win5_3.index t a * S5000x128.size a + S5000x128.size a := by
  show i ∈ ((View.whole main_v95).slice (win5_3.rect t)).set ↔ _
  rw [View.set_slice_whole, Rect.mem_set_unit]
  exact Iff.rfl

/-- Row r of the output's array is written back by point r / 5000: the twenty blocks tile the rows. -/
theorem cover5_arr (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  have hN : cfg5.N = 20 := N_5
  have hlt : (i 0).val / 5000 < cfg5.N := by rw [hN]; omega
  obtain ⟨-, -, -, -, -, -, e0, e1⟩ := idx5 ⟨(i 0).val / 5000, hlt⟩
  refine ⟨⟨(i 0).val / 5000, hlt⟩, flush5_3 _, ?_⟩
  rw [mem_blk5_3]
  intro a
  match a with
  | ⟨0, _⟩ =>
    show win5_3.index ⟨(i 0).val / 5000, hlt⟩ (0 : Fin 2) * 5000 ≤ (i 0).val ∧ (i 0).val < win5_3.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win5_3.index ⟨(i 0).val / 5000, hlt⟩ (1 : Fin 2) * 128 ≤ (i 1).val ∧ (i 1).val < win5_3.index ⟨(i 0).val / 5000, hlt⟩ (1 : Fin 2) * 128 + 128
    rw [e1]; omega

/-- Second layer: the same pass over the second layer's output and coefficients. -/
theorem final5 (c : Dev nD) :
    (dat5 (F := Ideal) V c).arrAt 3 cfg5.N
      = ((fun i => affRelu (cur2 (V c main_v79 : FVec Ideal S100000x128 .f32))
            (fun j => (V c main_v91 : FVec Ideal S1x128 .f32) (ix2 0 j)) (fun j => (V c main_v94 : FVec Ideal S1x128 .f32) (ix2 0 j)) (i 0) (i 1))
          : FVec Ideal S100000x128 .f32) :=
  (dat5 (F := Ideal) V c).arrAt_eq_of_cover 3 (G5 V c) (fun t _ => flushed5_eq V c t) cover5_arr

end Cert.KernelIdeal.Val

end
-- ==== Proof.RegPool.lean ====
/-
  The pooling pass. Its two outputs are blocks whose index never moves: the first grid point resets them to zero;
  every point adds to the 64 x 128 one the product of its 5000 x 64 block of membership weights, contracted along
  the ROWS, with its 5000 x 128 block of features, and to the 1 x 64 one the column sums of the weights. The
  blocks tile the rows and addition does not care for order, so the arrays end at the weighted row sums and at the
  weights' column sums over all rows.
-/
import proofs.«417032_j62294205661279_1_alg».proof.Proof.Gen.KernelIdeal.Frame
import proofs.«417032_j62294205661279_1_alg».proof.Proof.Spec
import proofs.«417032_j62294205661279_1_alg».proof.Proof.AlgSum
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

-- the contents of the core's buffers when a region is entered: every lemma below holds for any of them
variable (V : (c : Dev nD) → (b : Ref sig .tc) → Buf (Elt Ideal) ((c : Thread nD τ).loc b))

/-! ## What each point leaves in the two output blocks -/

/-- The zero offsets of a store that covers its whole block. -/
theorem hz : (![0, 0] : Fin 2 → Nat) = fun _ => 0 := funext fun a => by fin_cases a <;> rfl

/-- A later point leaves in the sums block its one covering store: the update of what the block held. -/
theorem sum_later (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (a4 : Memref sig .tc .vmem S1x64 .f32) (h4 : a4.IsWhole) (hc : ¬cond6_0 i)
    (x : Vec Ideal S5000x128 .f32) (oh : Vec Ideal S5000x64 .bf16) (s : Vec Ideal S64x128 .f32) (n : Vec Ideal S1x64 .f32) :
    out6_B_2 c i a1 h1 a2 h2 a3 h3 a4 h4 hc x oh s n = k6_pay4 x oh s := by
  unfold out6_B_2
  rw [View.read_writes_eq_canon _ _ _ (cover6_B_2 c i a1 h1 a2 h2 a3 h3 a4 h4 hc x oh s n)]
  unfold kernelRun6_B
  dsimp only
  sl_unfold_words
  rw [View.canon_unit_zero hz]
  simp only [View.readAt_eq_ld, h1.read_unread, h2.read_unread, h3.read_unread, View.ld_unit_zero (S := S5000x128) hz,
    View.ld_unit_zero (S := S5000x64) hz, View.ld_unit_zero (S := S64x128) hz]

/-- A later point leaves in the counts block the update of what the block held. -/
theorem cnt_later (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (a4 : Memref sig .tc .vmem S1x64 .f32) (h4 : a4.IsWhole) (hc : ¬cond6_0 i)
    (x : Vec Ideal S5000x128 .f32) (oh : Vec Ideal S5000x64 .bf16) (s : Vec Ideal S64x128 .f32) (n : Vec Ideal S1x64 .f32) :
    out6_B_3 c i a1 h1 a2 h2 a3 h3 a4 h4 hc x oh s n = k6_pay5 oh n := by
  unfold out6_B_3
  rw [View.read_writes_eq_canon _ _ _ (cover6_B_3 c i a1 h1 a2 h2 a3 h3 a4 h4 hc x oh s n)]
  unfold kernelRun6_B
  dsimp only
  sl_unfold_words
  rw [View.canon_unit_zero hz]
  simp only [View.readAt_eq_ld, h2.read_unread, h4.read_unread,
    View.ld_unit_zero (S := S5000x64) hz, View.ld_unit_zero (S := S1x64) hz]

/-- The first point stores the zero block, reads it back and leaves its update in the sums block. -/
theorem sum_first (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (a4 : Memref sig .tc .vmem S1x64 .f32) (h4 : a4.IsWhole) (hc : cond6_0 i)
    (x : Vec Ideal S5000x128 .f32) (oh : Vec Ideal S5000x64 .bf16) :
    out6_A_2 c i a1 h1 a2 h2 a3 h3 a4 h4 hc x oh = k6_pay4 x oh (k6_pay1 (F := Ideal)) := by
  unfold out6_A_2
  rw [View.read_writes_eq_canon _ _ _ (cover6_A_2 c i a1 h1 a2 h2 a3 h3 a4 h4 hc x oh)]
  unfold kernelRun6_A
  dsimp only
  sl_unfold_words
  rw [View.canon_cons_unit_zero (S := S64x128) hz]
  simp only [View.readAt_eq_ld, h1.read_unread, h2.read_unread, View.ld_unit_zero (S := S5000x128) hz,
    View.ld_unit_zero (S := S5000x64) hz, View.readCov_unit_zero (S := S64x128) _ hz]

/-- The first point does the same to the counts block. -/
theorem cnt_first (c : Dev nD) (i : grid6.Coords) (a1 : Memref sig .tc .vmem S5000x128 .f32) (h1 : a1.IsWhole)
    (a2 : Memref sig .tc .vmem S5000x64 .bf16) (h2 : a2.IsWhole) (a3 : Memref sig .tc .vmem S64x128 .f32) (h3 : a3.IsWhole)
    (a4 : Memref sig .tc .vmem S1x64 .f32) (h4 : a4.IsWhole) (hc : cond6_0 i)
    (x : Vec Ideal S5000x128 .f32) (oh : Vec Ideal S5000x64 .bf16) :
    out6_A_3 c i a1 h1 a2 h2 a3 h3 a4 h4 hc x oh = k6_pay5 oh (k6_pay2 (F := Ideal)) := by
  unfold out6_A_3
  rw [View.read_writes_eq_canon _ _ _ (cover6_A_3 c i a1 h1 a2 h2 a3 h3 a4 h4 hc x oh)]
  unfold kernelRun6_A
  dsimp only
  sl_unfold_words
  rw [View.canon_cons_unit_zero (S := S1x64) hz]
  simp only [View.readAt_eq_ld, h2.read_unread,
    View.ld_unit_zero (S := S5000x64) hz, View.readCov_unit_zero (S := S1x64) _ hz]

/-! ## The row-contracted product and the column sum at an entry -/

/-- The row-contracted product reads the left operand at (contraction position, output row) … -/
theorem lhs_dot_0 (j : S64x128.Idx) (k : dot_S5000x64_S5000x128_S64x128_0_0_1_1_n_n.contr.Idx) :
    (dot_S5000x64_S5000x128_S64x128_0_0_1_1_n_n.lhsIdx j k (0 : Fin 2)).val = (k ⟨0, by decide⟩).val :=
  DotDims.lhsIdx_val_of_single dot_S5000x64_S5000x128_S64x128_0_0_1_1_n_n (cl := (0 : Fin 2)) rfl j k

theorem lhs_dot_1 (j : S64x128.Idx) (k : dot_S5000x64_S5000x128_S64x128_0_0_1_1_n_n.contr.Idx) :
    (dot_S5000x64_S5000x128_S64x128_0_0_1_1_n_n.lhsIdx j k (1 : Fin 2)).val = (j 0).val := by
  unfold DotDims.lhsIdx
  rw [dif_neg (show ¬(1 : Fin 2) ∈ dot_S5000x64_S5000x128_S64x128_0_0_1_1_n_n.lhsBatch by decide),
    dif_pos (show (1 : Fin 2) ∈ dot_S5000x64_S5000x128_S64x128_0_0_1_1_n_n.lhsNonContracting by decide)]
  rfl

/-- … and the right operand at (contraction position, output column). -/
theorem rhs_dot_0 (j : S64x128.Idx) (k : dot_S5000x64_S5000x128_S64x128_0_0_1_1_n_n.contr.Idx) :
    (dot_S5000x64_S5000x128_S64x128_0_0_1_1_n_n.rhsIdx j k (0 : Fin 2)).val = (k ⟨0, by decide⟩).val :=
  DotDims.rhsIdx_val_of_single dot_S5000x64_S5000x128_S64x128_0_0_1_1_n_n (cr := (0 : Fin 2)) rfl j k

theorem rhs_dot_1 (j : S64x128.Idx) (k : dot_S5000x64_S5000x128_S64x128_0_0_1_1_n_n.contr.Idx) :
    (dot_S5000x64_S5000x128_S64x128_0_0_1_1_n_n.rhsIdx j k (1 : Fin 2)).val = (j 1).val := by
  unfold DotDims.rhsIdx
  rw [dif_neg (show ¬(1 : Fin 2) ∈ dot_S5000x64_S5000x128_S64x128_0_0_1_1_n_n.rhsBatch by decide),
    dif_pos (show (1 : Fin 2) ∈ dot_S5000x64_S5000x128_S64x128_0_0_1_1_n_n.rhsNonContracting by decide)]
  rfl

/-- One point's update of the pooled sums at an entry: the running value plus the sum over the block's rows of
    weight times feature (the two format changes are the identity on extended reals). -/
theorem sum_step (x : FVec Ideal S5000x128 .f32) (oh : FVec Ideal S5000x64 .bf16) (s : FVec Ideal S64x128 .f32)
    (q : Fin 64) (j : Fin 128) :
    k6_pay4 x oh s (ix2 q j) = s (ix2 q j) + ∑ r : Fin 5000, oh (ix2 r q) * x (ix2 r j) := by
  unfold k6_pay4 k6_pay3
  simp only [shapeCast_self]
  refine congrArg (s (ix2 q j) + ·) ?_
  refine (Ideal.matmul_constant_zero_apply dot_S5000x64_S5000x128_S64x128_0_0_1_1_n_n none oh
    (truncf .bf16 x bitsLt_bf16_f32) (ix2 q j)).trans ?_
  rw [← Equiv.sum_comp (contrEquiv1 dot_S5000x64_S5000x128_S64x128_0_0_1_1_n_n 5000 rfl rfl).symm]
  refine Finset.sum_congr rfl fun r _ => ?_
  have hk := contrEquiv1_symm_val dot_S5000x64_S5000x128_S64x128_0_0_1_1_n_n 5000 rfl rfl r
  have el : dot_S5000x64_S5000x128_S64x128_0_0_1_1_n_n.lhsIdx (ix2 q j)
      ((contrEquiv1 dot_S5000x64_S5000x128_S64x128_0_0_1_1_n_n 5000 rfl rfl).symm r) = ix2 r q := by
    funext a
    apply Fin.ext
    match a with
    | ⟨0, _⟩ => exact (lhs_dot_0 _ _).trans hk
    | ⟨1, _⟩ => exact lhs_dot_1 _ _
  have er : dot_S5000x64_S5000x128_S64x128_0_0_1_1_n_n.rhsIdx (ix2 q j)
      ((contrEquiv1 dot_S5000x64_S5000x128_S64x128_0_0_1_1_n_n 5000 rfl rfl).symm r) = ix2 r j := by
    funext a
    apply Fin.ext
    match a with
    | ⟨0, _⟩ => exact (rhs_dot_0 _ _).trans hk
    | ⟨1, _⟩ => exact rhs_dot_1 _ _
  rw [el, er]
  rfl

/-- One point's update of the pooled counts at an entry: the running value plus the block's column sum of weights. -/
theorem cnt_step (oh : FVec Ideal S5000x64 .bf16) (n : FVec Ideal S1x64 .f32) (q : Fin 64) :
    k6_pay5 oh n (ix2 (0 : Fin 1) q) = n (ix2 (0 : Fin 1) q) + ∑ r : Fin 5000, oh (ix2 r q) := by
  unfold k6_pay5 k6_pay3
  simp only [shapeCast_self]
  refine congrArg (n (ix2 (0 : Fin 1) q) + ·) ?_
  refine (shapeCast_a_1a_apply _ shapeCasts_S64_S1x64 (0 : Fin 1) q).trans ?_
  refine (Ideal.multiReduction_add_single (extf .f32 oh bitsLt_bf16_f32) 0x00000000#32 reduces_S5000x64_S64 (.inl rfl) rfl (ix1 q)).trans ?_
  refine Finset.sum_congr rfl fun r _ => ?_
  show oh (reduces_S5000x64_S64.lift (ix1 q) r) = oh (ix2 r q)
  congr 1
  funext a
  apply Fin.ext
  match a with
  | ⟨0, _⟩ => rfl
  | ⟨1, _⟩ => rfl

/-! ## The blocks are rows of the arrays -/

/-- The features and the membership weights as the pass finds them, and their blocks at a grid point. -/
abbrev xarr (c : Dev nD) : FVec Ideal S100000x128 .f32 := V c main_v95
abbrev warr (c : Dev nD) : FVec Ideal S100000x64 .bf16 := V c main_v102
abbrev xblk (c : Dev nD) (t : Fin cfg6.N) : FVec Ideal S5000x128 .f32 := iblk6 V c 0 t
abbrev wblk (c : Dev nD) (t : Fin cfg6.N) : FVec Ideal S5000x64 .bf16 := iblk6 V c 1 t

/-- Both input windows step down the rows with the grid point and never move along the columns. -/
theorem idx_rows : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, win6_0.index t (0 : Fin 2) = t.val ∧ win6_0.index t (1 : Fin 2) = 0
    ∧ win6_1.index t (0 : Fin 2) = t.val ∧ win6_1.index t (1 : Fin 2) = 0)

/-- Row `r` of the feature block at point `t` is row `5000 t + r` of the features. -/
theorem xblk_apply (c : Dev nD) (t : Fin cfg6.N) (r : Fin 5000) (j : Fin 128) (k : Fin 100000)
    (hk : k.val = 5000 * t.val + r.val) : xblk V c t (ix2 r j) = xarr V c (ix2 k j) := by
  obtain ⟨h0, h1, -, -⟩ := idx_rows t
  show iblk6 V c 0 t (ix2 r j) = V c main_v95 (ix2 k j)
  unfold iblk6
  rw [View.read_apply]
  show V c main_v95 _ = V c main_v95 _
  congr 1
  funext a
  apply Fin.ext
  match a with
  | ⟨0, _⟩ => show win6_0.index t 0 * 5000 + 1 * r.val = k.val; rw [h0, hk]; omega
  | ⟨1, _⟩ => show win6_0.index t 1 * 128 + 1 * j.val = j.val; rw [h1]; omega

/-- Row `r` of the weight block at point `t` is row `5000 t + r` of the weights. -/
theorem wblk_apply (c : Dev nD) (t : Fin cfg6.N) (r : Fin 5000) (q : Fin 64) (k : Fin 100000)
    (hk : k.val = 5000 * t.val + r.val) : wblk V c t (ix2 r q) = warr V c (ix2 k q) := by
  obtain ⟨-, -, h0, h1⟩ := idx_rows t
  show iblk6 V c 1 t (ix2 r q) = V c main_v102 (ix2 k q)
  unfold iblk6
  rw [View.read_apply]
  show V c main_v102 _ = V c main_v102 _
  congr 1
  funext a
  apply Fin.ext
  match a with
  | ⟨0, _⟩ => show win6_1.index t 0 * 5000 + 1 * r.val = k.val; rw [h0, hk]; omega
  | ⟨1, _⟩ => show win6_1.index t 1 * 64 + 1 * q.val = q.val; rw [h1]; omega

/-! ## The running values, point by point -/

/-- The two running values after point `n`: the first point updates the zero blocks, each later point what the point
    before left. -/
def run6 (c : Dev nD) : (n : ℕ) → n < cfg6.N → FVec Ideal S64x128 .f32 × FVec Ideal S1x64 .f32
  | 0, h => (k6_pay4 (xblk V c ⟨0, h⟩) (wblk V c ⟨0, h⟩) (k6_pay1 (F := Ideal)),
      k6_pay5 (wblk V c ⟨0, h⟩) (k6_pay2 (F := Ideal)))
  | n + 1, h => (k6_pay4 (xblk V c ⟨n + 1, h⟩) (wblk V c ⟨n + 1, h⟩) (run6 c n (Nat.lt_of_succ_lt h)).1,
      k6_pay5 (wblk V c ⟨n + 1, h⟩) (run6 c n (Nat.lt_of_succ_lt h)).2)

/-- The first point leaves the update of the zero blocks. -/
theorem outsAt6_zero (c : Dev nD) (h : 0 < cfg6.N) : outsAt6 V c 0 h = run6 V c 0 h := by
  rw [outsAt6_A V c ⟨0, h⟩ rfl,
    sum_first c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
      (ms6_3 ⟨0, h⟩) (hs6_3 ⟨0, h⟩) ((hcond6_0 ⟨0, h⟩).mpr rfl) (iblk6 V c 0 ⟨0, h⟩) (iblk6 V c 1 ⟨0, h⟩),
    cnt_first c (grid6.coords ⟨0, h⟩) (ms6_0 ⟨0, h⟩) (hs6_0 ⟨0, h⟩) (ms6_1 ⟨0, h⟩) (hs6_1 ⟨0, h⟩) (ms6_2 ⟨0, h⟩) (hs6_2 ⟨0, h⟩)
      (ms6_3 ⟨0, h⟩) (hs6_3 ⟨0, h⟩) ((hcond6_0 ⟨0, h⟩).mpr rfl) (iblk6 V c 0 ⟨0, h⟩) (iblk6 V c 1 ⟨0, h⟩)]
  rfl

/-- A later point leaves the update of what the point before left. -/
theorem outsAt6_succ (c : Dev nD) (n : ℕ) (h : n + 1 < cfg6.N)
    (ih : outsAt6 V c n (Nat.lt_of_succ_lt h) = run6 V c n (Nat.lt_of_succ_lt h)) :
    outsAt6 V c (n + 1) h = run6 V c (n + 1) h := by
  have hN : cfg6.N = 20 := N_6
  have hB : ¬(⟨n + 1, h⟩ : Fin cfg6.N).val % 20 = 0 := by dsimp only; omega
  rw [outsAt6_B V c ⟨n + 1, h⟩ hB]
  dsimp only
  have key : ∀ (k : ℕ) (hk : k < cfg6.N), k = n → outsAt6 V c k hk = run6 V c n (Nat.lt_of_succ_lt h) := by
    intro k hk e
    subst e
    exact ih
  rw [key (n + 1 - 1) _ (Nat.add_sub_cancel n 1),
    sum_later c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (ms6_3 ⟨n + 1, h⟩) (hs6_3 ⟨n + 1, h⟩) (fun hh => hB ((hcond6_0 ⟨n + 1, h⟩).mp hh))
      (iblk6 V c 0 ⟨n + 1, h⟩) (iblk6 V c 1 ⟨n + 1, h⟩)
      (run6 V c n (Nat.lt_of_succ_lt h)).1 (run6 V c n (Nat.lt_of_succ_lt h)).2,
    cnt_later c (grid6.coords ⟨n + 1, h⟩) (ms6_0 ⟨n + 1, h⟩) (hs6_0 ⟨n + 1, h⟩) (ms6_1 ⟨n + 1, h⟩) (hs6_1 ⟨n + 1, h⟩)
      (ms6_2 ⟨n + 1, h⟩) (hs6_2 ⟨n + 1, h⟩) (ms6_3 ⟨n + 1, h⟩) (hs6_3 ⟨n + 1, h⟩) (fun hh => hB ((hcond6_0 ⟨n + 1, h⟩).mp hh))
      (iblk6 V c 0 ⟨n + 1, h⟩) (iblk6 V c 1 ⟨n + 1, h⟩)
      (run6 V c n (Nat.lt_of_succ_lt h)).1 (run6 V c n (Nat.lt_of_succ_lt h)).2]
  rfl

/-- What the two output blocks hold after point `n` is that pair of running values: by induction on the point. -/
theorem outsAt6_eq (c : Dev nD) : ∀ (n : ℕ) (h : n < cfg6.N), outsAt6 V c n h = run6 V c n h
  | 0, h => outsAt6_zero V c h
  | n + 1, h => outsAt6_succ V c n h (outsAt6_eq c n (Nat.lt_of_succ_lt h))

/-- The reset stores the extended real zero. -/
theorem zero_sum (i : S64x128.Idx) : (k6_pay1 (F := Ideal)) i = 0 := by
  unfold k6_pay1
  exact Ideal.ofBits_zero_f32
/-- The counts' reset likewise. -/
theorem zero_cnt (i : S1x64.Idx) : (k6_pay2 (F := Ideal)) i = 0 := by
  unfold k6_pay2
  exact Ideal.ofBits_zero_f32

/-- What point `u` adds to an entry of the pooled sums, and to an entry of the counts (nothing past the grid). -/
def sumTerm (c : Dev nD) (q : Fin 64) (j : Fin 128) (u : ℕ) : EReal :=
  if h : u < cfg6.N then ∑ r : Fin 5000, wblk V c ⟨u, h⟩ (ix2 r q) * xblk V c ⟨u, h⟩ (ix2 r j) else 0
def cntTerm (c : Dev nD) (q : Fin 64) (u : ℕ) : EReal :=
  if h : u < cfg6.N then ∑ r : Fin 5000, wblk V c ⟨u, h⟩ (ix2 r q) else 0

/-- An entry of the running sums after point `n` is the accumulator of the points' contributions from zero. -/
theorem run6_sum (c : Dev nD) (q : Fin 64) (j : Fin 128) :
    ∀ (n : ℕ) (h : n < cfg6.N), (run6 V c n h).1 (ix2 q j) = AlgSum.accChain 0 (sumTerm V c q j) n
  | 0, h => by
    show k6_pay4 (F := Ideal) (xblk V c ⟨0, h⟩) (wblk V c ⟨0, h⟩) (k6_pay1 (F := Ideal)) (ix2 q j) = 0 + sumTerm V c q j 0
    refine (sum_step (xblk V c ⟨0, h⟩) (wblk V c ⟨0, h⟩) (k6_pay1 (F := Ideal)) q j).trans ?_
    rw [zero_sum]
    unfold sumTerm
    rw [dif_pos h]
  | n + 1, h => by
    show k6_pay4 (F := Ideal) (xblk V c ⟨n + 1, h⟩) (wblk V c ⟨n + 1, h⟩) (run6 V c n (Nat.lt_of_succ_lt h)).1 (ix2 q j)
      = AlgSum.accChain 0 (sumTerm V c q j) n + sumTerm V c q j (n + 1)
    refine (sum_step (xblk V c ⟨n + 1, h⟩) (wblk V c ⟨n + 1, h⟩) (run6 V c n (Nat.lt_of_succ_lt h)).1 q j).trans ?_
    rw [run6_sum c q j n (Nat.lt_of_succ_lt h)]
    unfold sumTerm
    rw [dif_pos h]

/-- An entry of the running counts after point `n`, likewise. -/
theorem run6_cnt (c : Dev nD) (q : Fin 64) :
    ∀ (n : ℕ) (h : n < cfg6.N), (run6 V c n h).2 (ix2 (0 : Fin 1) q) = AlgSum.accChain 0 (cntTerm V c q) n
  | 0, h => by
    show k6_pay5 (F := Ideal) (wblk V c ⟨0, h⟩) (k6_pay2 (F := Ideal)) (ix2 (0 : Fin 1) q) = 0 + cntTerm V c q 0
    refine (cnt_step (wblk V c ⟨0, h⟩) (k6_pay2 (F := Ideal)) q).trans ?_
    rw [zero_cnt]
    unfold cntTerm
    rw [dif_pos h]
  | n + 1, h => by
    show k6_pay5 (F := Ideal) (wblk V c ⟨n + 1, h⟩) (run6 V c n (Nat.lt_of_succ_lt h)).2 (ix2 (0 : Fin 1) q)
      = AlgSum.accChain 0 (cntTerm V c q) n + cntTerm V c q (n + 1)
    refine (cnt_step (wblk V c ⟨n + 1, h⟩) (run6 V c n (Nat.lt_of_succ_lt h)).2 q).trans ?_
    rw [run6_cnt c q n (Nat.lt_of_succ_lt h)]
    unfold cntTerm
    rw [dif_pos h]

/-! ## The twenty blocks tile the rows -/

/-- The last grid point, the one whose blocks are written back. -/
theorem lastpt : (19 : ℕ) < cfg6.N := by rw [show cfg6.N = 20 from N_6]; decide
abbrev tlast : Fin cfg6.N := ⟨19, lastpt⟩

/-- The pooled sums and the pooled counts as functions of the two arrays. -/
abbrev pooled (c : Dev nD) : FVec Ideal S64x128 .f32 :=
  fun i => poolSum (cur2 (xarr V c)) (cur2 (warr V c)) (i 0) (i 1)
abbrev counted (c : Dev nD) : FVec Ideal S1x64 .f32 := fun j => poolCnt (cur2 (warr V c)) (j 1)

/-- Row `r` of block `t` is row `5000 t + r` of the array. -/
theorem row_val (t : Fin 20) (r : Fin 5000) : ((finProdFinEquiv (t, r) : Fin (20 * 5000)) : ℕ) = 5000 * t.val + r.val :=
  Nat.add_comm _ _

/-- After the last point an entry of the running sums is the sum over all the rows: the twenty blocks tile them. -/
theorem sums_total (c : Dev nD) (q : Fin 64) (j : Fin 128) :
    (run6 V c 19 lastpt).1 (ix2 q j) = poolSum (cur2 (xarr V c)) (cur2 (warr V c)) q j := by
  rw [run6_sum, AlgSum.accChain_eq_sum, zero_add]
  refine Eq.trans ?_ (AlgSum.sum_blocks (M := EReal) 20 5000 (fun p : Fin 100000 => warr V c (ix2 p q) * xarr V c (ix2 p j)))
  refine AlgSum.sum_range_blocks 20
    (fun t : Fin 20 => ∑ r : Fin 5000, warr V c (ix2 (finProdFinEquiv (t, r)) q) * xarr V c (ix2 (finProdFinEquiv (t, r)) j))
    (sumTerm V c q j) fun t => ?_
  have ht : t.val < cfg6.N := by rw [show cfg6.N = 20 from N_6]; exact t.isLt
  unfold sumTerm
  rw [dif_pos ht]
  refine Finset.sum_congr rfl fun r _ => ?_
  exact congrArg₂ (· * ·) (wblk_apply V c ⟨t.val, ht⟩ r q (finProdFinEquiv (t, r)) (row_val t r))
    (xblk_apply V c ⟨t.val, ht⟩ r j (finProdFinEquiv (t, r)) (row_val t r))

/-- Likewise an entry of the running counts is the column sum of the weights over all the rows. -/
theorem cnts_total (c : Dev nD) (q : Fin 64) :
    (run6 V c 19 lastpt).2 (ix2 (0 : Fin 1) q) = poolCnt (cur2 (warr V c)) q := by
  rw [run6_cnt, AlgSum.accChain_eq_sum, zero_add]
  refine Eq.trans ?_ (AlgSum.sum_blocks (M := EReal) 20 5000 (fun p : Fin 100000 => warr V c (ix2 p q)))
  refine AlgSum.sum_range_blocks 20
    (fun t : Fin 20 => ∑ r : Fin 5000, warr V c (ix2 (finProdFinEquiv (t, r)) q)) (cntTerm V c q) fun t => ?_
  have ht : t.val < cfg6.N := by rw [show cfg6.N = 20 from N_6]; exact t.isLt
  unfold cntTerm
  rw [dif_pos ht]
  refine Finset.sum_congr rfl fun r _ => ?_
  exact wblk_apply V c ⟨t.val, ht⟩ r q (finProdFinEquiv (t, r)) (row_val t r)

/-- So the sums block after the last point is the pooled sums … -/
theorem last_sums (c : Dev nD) : (run6 V c 19 lastpt).1 = pooled V c := by
  funext i
  obtain ⟨q, j, rfl⟩ : ∃ (q : Fin 64) (j : Fin 128), i = ix2 q j := ⟨i 0, i 1, eq_ix2 i⟩
  exact sums_total V c q j

/-- … and the counts block the pooled counts. -/
theorem last_cnts (c : Dev nD) : (run6 V c 19 lastpt).2 = counted V c := by
  funext i
  obtain ⟨u, q, rfl⟩ : ∃ (u : Fin 1) (q : Fin 64), i = ix2 u q := ⟨i 0, i 1, eq_ix2 i⟩
  obtain rfl : u = 0 := Subsingleton.elim _ _
  exact cnts_total V c q

/-! ## The arrays after the pass -/

/-- The one write-back of the sums block, at the last point, writes the pooled sums: block (0, 0) of the 64 x 128 array
    read through zero offsets is the array. -/
theorem flushed_sums (c : Dev nD) (t : Fin cfg6.N) (hf : (cfg6.win 2).flush t = true) :
    (dat6 V c).flushed 2 t = ((cfg6.win 2).blk t).view.read (Elt Ideal) (pooled V c) := by
  have hN : cfg6.N = 20 := N_6
  have h19 : t.val = 19 := by have := (flush6_2 t).mp hf; have := t.isLt; omega
  obtain rfl : t = tlast := Fin.ext h19
  show (cfg6.win 2).cut (grid6.coords tlast) ((dat6 V c).after 2 tlast) = _
  rw [after6_2, outsAt6_eq, last_sums]
  have hz' : (fun a => win6_2.index tlast a * main_v103_0.ty.shape.size a) = fun _ => 0 :=
    funext fun a => by fin_cases a <;> decide
  exact (Memref.read_access_unit_zero (Elt Ideal) main_v103_0 hz' (fun a => by rw [congrFun hz' a]; simp) (pooled V c)).symm

/-- The one write-back of the counts block, likewise. -/
theorem flushed_cnts (c : Dev nD) (t : Fin cfg6.N) (hf : (cfg6.win 3).flush t = true) :
    (dat6 V c).flushed 3 t = ((cfg6.win 3).blk t).view.read (Elt Ideal) (counted V c) := by
  have hN : cfg6.N = 20 := N_6
  have h19 : t.val = 19 := by have := (flush6_3 t).mp hf; have := t.isLt; omega
  obtain rfl : t = tlast := Fin.ext h19
  show (cfg6.win 3).cut (grid6.coords tlast) ((dat6 V c).after 3 tlast) = _
  rw [after6_3, outsAt6_eq, last_cnts]
  have hz' : (fun a => win6_3.index tlast a * main_v103_1.ty.shape.size a) = fun _ => 0 :=
    funext fun a => by fin_cases a <;> decide
  exact (Memref.read_access_unit_zero (Elt Ideal) main_v103_1 hz' (fun a => by rw [congrFun hz' a]; simp) (counted V c)).symm

/-- The last point's block covers the whole 64 x 128 array, so the array ends at the pooled sums. -/
theorem final_sums (c : Dev nD) : (dat6 V c).arrAt 2 cfg6.N = pooled V c :=
  (dat6 V c).arrAt_eq_of_cover 2 (pooled V c) (flushed_sums V c) fun i =>
    ⟨tlast, (flush6_2 tlast).mpr rfl, by
      show i ∈ ((View.whole main_v103_0).slice (win6_2.rect tlast)).set
      rw [View.set_slice_whole, Rect.mem_set_unit]
      intro a
      have h0 : (i 0 : Nat) < 64 := (i 0).isLt
      have h1 : (i 1 : Nat) < 128 := (i 1).isLt
      match a with
      | ⟨0, _⟩ =>
        show win6_2.index tlast 0 * win6_2.size 0 ≤ (i 0 : Nat)
          ∧ (i 0 : Nat) < win6_2.index tlast 0 * win6_2.size 0 + win6_2.xsize (grid6.coords tlast) 0
        rw [show win6_2.index tlast 0 * win6_2.size 0 = 0 from by decide +kernel,
          show win6_2.xsize (grid6.coords tlast) 0 = 64 from by decide +kernel]
        omega
      | ⟨1, _⟩ =>
        show win6_2.index tlast 1 * win6_2.size 1 ≤ (i 1 : Nat)
          ∧ (i 1 : Nat) < win6_2.index tlast 1 * win6_2.size 1 + win6_2.xsize (grid6.coords tlast) 1
        rw [show win6_2.index tlast 1 * win6_2.size 1 = 0 from by decide +kernel,
          show win6_2.xsize (grid6.coords tlast) 1 = 128 from by decide +kernel]
        omega⟩

/-- The last point's block covers the whole 1 x 64 array, so the array ends at the pooled counts. -/
theorem final_cnts (c : Dev nD) : (dat6 V c).arrAt 3 cfg6.N = counted V c :=
  (dat6 V c).arrAt_eq_of_cover 3 (counted V c) (flushed_cnts V c) fun i =>
    ⟨tlast, (flush6_3 tlast).mpr rfl, by
      show i ∈ ((View.whole main_v103_1).slice (win6_3.rect tlast)).set
      rw [View.set_slice_whole, Rect.mem_set_unit]
      intro a
      have h0 : (i 0 : Nat) < 1 := (i 0).isLt
      have h1 : (i 1 : Nat) < 64 := (i 1).isLt
      match a with
      | ⟨0, _⟩ =>
        show win6_3.index tlast 0 * win6_3.size 0 ≤ (i 0 : Nat)
          ∧ (i 0 : Nat) < win6_3.index tlast 0 * win6_3.size 0 + win6_3.xsize (grid6.coords tlast) 0
        rw [show win6_3.index tlast 0 * win6_3.size 0 = 0 from by decide +kernel,
          show win6_3.xsize (grid6.coords tlast) 0 = 1 from by decide +kernel]
        omega
      | ⟨1, _⟩ =>
        show win6_3.index tlast 1 * win6_3.size 1 ≤ (i 1 : Nat)
          ∧ (i 1 : Nat) < win6_3.index tlast 1 * win6_3.size 1 + win6_3.xsize (grid6.coords tlast) 1
        rw [show win6_3.index tlast 1 * win6_3.size 1 = 0 from by decide +kernel,
          show win6_3.xsize (grid6.coords tlast) 1 = 64 from by decide +kernel]
        omega⟩

/-- The pooled sums and the pooled counts, as sums over all the nodes. -/
theorem final6 (c : Dev nD) :
    (dat6 (F := Ideal) V c).arrAt 2 cfg6.N
        = ((fun i => poolSum (cur2 (V c main_v95 : FVec Ideal S100000x128 .f32)) (cur2 (V c main_v102 : FVec Ideal S100000x64 .bf16)) (i 0) (i 1))
            : FVec Ideal S64x128 .f32)
    ∧ (dat6 (F := Ideal) V c).arrAt 3 cfg6.N
        = ((fun j => poolCnt (cur2 (V c main_v102 : FVec Ideal S100000x64 .bf16)) (j 1)) : FVec Ideal S1x64 .f32) :=
  ⟨final_sums V c, final_cnts V c⟩

end Cert.KernelIdeal.Val

end
-- ==== Proof.KThread.lean ====
/-
  The kernel program's result buffer, followed back through @main. The run ends with the result buffer at the last
  boundary's contents; each boundary's contents are the previous one's through a host stretch (whose result is a
  named function of the buffers it reads) or through a region (whose output arrays are the whole-array functions
  proved for it, of its input arrays as the region found them); a buffer nobody wrote in between is as it was. Walking
  back from the result to the launch memory, every buffer met is replaced by its value, and what remains is `outK` of
  the thirteen argument arrays as launched.
-/
import proofs.«417032_j62294205661279_1_alg».proof.Proof.KRun
import proofs.«417032_j62294205661279_1_alg».proof.Proof.KKept
import proofs.«417032_j62294205661279_1_alg».proof.Proof.KStageA
import proofs.«417032_j62294205661279_1_alg».proof.Proof.KStageB
import proofs.«417032_j62294205661279_1_alg».proof.Proof.KStageC
import proofs.«417032_j62294205661279_1_alg».proof.Proof.KOut
import proofs.«417032_j62294205661279_1_alg».proof.Proof.RegMM
import proofs.«417032_j62294205661279_1_alg».proof.Proof.RegStats
import proofs.«417032_j62294205661279_1_alg».proof.Proof.RegApply
import proofs.«417032_j62294205661279_1_alg».proof.Proof.RegPool

set_option maxRecDepth 16384

noncomputable section

namespace Cert.KernelIdeal.Val

open Idealize.ShloMosaic Idealize.ShloMosaic.TcCoe Idealize.SL.Sem Idealize.ShloMosaic.ValueIdx
open Idealize.ShloMosaic.Pipeline (Dat)
open Cert.KernelIdeal Cert.KernelIdeal.Gen Cert.Spec

variable (m : (ℓ : Loc nD τ sig) → Buf (Elt Ideal) ℓ) (ρ : Dev nD → PrngReg)

/-! ## The launch contents of the thirteen arguments, at their literal types -/

abbrev aX (c : Dev nD) : FVec Ideal S100000x128 .f32 := (m ((c : Thread nD τ).loc main_arg0))
abbrev aEI (c : Dev nD) : IVec S2x1600000 32 := (m ((c : Thread nD τ).loc main_arg1))
abbrev aBT (c : Dev nD) : IVec S100000 32 := (m ((c : Thread nD τ).loc main_arg2))
abbrev aW0 (c : Dev nD) : FVec Ideal S128x128 .f32 := (m ((c : Thread nD τ).loc main_arg3))
abbrev aB0 (c : Dev nD) : FVec Ideal S128 .f32 := (m ((c : Thread nD τ).loc main_arg4))
abbrev aG0 (c : Dev nD) : FVec Ideal S128 .f32 := (m ((c : Thread nD τ).loc main_arg5))
abbrev aBE0 (c : Dev nD) : FVec Ideal S128 .f32 := (m ((c : Thread nD τ).loc main_arg6))
abbrev aW1 (c : Dev nD) : FVec Ideal S128x128 .f32 := (m ((c : Thread nD τ).loc main_arg7))
abbrev aB1 (c : Dev nD) : FVec Ideal S128 .f32 := (m ((c : Thread nD τ).loc main_arg8))
abbrev aG1 (c : Dev nD) : FVec Ideal S128 .f32 := (m ((c : Thread nD τ).loc main_arg9))
abbrev aBE1 (c : Dev nD) : FVec Ideal S128 .f32 := (m ((c : Thread nD τ).loc main_arg10))
abbrev aWFC (c : Dev nD) : FVec Ideal S128x32 .f32 := (m ((c : Thread nD τ).loc main_arg11))
abbrev aBFC (c : Dev nD) : FVec Ideal S32 .f32 := (m ((c : Thread nD τ).loc main_arg12))

/-- The first layer before normalisation. -/
abbrev vA0 (c : Dev nD) : FVec Ideal S100000x128 .f32 := layerK (aEI m c) (aX m c) (aW0 m c) (aB0 m c)
/-- The first layer's output. -/
abbrev vY0 (c : Dev nD) : FVec Ideal S100000x128 .f32 := bnK (vA0 m c) (aG0 m c) (aBE0 m c)
/-- The second layer before normalisation. -/
abbrev vA1 (c : Dev nD) : FVec Ideal S100000x128 .f32 := layerK (aEI m c) (vY0 m c) (aW1 m c) (aB1 m c)
/-- The second layer's output. -/
abbrev vY1 (c : Dev nD) : FVec Ideal S100000x128 .f32 := bnK (vA1 m c) (aG1 m c) (aBE1 m c)

/-! ## The edge list's three derived arrays at the first region's entry -/

theorem t3_src (c : Dev nD) : W3 m ρ c (Proc.devRef .tc main_v3) = srcOf (aEI m c) :=
  (stage3_src m ρ c).trans (congrArg srcOf (keep0_main_arg1 m ρ c))
theorem t3_dst (c : Dev nD) : W3 m ρ c (Proc.devRef .tc main_v6) = dstOf (aEI m c) :=
  (stage3_dst m ρ c).trans (congrArg dstOf (keep0_main_arg1 m ρ c))
theorem t3_norm (c : Dev nD) : W3 m ρ c (Proc.devRef .tc main_v29) = normOf (F := Ideal) (aEI m c) :=
  (stage3_norm m ρ c).trans (congrArg (normOf (F := Ideal)) (keep0_main_arg1 m ρ c))

/-! ## The first layer -/

/-- The first dense product's array after its region. -/
theorem t4_v30 (c : Dev nD) : W4 m ρ c (Proc.devRef .tc main_v30) = denseK (aX m c) (aW0 m c) := by
  refine (W4_arr m ρ c 2).trans ((final0 (V3 m ρ) c).trans ?_)
  rw [show (V3 m ρ c main_arg0 : FVec Ideal S100000x128 .f32) = aX m c from keep3_main_arg0 m ρ c,
    show (V3 m ρ c main_arg3 : FVec Ideal S128x128 .f32) = aW0 m c from keep3_main_arg3 m ρ c]
  rfl

/-- The first layer before normalisation, after the stretch that follows the product. -/
theorem t5_v46 (c : Dev nD) : W5 m ρ c (Proc.devRef .tc main_v46) = vA0 m c := by
  refine (stage5 m ρ c).trans ?_
  rw [t4_v30 m ρ c, keep4_main_v3 m ρ c, t3_src m ρ c, keep4_main_v6 m ρ c, t3_dst m ρ c, keep4_main_v29 m ρ c,
    t3_norm m ρ c, keep4_main_arg4 m ρ c]
  rfl

/-- Its column sums and column sums of squares after the statistics region. -/
theorem t6_sum (c : Dev nD) : W6 m ρ c (Proc.devRef .tc main_v47_0) = sumRow (vA0 m c) := by
  refine (W6_arr m ρ c 1).trans ((final1 (V5 m ρ) c).1.trans ?_)
  rw [show (V5 m ρ c main_v46 : FVec Ideal S100000x128 .f32) = vA0 m c from t5_v46 m ρ c]
  rfl
theorem t6_sq (c : Dev nD) : W6 m ρ c (Proc.devRef .tc main_v47_1) = sqRow (vA0 m c) := by
  refine (W6_arr m ρ c 2).trans ((final1 (V5 m ρ) c).2.trans ?_)
  rw [show (V5 m ρ c main_v46 : FVec Ideal S100000x128 .f32) = vA0 m c from t5_v46 m ρ c]
  rfl

/-- The scale and shift rows after the coefficient arithmetic. -/
theorem t7_scale (c : Dev nD) :
    W7 m ρ c (Proc.devRef .tc main_v58) = bnScale (F := Ideal) (sumRow (vA0 m c)) (sqRow (vA0 m c)) (aG0 m c) := by
  refine (stage7_scale m ρ c).trans ?_
  rw [t6_sum m ρ c, t6_sq m ρ c, keep6_main_arg5 m ρ c]
theorem t7_shift (c : Dev nD) :
    W7 m ρ c (Proc.devRef .tc main_v61)
      = bnShift (F := Ideal) (sumRow (vA0 m c)) (sqRow (vA0 m c)) (aG0 m c) (aBE0 m c) := by
  refine (stage7_shift m ρ c).trans ?_
  rw [t6_sum m ρ c, t6_sq m ρ c, keep6_main_arg5 m ρ c, keep6_main_arg6 m ρ c]
theorem t7_v46 (c : Dev nD) : W7 m ρ c (Proc.devRef .tc main_v46) = vA0 m c :=
  (keep7_main_v46 m ρ c).trans (t5_v46 m ρ c)

/-- The first layer's output after the normalise-and-clamp region. -/
theorem t8_v62 (c : Dev nD) : W8 m ρ c (Proc.devRef .tc main_v62) = vY0 m c := by
  refine (W8_arr m ρ c 3).trans ((final2 (V7 m ρ) c).trans ?_)
  rw [show (V7 m ρ c main_v46 : FVec Ideal S100000x128 .f32) = vA0 m c from t7_v46 m ρ c,
    show (V7 m ρ c main_v58 : FVec Ideal S1x128 .f32) = _ from t7_scale m ρ c,
    show (V7 m ρ c main_v61 : FVec Ideal S1x128 .f32) = _ from t7_shift m ρ c]
  rfl

/-! ## The second layer -/

theorem t9_v63 (c : Dev nD) : W9 m ρ c (Proc.devRef .tc main_v63) = denseK (vY0 m c) (aW1 m c) := by
  refine (W9_arr m ρ c 2).trans ((final3 (V8 m ρ) c).trans ?_)
  rw [show (V8 m ρ c main_v62 : FVec Ideal S100000x128 .f32) = vY0 m c from t8_v62 m ρ c,
    show (V8 m ρ c main_arg7 : FVec Ideal S128x128 .f32) = aW1 m c from keep8_main_arg7 m ρ c]
  rfl

theorem t10_v79 (c : Dev nD) : W10 m ρ c (Proc.devRef .tc main_v79) = vA1 m c := by
  refine (stage10 m ρ c).trans ?_
  rw [t9_v63 m ρ c, keep9_main_v3 m ρ c, t3_src m ρ c, keep9_main_v6 m ρ c, t3_dst m ρ c, keep9_main_v29 m ρ c,
    t3_norm m ρ c, keep9_main_arg8 m ρ c]
  rfl

theorem t11_sum (c : Dev nD) : W11 m ρ c (Proc.devRef .tc main_v80_0) = sumRow (vA1 m c) := by
  refine (W11_arr m ρ c 1).trans ((final4 (V10 m ρ) c).1.trans ?_)
  rw [show (V10 m ρ c main_v79 : FVec Ideal S100000x128 .f32) = vA1 m c from t10_v79 m ρ c]
  rfl
theorem t11_sq (c : Dev nD) : W11 m ρ c (Proc.devRef .tc main_v80_1) = sqRow (vA1 m c) := by
  refine (W11_arr m ρ c 2).trans ((final4 (V10 m ρ) c).2.trans ?_)
  rw [show (V10 m ρ c main_v79 : FVec Ideal S100000x128 .f32) = vA1 m c from t10_v79 m ρ c]
  rfl

theorem t12_scale (c : Dev nD) :
    W12 m ρ c (Proc.devRef .tc main_v91) = bnScale (F := Ideal) (sumRow (vA1 m c)) (sqRow (vA1 m c)) (aG1 m c) := by
  refine (stage12_scale m ρ c).trans ?_
  rw [t11_sum m ρ c, t11_sq m ρ c, keep11_main_arg9 m ρ c]
theorem t12_shift (c : Dev nD) :
    W12 m ρ c (Proc.devRef .tc main_v94)
      = bnShift (F := Ideal) (sumRow (vA1 m c)) (sqRow (vA1 m c)) (aG1 m c) (aBE1 m c) := by
  refine (stage12_shift m ρ c).trans ?_
  rw [t11_sum m ρ c, t11_sq m ρ c, keep11_main_arg9 m ρ c, keep11_main_arg10 m ρ c]
theorem t12_v79 (c : Dev nD) : W12 m ρ c (Proc.devRef .tc main_v79) = vA1 m c :=
  (keep12_main_v79 m ρ c).trans (t10_v79 m ρ c)

theorem t13_v95 (c : Dev nD) : W13 m ρ c (Proc.devRef .tc main_v95) = vY1 m c := by
  refine (W13_arr m ρ c 3).trans ((final5 (V12 m ρ) c).trans ?_)
  rw [show (V12 m ρ c main_v79 : FVec Ideal S100000x128 .f32) = vA1 m c from t12_v79 m ρ c,
    show (V12 m ρ c main_v91 : FVec Ideal S1x128 .f32) = _ from t12_scale m ρ c,
    show (V12 m ρ c main_v94 : FVec Ideal S1x128 .f32) = _ from t12_shift m ρ c]
  rfl

/-! ## Pooling and the result -/

theorem t14_v102 (c : Dev nD) : W14 m ρ c (Proc.devRef .tc main_v102) = oneHot (F := Ideal) (aBT m c) := by
  refine (stage14 m ρ c).trans ?_
  rw [keep13_main_arg2 m ρ c]
theorem t14_v95 (c : Dev nD) : W14 m ρ c (Proc.devRef .tc main_v95) = vY1 m c :=
  (keep14_main_v95 m ρ c).trans (t13_v95 m ρ c)

theorem t15_sums (c : Dev nD) : W15 m ρ c (Proc.devRef .tc main_v103_0) = pooledK (aBT m c) (vY1 m c) := by
  refine (W15_arr m ρ c 2).trans ((final6 (V14 m ρ) c).1.trans ?_)
  rw [show (V14 m ρ c main_v95 : FVec Ideal S100000x128 .f32) = vY1 m c from t14_v95 m ρ c,
    show (V14 m ρ c main_v102 : FVec Ideal S100000x64 .bf16) = _ from t14_v102 m ρ c]
  rfl
theorem t15_cnts (c : Dev nD) : W15 m ρ c (Proc.devRef .tc main_v103_1) = countK (aBT m c) := by
  refine (W15_arr m ρ c 3).trans ((final6 (V14 m ρ) c).2.trans ?_)
  rw [show (V14 m ρ c main_v102 : FVec Ideal S100000x64 .bf16) = _ from t14_v102 m ρ c]
  rfl

/-- The result buffer at the last boundary is `outK` of the argument arrays as launched. -/
theorem kernel_value (c : Dev nD) :
    W16 m ρ c (Proc.devRef .tc main_v112)
      = outK (aX m c) (aEI m c) (aBT m c) (aW0 m c) (aB0 m c) (aG0 m c) (aBE0 m c) (aW1 m c) (aB1 m c) (aG1 m c)
          (aBE1 m c) (aWFC m c) (aBFC m c) := by
  refine (stage16 m ρ c).trans ?_
  rw [t15_sums m ρ c, t15_cnts m ρ c, keep15_main_arg11 m ρ c, keep15_main_arg12 m ρ c]
  rfl

/-- The kernel program's run, read: the result at `outK` of the launch contents, the arguments unchanged. -/
theorem run : θ_run defs (onTc (τ := τ) (main (F := Ideal))) ⟨m, fun _ => 0, ρ⟩ (fun r => ∀ c : Dev nD,
      r.2.mem ((c.tc : Thread nD τ).loc main_v112)
        = outK (aX m c) (aEI m c) (aBT m c) (aW0 m c) (aB0 m c) (aG0 m c) (aBE0 m c) (aW1 m c) (aB1 m c) (aG1 m c)
            (aBE1 m c) (aWFC m c) (aBFC m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨(h c).1.trans (kernel_value m ρ c), (h c).2⟩) (run_W16 m ρ)

end Cert.KernelIdeal.Val

end
-- ==== Proof.RefRun.lean ====
/-
  The reference program as one straight line. @main calls three module-local functions (a masked select, a
  variance whose body holds a masked select of its own, a rectifier); with every call replaced by the callee's
  operations over that call's buffers it is 194 host operations in a row. This module lists them, proves @main
  equal to that line, reads the line's effect on every buffer as the fold of the operations' results, and names
  the fold at the result buffer as a composition of stage functions: the edge normalisation, a dense product,
  the aggregation over edges, batch normalisation with a rectifier, and the pooling tail.
-/
import proofs.«417032_j62294205661279_1_alg».proof.ReferenceIdeal
import proofs.«417032_j62294205661279_1_alg».proof.Proof.Gen.ReferenceIdeal
import Idealize.ShloMosaic.Lib.StableHlo.Run
import Idealize.ShloMosaic.Lib.Tactic

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order, the calls inlined -/

/-- The edge list's two rows, each reshaped to a vector and followed by the self-loop indices `0 … 99999`: the source ends (%3) and the target ends (%6). -/
abbrev opsA1 : List (HloOp τ sig (Elt F)) :=
  [
    StableHlo.nullary main_v0 (iotaInDim S100000 32 0),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    StableHlo.unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v4 main_v5 rfl shapeCasts_S1x1600000_S1600000,
    StableHlo.binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)) ]

/-- The in-degree (ones summed at the target ends into zeros, %10), its reciprocal square root where the degree is positive and zero elsewhere (the call of @_where, %14), that table gathered at both ends of every edge and the two multiplied (%29). -/
abbrev opsA2 : List (HloOp τ sig (Elt F)) :=
  [
    StableHlo.nullary main_cst (constant S_ .f32 0x3F800000#32),
    StableHlo.unary main_cst main_v7 (broadcastInDim S1700000 ![] bcast_S_S1700000 : (⟨S_, .f32⟩ : BufTy).Contents (Elt F) → (⟨S1700000, .f32⟩ : BufTy).Contents (Elt F)),
    StableHlo.nullary main_cst_0 (constant S_ .f32 0x00000000#32),
    StableHlo.unary main_cst_0 main_v8 (broadcastInDim S100000 ![] bcast_S_S100000 : (⟨S_, .f32⟩ : BufTy).Contents (Elt F) → (⟨S100000, .f32⟩ : BufTy).Contents (Elt F)),
    StableHlo.unary main_v6 main_v9 (broadcastInDim S1700000x1 ![0] bcast_S1700000_S1700000x1_0 : (⟨S1700000, .i32⟩ : BufTy).Contents (Elt F) → (⟨S1700000x1, .i32⟩ : BufTy).Contents (Elt F)),
    StableHlo.ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    StableHlo.nullary main_cst_1 (constant S_ .f32 0x00000000#32),
    StableHlo.unary main_cst_1 main_v11 (broadcastInDim S100000 ![] bcast_S_S100000 : (⟨S_, .f32⟩ : BufTy).Contents (Elt F) → (⟨S100000, .f32⟩ : BufTy).Contents (Elt F)),
    StableHlo.binary main_v10 main_v11 main_v12 (cmpf .ogt : (⟨S100000, .f32⟩ : BufTy).Contents (Elt F) → (⟨S100000, .f32⟩ : BufTy).Contents (Elt F) → (⟨S100000, .i1⟩ : BufTy).Contents (Elt F)),
    StableHlo.unary main_v10 main_v13 (Host.rsqrt : (⟨S100000, .f32⟩ : BufTy).Contents (Elt F) → (⟨S100000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S100000 ![] bcast_S_S100000),
    StableHlo.TRef.ternary (.of main_v12 : StableHlo.TRef sig ⟨S100000, .i1⟩) (.of main_v13 : StableHlo.TRef sig ⟨S100000, .f32⟩) main_call0.v1 main_call0.v2 select,
    StableHlo.nullary main_c (constantI S_ 32 0#32),
    StableHlo.unary main_c main_v15 (broadcastInDim S1700000 ![] bcast_S_S1700000 : (⟨S_, .i32⟩ : BufTy).Contents (Elt F) → (⟨S1700000, .i32⟩ : BufTy).Contents (Elt F)),
    StableHlo.binary main_v3 main_v15 main_v16 (cmpi .slt : (⟨S1700000, .i32⟩ : BufTy).Contents (Elt F) → (⟨S1700000, .i32⟩ : BufTy).Contents (Elt F) → (⟨S1700000, .i1⟩ : BufTy).Contents (Elt F)),
    StableHlo.nullary main_c_3 (constantI S_ 32 100000#32),
    StableHlo.unary main_c_3 main_v17 (broadcastInDim S1700000 ![] bcast_S_S1700000 : (⟨S_, .i32⟩ : BufTy).Contents (Elt F) → (⟨S1700000, .i32⟩ : BufTy).Contents (Elt F)),
    StableHlo.binary main_v3 main_v17 main_v18 (addi : (⟨S1700000, .i32⟩ : BufTy).Contents (Elt F) → (⟨S1700000, .i32⟩ : BufTy).Contents (Elt F) → (⟨S1700000, .i32⟩ : BufTy).Contents (Elt F)),
    StableHlo.ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v19 main_v20 (broadcastInDim S1700000x1 ![0] bcast_S1700000_S1700000x1_0 : (⟨S1700000, .i32⟩ : BufTy).Contents (Elt F) → (⟨S1700000x1, .i32⟩ : BufTy).Contents (Elt F)),
    StableHlo.binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.nullary main_c_4 (constantI S_ 32 0#32),
    StableHlo.unary main_c_4 main_v22 (broadcastInDim S1700000 ![] bcast_S_S1700000 : (⟨S_, .i32⟩ : BufTy).Contents (Elt F) → (⟨S1700000, .i32⟩ : BufTy).Contents (Elt F)),
    StableHlo.binary main_v6 main_v22 main_v23 (cmpi .slt : (⟨S1700000, .i32⟩ : BufTy).Contents (Elt F) → (⟨S1700000, .i32⟩ : BufTy).Contents (Elt F) → (⟨S1700000, .i1⟩ : BufTy).Contents (Elt F)),
    StableHlo.nullary main_c_5 (constantI S_ 32 100000#32),
    StableHlo.unary main_c_5 main_v24 (broadcastInDim S1700000 ![] bcast_S_S1700000 : (⟨S_, .i32⟩ : BufTy).Contents (Elt F) → (⟨S1700000, .i32⟩ : BufTy).Contents (Elt F)),
    StableHlo.binary main_v6 main_v24 main_v25 (addi : (⟨S1700000, .i32⟩ : BufTy).Contents (Elt F) → (⟨S1700000, .i32⟩ : BufTy).Contents (Elt F) → (⟨S1700000, .i32⟩ : BufTy).Contents (Elt F)),
    StableHlo.ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v26 main_v27 (broadcastInDim S1700000x1 ![0] bcast_S1700000_S1700000x1_0 : (⟨S1700000, .i32⟩ : BufTy).Contents (Elt F) → (⟨S1700000x1, .i32⟩ : BufTy).Contents (Elt F)),
    StableHlo.binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    StableHlo.binary main_v21 main_v28 main_v29 (mulf : (⟨S1700000, .f32⟩ : BufTy).Contents (Elt F) → (⟨S1700000, .f32⟩ : BufTy).Contents (Elt F) → (⟨S1700000, .f32⟩ : BufTy).Contents (Elt F)) ]

/-- The first layer's aggregation: the dense product (%30), its rows gathered at the source ends, scaled by %29, summed into zeros at the target ends, the bias added (%46). -/
abbrev opsB : List (HloOp τ sig (Elt F)) :=
  [
    StableHlo.binary main_arg0 main_arg3 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_6 (constantI S_ 32 0#32),
    StableHlo.unary main_c_6 main_v31 (broadcastInDim S1700000 ![] bcast_S_S1700000 : (⟨S_, .i32⟩ : BufTy).Contents (Elt F) → (⟨S1700000, .i32⟩ : BufTy).Contents (Elt F)),
    StableHlo.binary main_v3 main_v31 main_v32 (cmpi .slt : (⟨S1700000, .i32⟩ : BufTy).Contents (Elt F) → (⟨S1700000, .i32⟩ : BufTy).Contents (Elt F) → (⟨S1700000, .i1⟩ : BufTy).Contents (Elt F)),
    StableHlo.nullary main_c_7 (constantI S_ 32 100000#32),
    StableHlo.unary main_c_7 main_v33 (broadcastInDim S1700000 ![] bcast_S_S1700000 : (⟨S_, .i32⟩ : BufTy).Contents (Elt F) → (⟨S1700000, .i32⟩ : BufTy).Contents (Elt F)),
    StableHlo.binary main_v3 main_v33 main_v34 (addi : (⟨S1700000, .i32⟩ : BufTy).Contents (Elt F) → (⟨S1700000, .i32⟩ : BufTy).Contents (Elt F) → (⟨S1700000, .i32⟩ : BufTy).Contents (Elt F)),
    StableHlo.ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v35 main_v36 (broadcastInDim S1700000x1 ![0] bcast_S1700000_S1700000x1_0 : (⟨S1700000, .i32⟩ : BufTy).Contents (Elt F) → (⟨S1700000x1, .i32⟩ : BufTy).Contents (Elt F)),
    StableHlo.binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v38 (broadcastInDim S1700000x1 ![0] bcast_S1700000_S1700000x1_0 : (⟨S1700000, .f32⟩ : BufTy).Contents (Elt F) → (⟨S1700000x1, .f32⟩ : BufTy).Contents (Elt F)),
    StableHlo.unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    StableHlo.nullary main_cst_8 (constant S_ .f32 0x00000000#32),
    StableHlo.unary main_cst_8 main_v41 (broadcastInDim S100000x128 ![] bcast_S_S100000x128 : (⟨S_, .f32⟩ : BufTy).Contents (Elt F) → (⟨S100000x128, .f32⟩ : BufTy).Contents (Elt F)),
    StableHlo.unary main_v6 main_v42 (broadcastInDim S1700000x1 ![0] bcast_S1700000_S1700000x1_0 : (⟨S1700000, .i32⟩ : BufTy).Contents (Elt F) → (⟨S1700000x1, .i32⟩ : BufTy).Contents (Elt F)),
    StableHlo.ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- The first batch normalisation and rectifier: the column mean (%49), the call of @_var (its own mean, the centred squares, their mean, the guard of @_where_0: %50), the centred value times the reciprocal root times the scale plus the shift (%65), the call of @relu (%66). -/
abbrev opsC : List (HloOp τ sig (Elt F)) :=
  [
    StableHlo.nullary main_cst_9 (constant S_ .f32 0x00000000#32),
    StableHlo.binary main_v46 main_cst_9 main_v47 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v48 (broadcastInDim S128 ![] bcast_S_S128 : (⟨S_, .f32⟩ : BufTy).Contents (Elt F) → (⟨S128, .f32⟩ : BufTy).Contents (Elt F)),
    StableHlo.binary main_v47 main_v48 main_v49 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v46 : StableHlo.TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v46 : StableHlo.TRef sig ⟨S100000x128, .f32⟩) main_call1.v4 main_call1.v5 subf,
    StableHlo.TRef.binary main_call1.v5 main_call1.v5 main_call1.v6 mulf,
    StableHlo.TRef.unary (.of main_c_11 : StableHlo.TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v49 main_v51 (broadcastInDim S1x128 ![1] bcast_S128_S1x128_1 : (⟨S128, .f32⟩ : BufTy).Contents (Elt F) → (⟨S1x128, .f32⟩ : BufTy).Contents (Elt F)),
    StableHlo.unary main_v51 main_v52 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v52 main_v53 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v54 (broadcastInDim S128 ![] bcast_S_S128 : (⟨S_, .f32⟩ : BufTy).Contents (Elt F) → (⟨S128, .f32⟩ : BufTy).Contents (Elt F)),
    StableHlo.binary main_v50 main_v54 main_v55 (addf : (⟨S128, .f32⟩ : BufTy).Contents (Elt F) → (⟨S128, .f32⟩ : BufTy).Contents (Elt F) → (⟨S128, .f32⟩ : BufTy).Contents (Elt F)),
    StableHlo.unary main_v55 main_v56 (Host.rsqrt : (⟨S128, .f32⟩ : BufTy).Contents (Elt F) → (⟨S128, .f32⟩ : BufTy).Contents (Elt F)),
    StableHlo.unary main_v56 main_v57 (broadcastInDim S1x128 ![1] bcast_S128_S1x128_1 : (⟨S128, .f32⟩ : BufTy).Contents (Elt F) → (⟨S1x128, .f32⟩ : BufTy).Contents (Elt F)),
    StableHlo.unary main_v57 main_v58 (broadcastInDim S100000x128 ![0, 1] bcast_S1x128_S100000x128_0_1 : (⟨S1x128, .f32⟩ : BufTy).Contents (Elt F) → (⟨S100000x128, .f32⟩ : BufTy).Contents (Elt F)),
    StableHlo.binary main_v53 main_v58 main_v59 (mulf : (⟨S100000x128, .f32⟩ : BufTy).Contents (Elt F) → (⟨S100000x128, .f32⟩ : BufTy).Contents (Elt F) → (⟨S100000x128, .f32⟩ : BufTy).Contents (Elt F)),
    StableHlo.unary main_arg5 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v59 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg6 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v65 : StableHlo.TRef sig ⟨S100000x128, .f32⟩) main_call2.v0 main_call2.v1 maximumf ]

/-- The second layer's aggregation, the same text as the first over %66 and the second weight and bias (%67 … %83). -/
abbrev opsD : List (HloOp τ sig (Elt F)) :=
  [
    StableHlo.binary main_v66 main_arg7 main_v67 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_c_13 (constantI S_ 32 0#32),
    StableHlo.unary main_c_13 main_v68 (broadcastInDim S1700000 ![] bcast_S_S1700000 : (⟨S_, .i32⟩ : BufTy).Contents (Elt F) → (⟨S1700000, .i32⟩ : BufTy).Contents (Elt F)),
    StableHlo.binary main_v3 main_v68 main_v69 (cmpi .slt : (⟨S1700000, .i32⟩ : BufTy).Contents (Elt F) → (⟨S1700000, .i32⟩ : BufTy).Contents (Elt F) → (⟨S1700000, .i1⟩ : BufTy).Contents (Elt F)),
    StableHlo.nullary main_c_14 (constantI S_ 32 100000#32),
    StableHlo.unary main_c_14 main_v70 (broadcastInDim S1700000 ![] bcast_S_S1700000 : (⟨S_, .i32⟩ : BufTy).Contents (Elt F) → (⟨S1700000, .i32⟩ : BufTy).Contents (Elt F)),
    StableHlo.binary main_v3 main_v70 main_v71 (addi : (⟨S1700000, .i32⟩ : BufTy).Contents (Elt F) → (⟨S1700000, .i32⟩ : BufTy).Contents (Elt F) → (⟨S1700000, .i32⟩ : BufTy).Contents (Elt F)),
    StableHlo.ternary main_v69 main_v71 main_v3 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    StableHlo.unary main_v72 main_v73 (broadcastInDim S1700000x1 ![0] bcast_S1700000_S1700000x1_0 : (⟨S1700000, .i32⟩ : BufTy).Contents (Elt F) → (⟨S1700000x1, .i32⟩ : BufTy).Contents (Elt F)),
    StableHlo.binary main_v67 main_v73 main_v74 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    StableHlo.unary main_v29 main_v75 (broadcastInDim S1700000x1 ![0] bcast_S1700000_S1700000x1_0 : (⟨S1700000, .f32⟩ : BufTy).Contents (Elt F) → (⟨S1700000x1, .f32⟩ : BufTy).Contents (Elt F)),
    StableHlo.unary main_v75 main_v76 (broadcastInDim S1700000x128 ![0, 1] bcast_S1700000x1_S1700000x128_0_1 : (⟨S1700000x1, .f32⟩ : BufTy).Contents (Elt F) → (⟨S1700000x128, .f32⟩ : BufTy).Contents (Elt F)),
    StableHlo.binary main_v74 main_v76 main_v77 (mulf : (⟨S1700000x128, .f32⟩ : BufTy).Contents (Elt F) → (⟨S1700000x128, .f32⟩ : BufTy).Contents (Elt F) → (⟨S1700000x128, .f32⟩ : BufTy).Contents (Elt F)),
    StableHlo.nullary main_cst_15 (constant S_ .f32 0x00000000#32),
    StableHlo.unary main_cst_15 main_v78 (broadcastInDim S100000x128 ![] bcast_S_S100000x128 : (⟨S_, .f32⟩ : BufTy).Contents (Elt F) → (⟨S100000x128, .f32⟩ : BufTy).Contents (Elt F)),
    StableHlo.unary main_v6 main_v79 (broadcastInDim S1700000x1 ![0] bcast_S1700000_S1700000x1_0 : (⟨S1700000, .i32⟩ : BufTy).Contents (Elt F) → (⟨S1700000x1, .i32⟩ : BufTy).Contents (Elt F)),
    StableHlo.ternary main_v78 main_v79 main_v77 main_v80 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    StableHlo.unary main_arg8 main_v81 (broadcastInDim S1x128 ![1] bcast_S128_S1x128_1 : (⟨S128, .f32⟩ : BufTy).Contents (Elt F) → (⟨S1x128, .f32⟩ : BufTy).Contents (Elt F)),
    StableHlo.unary main_v81 main_v82 (broadcastInDim S100000x128 ![0, 1] bcast_S1x128_S100000x128_0_1 : (⟨S1x128, .f32⟩ : BufTy).Contents (Elt F) → (⟨S100000x128, .f32⟩ : BufTy).Contents (Elt F)),
    StableHlo.binary main_v80 main_v82 main_v83 (addf : (⟨S100000x128, .f32⟩ : BufTy).Contents (Elt F) → (⟨S100000x128, .f32⟩ : BufTy).Contents (Elt F) → (⟨S100000x128, .f32⟩ : BufTy).Contents (Elt F)) ]

/-- The second batch normalisation and rectifier (%84 … %103), the same text as the first. -/
abbrev opsE : List (HloOp τ sig (Elt F)) :=
  [
    StableHlo.nullary main_cst_16 (constant S_ .f32 0x00000000#32),
    StableHlo.binary main_v83 main_cst_16 main_v84 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v85 (broadcastInDim S128 ![] bcast_S_S128 : (⟨S_, .f32⟩ : BufTy).Contents (Elt F) → (⟨S128, .f32⟩ : BufTy).Contents (Elt F)),
    StableHlo.binary main_v84 main_v85 main_v86 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call3.cst (constant S_ .f32 0x00000000#32),
    StableHlo.TRef.binary (.of main_v83 : StableHlo.TRef sig ⟨S100000x128, .f32⟩) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v83 : StableHlo.TRef sig ⟨S100000x128, .f32⟩) main_call3.v4 main_call3.v5 subf,
    StableHlo.TRef.binary main_call3.v5 main_call3.v5 main_call3.v6 mulf,
    StableHlo.TRef.unary (.of main_c_18 : StableHlo.TRef sig ⟨S_, .i32⟩) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v86 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v83 main_v89 main_v90 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v91 (broadcastInDim S128 ![] bcast_S_S128 : (⟨S_, .f32⟩ : BufTy).Contents (Elt F) → (⟨S128, .f32⟩ : BufTy).Contents (Elt F)),
    StableHlo.binary main_v87 main_v91 main_v92 (addf : (⟨S128, .f32⟩ : BufTy).Contents (Elt F) → (⟨S128, .f32⟩ : BufTy).Contents (Elt F) → (⟨S128, .f32⟩ : BufTy).Contents (Elt F)),
    StableHlo.unary main_v92 main_v93 (Host.rsqrt : (⟨S128, .f32⟩ : BufTy).Contents (Elt F) → (⟨S128, .f32⟩ : BufTy).Contents (Elt F)),
    StableHlo.unary main_v93 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v95 main_v96 (mulf : (⟨S100000x128, .f32⟩ : BufTy).Contents (Elt F) → (⟨S100000x128, .f32⟩ : BufTy).Contents (Elt F) → (⟨S100000x128, .f32⟩ : BufTy).Contents (Elt F)),
    StableHlo.unary main_arg9 main_v97 (broadcastInDim S1x128 ![1] bcast_S128_S1x128_1 : (⟨S128, .f32⟩ : BufTy).Contents (Elt F) → (⟨S1x128, .f32⟩ : BufTy).Contents (Elt F)),
    StableHlo.unary main_v97 main_v98 (broadcastInDim S100000x128 ![0, 1] bcast_S1x128_S100000x128_0_1 : (⟨S1x128, .f32⟩ : BufTy).Contents (Elt F) → (⟨S100000x128, .f32⟩ : BufTy).Contents (Elt F)),
    StableHlo.binary main_v96 main_v98 main_v99 (mulf : (⟨S100000x128, .f32⟩ : BufTy).Contents (Elt F) → (⟨S100000x128, .f32⟩ : BufTy).Contents (Elt F) → (⟨S100000x128, .f32⟩ : BufTy).Contents (Elt F)),
    StableHlo.unary main_arg10 main_v100 (broadcastInDim S1x128 ![1] bcast_S128_S1x128_1 : (⟨S128, .f32⟩ : BufTy).Contents (Elt F) → (⟨S1x128, .f32⟩ : BufTy).Contents (Elt F)),
    StableHlo.unary main_v100 main_v101 (broadcastInDim S100000x128 ![0, 1] bcast_S1x128_S100000x128_0_1 : (⟨S1x128, .f32⟩ : BufTy).Contents (Elt F) → (⟨S100000x128, .f32⟩ : BufTy).Contents (Elt F)),
    StableHlo.binary main_v99 main_v101 main_v102 (addf : (⟨S100000x128, .f32⟩ : BufTy).Contents (Elt F) → (⟨S100000x128, .f32⟩ : BufTy).Contents (Elt F) → (⟨S100000x128, .f32⟩ : BufTy).Contents (Elt F)),
    StableHlo.TRef.nullary main_call4.cst (constant S_ .f32 0x00000000#32),
    StableHlo.TRef.unary main_call4.cst main_call4.v0 (broadcastInDim S100000x128 ![] bcast_S_S100000x128),
    StableHlo.TRef.binary (.of main_v102 : StableHlo.TRef sig ⟨S100000x128, .f32⟩) main_call4.v0 main_call4.v1 maximumf ]

/-- The mean pooling per graph (node counts and row sums summed at the batch vector into zeros, the counts clamped below at one, the quotient), the last dense product and its bias (%119). -/
abbrev opsG : List (HloOp τ sig (Elt F)) :=
  [
    StableHlo.nullary main_cst_20 (constant S_ .f32 0x3F800000#32),
    StableHlo.unary main_cst_20 main_v104 (broadcastInDim S100000 ![] bcast_S_S100000 : (⟨S_, .f32⟩ : BufTy).Contents (Elt F) → (⟨S100000, .f32⟩ : BufTy).Contents (Elt F)),
    StableHlo.nullary main_cst_21 (constant S_ .f32 0x00000000#32),
    StableHlo.unary main_cst_21 main_v105 (broadcastInDim S64 ![] bcast_S_S64 : (⟨S_, .f32⟩ : BufTy).Contents (Elt F) → (⟨S64, .f32⟩ : BufTy).Contents (Elt F)),
    StableHlo.unary main_arg2 main_v106 (broadcastInDim S100000x1 ![0] bcast_S100000_S100000x1_0 : (⟨S100000, .i32⟩ : BufTy).Contents (Elt F) → (⟨S100000x1, .i32⟩ : BufTy).Contents (Elt F)),
    StableHlo.ternary main_v105 main_v106 main_v104 main_v107 ((fun x i u => Host.scatterAdd scatter_S64_S100000x1_S100000_n_0_0_1 x i u) : (⟨S64, .f32⟩ : BufTy).Contents (Elt F) → (⟨S100000x1, .i32⟩ : BufTy).Contents (Elt F) → (⟨S100000, .f32⟩ : BufTy).Contents (Elt F) → (⟨S64, .f32⟩ : BufTy).Contents (Elt F)),
    StableHlo.nullary main_cst_22 (constant S_ .f32 0x00000000#32),
    StableHlo.unary main_cst_22 main_v108 (broadcastInDim S64x128 ![] bcast_S_S64x128 : (⟨S_, .f32⟩ : BufTy).Contents (Elt F) → (⟨S64x128, .f32⟩ : BufTy).Contents (Elt F)),
    StableHlo.unary main_arg2 main_v109 (broadcastInDim S100000x1 ![0] bcast_S100000_S100000x1_0 : (⟨S100000, .i32⟩ : BufTy).Contents (Elt F) → (⟨S100000x1, .i32⟩ : BufTy).Contents (Elt F)),
    StableHlo.ternary main_v108 main_v109 main_v103 main_v110 ((fun x i u => Host.scatterAdd scatter_S64x128_S100000x1_S100000x128_1_0_0_1 x i u) : (⟨S64x128, .f32⟩ : BufTy).Contents (Elt F) → (⟨S100000x1, .i32⟩ : BufTy).Contents (Elt F) → (⟨S100000x128, .f32⟩ : BufTy).Contents (Elt F) → (⟨S64x128, .f32⟩ : BufTy).Contents (Elt F)),
    StableHlo.nullary main_cst_23 (constant S_ .f32 0x3F800000#32),
    StableHlo.unary main_cst_23 main_v111 (broadcastInDim S64 ![] bcast_S_S64 : (⟨S_, .f32⟩ : BufTy).Contents (Elt F) → (⟨S64, .f32⟩ : BufTy).Contents (Elt F)),
    StableHlo.binary main_v107 main_v111 main_v112 (maximumf : (⟨S64, .f32⟩ : BufTy).Contents (Elt F) → (⟨S64, .f32⟩ : BufTy).Contents (Elt F) → (⟨S64, .f32⟩ : BufTy).Contents (Elt F)),
    StableHlo.unary main_v112 main_v113 (broadcastInDim S64x1 ![0] bcast_S64_S64x1_0 : (⟨S64, .f32⟩ : BufTy).Contents (Elt F) → (⟨S64x1, .f32⟩ : BufTy).Contents (Elt F)),
    StableHlo.unary main_v113 main_v114 (broadcastInDim S64x128 ![0, 1] bcast_S64x1_S64x128_0_1 : (⟨S64x1, .f32⟩ : BufTy).Contents (Elt F) → (⟨S64x128, .f32⟩ : BufTy).Contents (Elt F)),
    StableHlo.binary main_v110 main_v114 main_v115 (Host.divf : (⟨S64x128, .f32⟩ : BufTy).Contents (Elt F) → (⟨S64x128, .f32⟩ : BufTy).Contents (Elt F) → (⟨S64x128, .f32⟩ : BufTy).Contents (Elt F)),
    StableHlo.binary main_v115 main_arg11 main_v116 ((fun l r => Host.dotGeneral dot_S64x128_S128x32_S64x32_1_0_0_1_n_n none l r) : (⟨S64x128, .f32⟩ : BufTy).Contents (Elt F) → (⟨S128x32, .f32⟩ : BufTy).Contents (Elt F) → (⟨S64x32, .f32⟩ : BufTy).Contents (Elt F)),
    StableHlo.unary main_arg12 main_v117 (broadcastInDim S1x32 ![1] bcast_S32_S1x32_1 : (⟨S32, .f32⟩ : BufTy).Contents (Elt F) → (⟨S1x32, .f32⟩ : BufTy).Contents (Elt F)),
    StableHlo.unary main_v117 main_v118 (broadcastInDim S64x32 ![0, 1] bcast_S1x32_S64x32_0_1 : (⟨S1x32, .f32⟩ : BufTy).Contents (Elt F) → (⟨S64x32, .f32⟩ : BufTy).Contents (Elt F)),
    StableHlo.binary main_v116 main_v118 main_v119 (addf : (⟨S64x32, .f32⟩ : BufTy).Contents (Elt F) → (⟨S64x32, .f32⟩ : BufTy).Contents (Elt F) → (⟨S64x32, .f32⟩ : BufTy).Contents (Elt F)) ]

/-- @main's operations in order, each call replaced by its callee's operations over that call's buffers. -/
abbrev ops : List (HloOp τ sig (Elt F)) := opsA1 ++ opsA2 ++ opsB ++ opsC ++ opsD ++ opsE ++ opsG

-- the chain is one hundred and ninety-four steps deep, each step reassociated inside the one before it
set_option maxRecDepth 8192 in
set_option maxHeartbeats 4000000 in
/-- @main is that straight line: the three windows and the callees' bodies unfolded, the records read at their
    fields, both sides are one chain of single steps once sequencing is reassociated. -/
theorem main_eq (c : Dev nD) : main (F := F) c = seq ops := by
  simp only [main, main_part0, main_part1, main_part2, fn_where.body, fn_where_0.body, fn_var.body, fn_relu.body,
    ops, opsA1, opsA2, opsB, opsC, opsD, opsE, opsG, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-! Every operation touches TensorCore references only, and none leaves a result undetermined: piece by piece,
    then over the concatenation by membership. -/

theorem opsA1_sub : (opsA1 : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub ..⟩
theorem opsA2_sub : (opsA2 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., binary_bufs_sub .., unary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub ..⟩
theorem opsB_sub : (opsB : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩
theorem opsC_sub : (opsC : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩
theorem opsD_sub : (opsD : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., unary_bufs_sub .., unary_bufs_sub ..,
    binary_bufs_sub .., nullary_bufs_sub .., unary_bufs_sub .., unary_bufs_sub .., ternary_bufs_sub .., unary_bufs_sub ..,
    unary_bufs_sub .., binary_bufs_sub ..⟩
theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩
theorem opsG_sub : (opsG : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., unary_bufs_sub .., binary_bufs_sub .., binary_bufs_sub .., unary_bufs_sub ..,
    unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (((((h | h) | h) | h) | h) | h) | h
    exacts [List.forall_iff_forall_mem.mp opsA1_sub op h,
      List.forall_iff_forall_mem.mp opsA2_sub op h,
      List.forall_iff_forall_mem.mp opsB_sub op h,
      List.forall_iff_forall_mem.mp opsC_sub op h,
      List.forall_iff_forall_mem.mp opsD_sub op h,
      List.forall_iff_forall_mem.mp opsE_sub op h,
      List.forall_iff_forall_mem.mp opsG_sub op h]

theorem opsA1_fresh : ∀ op ∈ (opsA1 : List (HloOp τ sig (Elt F))), op.fresh = ∅ := by
  intro _ h; (repeat (cases h with | head => rfl | tail _ h => ?_)); exact nomatch h
theorem opsA2_fresh : ∀ op ∈ (opsA2 : List (HloOp τ sig (Elt F))), op.fresh = ∅ := by
  intro _ h; (repeat (cases h with | head => rfl | tail _ h => ?_)); exact nomatch h
theorem opsB_fresh : ∀ op ∈ (opsB : List (HloOp τ sig (Elt F))), op.fresh = ∅ := by
  intro _ h; (repeat (cases h with | head => rfl | tail _ h => ?_)); exact nomatch h
theorem opsC_fresh : ∀ op ∈ (opsC : List (HloOp τ sig (Elt F))), op.fresh = ∅ := by
  intro _ h; (repeat (cases h with | head => rfl | tail _ h => ?_)); exact nomatch h
theorem opsD_fresh : ∀ op ∈ (opsD : List (HloOp τ sig (Elt F))), op.fresh = ∅ := by
  intro _ h; (repeat (cases h with | head => rfl | tail _ h => ?_)); exact nomatch h
theorem opsE_fresh : ∀ op ∈ (opsE : List (HloOp τ sig (Elt F))), op.fresh = ∅ := by
  intro _ h; (repeat (cases h with | head => rfl | tail _ h => ?_)); exact nomatch h
theorem opsG_fresh : ∀ op ∈ (opsG : List (HloOp τ sig (Elt F))), op.fresh = ∅ := by
  intro _ h; (repeat (cases h with | head => rfl | tail _ h => ?_)); exact nomatch h

theorem ops_fresh : ∀ op ∈ (ops : List (HloOp τ sig (Elt F))), op.fresh = ∅ := by
  intro op h
  simp only [ops, List.mem_append] at h
  rcases h with (((((h | h) | h) | h) | h) | h) | h
  exacts [opsA1_fresh op h, opsA2_fresh op h, opsB_fresh op h, opsC_fresh op h, opsD_fresh op h, opsE_fresh op h, opsG_fresh op h]

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The stages

Each is the composition of its operations' own functions, in the order the line applies them. -/

/-- The source end of every edge, the self-loops after the listed edges: row 0 of the edge list as a vector,
    then `0 … 99999` (%3). -/
def srcOf (ei : IVec S2x1600000 32) : IVec S1700000 32 :=
  concatenate S1700000 0 [⟨S1600000, (shapeCast S1600000 (extractStridedSlice S1x1600000 ![0, 0] ei slices_S2x1600000_S1x1600000_0_0) shapeCasts_S1x1600000_S1600000)⟩, ⟨S100000, (iotaInDim S100000 32 0)⟩] concatenates_S1600000_S100000_S1700000_d0

/-- The target end of every edge, the self-loops after the listed edges: row 1 of the edge list, then
    `0 … 99999` (%6). -/
def dstOf (ei : IVec S2x1600000 32) : IVec S1700000 32 :=
  concatenate S1700000 0 [⟨S1600000, (shapeCast S1600000 (extractStridedSlice S1x1600000 ![1, 0] ei slices_S2x1600000_S1x1600000_1_0) shapeCasts_S1x1600000_S1600000)⟩, ⟨S100000, (iotaInDim S100000 32 0)⟩] concatenates_S1600000_S100000_S1700000_d0

/-- The weight of every edge (%29): with `d` the in-degree (ones summed at the target ends) and `t` the table
    `1/√d` where `d > 0`, zero elsewhere, the product of `t` at the edge's source and `t` at its target (each
    index wrapped once by the table's length when negative, as the gather reads it). -/
def normOf (ei : IVec S2x1600000 32) : FVec F S1700000 .f32 :=
  mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf ei)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf ei)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (srcOf ei) (broadcastInDim S1700000 ![] bcast_S_S1700000 (constantI S_ 32 0#32))) (addi (srcOf ei) (broadcastInDim S1700000 ![] bcast_S_S1700000 (constantI S_ 32 100000#32))) (srcOf ei)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf ei)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (dstOf ei)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (dstOf ei) (broadcastInDim S1700000 ![] bcast_S_S1700000 (constantI S_ 32 0#32))) (addi (dstOf ei) (broadcastInDim S1700000 ![] bcast_S_S1700000 (constantI S_ 32 100000#32))) (dstOf ei))))

/-- Node features times a weight matrix (%30, %67). -/
def dense (x : FVec F S100000x128 .f32) (w : FVec F S128x128 .f32) : FVec F S100000x128 .f32 :=
  Host.dotGeneral dot_S100000x128_S128x128_S100000x128_1_0_0_1_n_n none x w

/-- The aggregation over edges (%46 from %30 and %arg4; the same text, %83 from %67 and %arg8): the rows of `hw`
    at the source ends, each times its edge's weight, summed into zeros at the target ends, plus the bias on
    every row. -/
def layerTail (ei : IVec S2x1600000 32) (hw : FVec F S100000x128 .f32) (b : FVec F S128 .f32) : FVec F S100000x128 .f32 :=
  addf (Host.scatterAdd scatter_S100000x128_S1700000x1_S1700000x128_1_0_0_1 (broadcastInDim S100000x128 ![] bcast_S_S100000x128 (constant S_ .f32 0x00000000#32)) (broadcastInDim S1700000x1 ![0] bcast_S1700000_S1700000x1_0 (dstOf ei)) (mulf (Host.gather gather_S100000x128_S1700000x1_S1700000x128_1_0_n_n_0_1_1128 hw (broadcastInDim S1700000x1 ![0] bcast_S1700000_S1700000x1_0 (select (cmpi .slt (srcOf ei) (broadcastInDim S1700000 ![] bcast_S_S1700000 (constantI S_ 32 0#32))) (addi (srcOf ei) (broadcastInDim S1700000 ![] bcast_S_S1700000 (constantI S_ 32 100000#32))) (srcOf ei)))) (broadcastInDim S1700000x128 ![0, 1] bcast_S1700000x1_S1700000x128_0_1 (broadcastInDim S1700000x1 ![0] bcast_S1700000_S1700000x1_0 (normOf ei))))) (broadcastInDim S100000x128 ![0, 1] bcast_S1x128_S100000x128_0_1 (broadcastInDim S1x128 ![1] bcast_S128_S1x128_1 b))

/-- Batch normalisation over the rows, then the rectifier (%66 from %46, %arg5, %arg6; the same text, %103 from
    %83, %arg9, %arg10): with `μ` the column mean and `v` the mean of the squares centred at `μ` (kept where the
    divisor `100000 − 0` is positive, else the quiet NaN word), `max ((a − μ) · 1/√(v + ε) · g + be) 0`. -/
def bnRelu (a : FVec F S100000x128 .f32) (g be : FVec F S128 .f32) : FVec F S100000x128 .f32 :=
  maximumf (addf (mulf (mulf (subf a (broadcastInDim S100000x128 ![0, 1] bcast_S1x128_S100000x128_0_1 (broadcastInDim S1x128 ![1] bcast_S128_S1x128_1 (Host.divf (Host.reduceAdd a (constant S_ .f32 0x00000000#32) reducesTo_S100000x128_S128_d0 h_S_) (broadcastInDim S128 ![] bcast_S_S128 (constant S_ .f32 0x47C35000#32)))))) (broadcastInDim S100000x128 ![0, 1] bcast_S1x128_S100000x128_0_1 (broadcastInDim S1x128 ![1] bcast_S128_S1x128_1 (Host.rsqrt (addf (select (broadcastInDim S128 ![] bcast_S_S128 (cmpf (F := F) .ogt (subf (constant S_ .f32 0x47C35000#32) (sitofp (F := F) .f32 (constantI S_ 32 0#32))) (constant S_ .f32 0x00000000#32))) (Host.divf (Host.reduceAdd (mulf (subf a (broadcastInDim S100000x128 ![0, 1] bcast_S1x128_S100000x128_0_1 (Host.divf (broadcastInDim S1x128 ![1] bcast_S128_S1x128_1 (Host.reduceAdd a (constant S_ .f32 0x00000000#32) reducesTo_S100000x128_S128_d0 h_S_)) (broadcastInDim S1x128 ![] bcast_S_S1x128 (constant S_ .f32 0x47C35000#32))))) (subf a (broadcastInDim S100000x128 ![0, 1] bcast_S1x128_S100000x128_0_1 (Host.divf (broadcastInDim S1x128 ![1] bcast_S128_S1x128_1 (Host.reduceAdd a (constant S_ .f32 0x00000000#32) reducesTo_S100000x128_S128_d0 h_S_)) (broadcastInDim S1x128 ![] bcast_S_S1x128 (constant S_ .f32 0x47C35000#32)))))) (constant S_ .f32 0x00000000#32) reducesTo_S100000x128_S128_d0 h_S_) (broadcastInDim S128 ![] bcast_S_S128 (subf (constant S_ .f32 0x47C35000#32) (sitofp (F := F) .f32 (constantI S_ 32 0#32))))) (broadcastInDim S128 ![] bcast_S_S128 (id (constant S_ .f32 0x7FC00000#32)))) (broadcastInDim S128 ![] bcast_S_S128 (constant S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))) (broadcastInDim S100000x128 ![] bcast_S_S100000x128 (constant S_ .f32 0x00000000#32))

/-- The pooling tail (%119 from %103, %arg2, %arg11, %arg12): the rows of `y` summed per graph, divided by the
    graph's node count clamped below at one, times the last weight matrix, plus its bias on every row. -/
def poolTail (bt : IVec S100000 32) (y : FVec F S100000x128 .f32) (wfc : FVec F S128x32 .f32) (bfc : FVec F S32 .f32) : FVec F S64x32 .f32 :=
  addf (Host.dotGeneral dot_S64x128_S128x32_S64x32_1_0_0_1_n_n none (Host.divf (Host.scatterAdd scatter_S64x128_S100000x1_S100000x128_1_0_0_1 (broadcastInDim S64x128 ![] bcast_S_S64x128 (constant S_ .f32 0x00000000#32)) (broadcastInDim S100000x1 ![0] bcast_S100000_S100000x1_0 bt) y) (broadcastInDim S64x128 ![0, 1] bcast_S64x1_S64x128_0_1 (broadcastInDim S64x1 ![0] bcast_S64_S64x1_0 (maximumf (Host.scatterAdd scatter_S64_S100000x1_S100000_n_0_0_1 (broadcastInDim S64 ![] bcast_S_S64 (constant S_ .f32 0x00000000#32)) (broadcastInDim S100000x1 ![0] bcast_S100000_S100000x1_0 bt) (broadcastInDim S100000 ![] bcast_S_S100000 (constant S_ .f32 0x3F800000#32))) (broadcastInDim S64 ![] bcast_S_S64 (constant S_ .f32 0x3F800000#32)))))) wfc) (broadcastInDim S64x32 ![0, 1] bcast_S1x32_S64x32_0_1 (broadcastInDim S1x32 ![1] bcast_S32_S1x32_1 bfc))

/-- What the line leaves in the result buffer, of the thirteen arguments' contents: two rounds of dense product,
    aggregation, normalisation and rectifier, then the pooling tail. -/
def out (x : FVec F S100000x128 .f32) (ei : IVec S2x1600000 32) (bt : IVec S100000 32)
    (w0 : FVec F S128x128 .f32) (b0 g0 be0 : FVec F S128 .f32) (w1 : FVec F S128x128 .f32) (b1 g1 be1 : FVec F S128 .f32)
    (wfc : FVec F S128x32 .f32) (bfc : FVec F S32 .f32) : FVec F S64x32 .f32 :=
  poolTail bt (bnRelu (layerTail ei (dense (bnRelu (layerTail ei (dense x w0) b0) g0 be0) w1) b1) g1 be1) wfc bfc

/-! ## What each piece writes, and what it keeps

A piece's operations write the listed references and no other, so a reference outside the list has the same
contents after the piece as before it. -/

abbrev opsA1_W : List (Ref sig .tc) :=
  [main_v0, main_v1, main_v2, main_v3, main_v4, main_v5, main_v6]
theorem opsA1_writes : (opsA1 : List (HloOp τ sig (Elt F))).Forall fun op =>
    op.writes ⊆ (opsA1_W.map (Proc.devRef (τ := τ) .tc)).toFinset := by
  simp only [List.Forall]
  refine ⟨?_, ?_, ?_, ?_, ?_, ?_, ?_⟩ <;>
    (simp only [nullary_writes, unary_writes, binary_writes, ternary_writes, reshape_writes, Finset.singleton_subset_iff, List.mem_toFinset]
     exact List.mem_map_of_mem (by decide))
theorem opsA1_keep (W : Valuation τ sig (Elt F)) (r : Ref sig .tc) (h : r ∉ opsA1_W) :
    after opsA1 W (r : DevRef τ sig) = W (r : DevRef τ sig) :=
  after_of_writes_sub opsA1 W opsA1_writes h

abbrev opsA2_W : List (Ref sig .tc) :=
  [main_cst, main_v7, main_cst_0, main_v8, main_v9, main_v10, main_cst_1, main_v11,
   main_v12, main_v13, main_cst_2, main_call0_v0, main_call0_v1, main_v14, main_c, main_v15,
   main_v16, main_c_3, main_v17, main_v18, main_v19, main_v20, main_v21, main_c_4,
   main_v22, main_v23, main_c_5, main_v24, main_v25, main_v26, main_v27, main_v28,
   main_v29]
theorem opsA2_writes : (opsA2 : List (HloOp τ sig (Elt F))).Forall fun op =>
    op.writes ⊆ (opsA2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsA2_keep (W : Valuation τ sig (Elt F)) (r : Ref sig .tc) (h : r ∉ opsA2_W) :
    after opsA2 W (r : DevRef τ sig) = W (r : DevRef τ sig) :=
  after_of_writes_sub opsA2 W opsA2_writes h

abbrev opsB_W : List (Ref sig .tc) :=
  [main_v30, main_c_6, main_v31, main_v32, main_c_7, main_v33, main_v34, main_v35,
   main_v36, main_v37, main_v38, main_v39, main_v40, main_cst_8, main_v41, main_v42,
   main_v43, main_v44, main_v45, main_v46]
theorem opsB_writes : (opsB : List (HloOp τ sig (Elt F))).Forall fun op =>
    op.writes ⊆ (opsB_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsB_keep (W : Valuation τ sig (Elt F)) (r : Ref sig .tc) (h : r ∉ opsB_W) :
    after opsB W (r : DevRef τ sig) = W (r : DevRef τ sig) :=
  after_of_writes_sub opsB W opsB_writes h

abbrev opsC_W : List (Ref sig .tc) :=
  [main_cst_9, main_v47, main_cst_10, main_v48, main_v49, main_c_11, main_call1_cst, main_call1_v0,
   main_call1_v1, main_call1_cst_0, main_call1_v2, main_call1_v3, main_call1_v4, main_call1_v5, main_call1_v6, main_call1_v7,
   main_call1_cst_1, main_call1_v8, main_call1_cst_2, main_call1_v9, main_call1_v10, main_call1_v11, main_call1_cst_3, main_call1_v12,
   main_call1_cst_4, main_call1_call0_v0, main_call1_call0_v1, main_v50, main_v51, main_v52, main_v53, main_cst_12,
   main_v54, main_v55, main_v56, main_v57, main_v58, main_v59, main_v60, main_v61,
   main_v62, main_v63, main_v64, main_v65, main_call2_cst, main_call2_v0, main_v66]
theorem opsC_writes : (opsC : List (HloOp τ sig (Elt F))).Forall fun op =>
    op.writes ⊆ (opsC_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsC_keep (W : Valuation τ sig (Elt F)) (r : Ref sig .tc) (h : r ∉ opsC_W) :
    after opsC W (r : DevRef τ sig) = W (r : DevRef τ sig) :=
  after_of_writes_sub opsC W opsC_writes h

abbrev opsD_W : List (Ref sig .tc) :=
  [main_v67, main_c_13, main_v68, main_v69, main_c_14, main_v70, main_v71, main_v72,
   main_v73, main_v74, main_v75, main_v76, main_v77, main_cst_15, main_v78, main_v79,
   main_v80, main_v81, main_v82, main_v83]
theorem opsD_writes : (opsD : List (HloOp τ sig (Elt F))).Forall fun op =>
    op.writes ⊆ (opsD_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsD_keep (W : Valuation τ sig (Elt F)) (r : Ref sig .tc) (h : r ∉ opsD_W) :
    after opsD W (r : DevRef τ sig) = W (r : DevRef τ sig) :=
  after_of_writes_sub opsD W opsD_writes h

abbrev opsE_W : List (Ref sig .tc) :=
  [main_cst_16, main_v84, main_cst_17, main_v85, main_v86, main_c_18, main_call3_cst, main_call3_v0,
   main_call3_v1, main_call3_cst_0, main_call3_v2, main_call3_v3, main_call3_v4, main_call3_v5, main_call3_v6, main_call3_v7,
   main_call3_cst_1, main_call3_v8, main_call3_cst_2, main_call3_v9, main_call3_v10, main_call3_v11, main_call3_cst_3, main_call3_v12,
   main_call3_cst_4, main_call3_call0_v0, main_call3_call0_v1, main_v87, main_v88, main_v89, main_v90, main_cst_19,
   main_v91, main_v92, main_v93, main_v94, main_v95, main_v96, main_v97, main_v98,
   main_v99, main_v100, main_v101, main_v102, main_call4_cst, main_call4_v0, main_v103]
theorem opsE_writes : (opsE : List (HloOp τ sig (Elt F))).Forall fun op =>
    op.writes ⊆ (opsE_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsE_keep (W : Valuation τ sig (Elt F)) (r : Ref sig .tc) (h : r ∉ opsE_W) :
    after opsE W (r : DevRef τ sig) = W (r : DevRef τ sig) :=
  after_of_writes_sub opsE W opsE_writes h

abbrev opsG_W : List (Ref sig .tc) :=
  [main_cst_20, main_v104, main_cst_21, main_v105, main_v106, main_v107, main_cst_22, main_v108,
   main_v109, main_v110, main_cst_23, main_v111, main_v112, main_v113, main_v114, main_v115,
   main_v116, main_v117, main_v118, main_v119]
theorem opsG_writes : (opsG : List (HloOp τ sig (Elt F))).Forall fun op =>
    op.writes ⊆ (opsG_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff, List.mem_toFinset]
     exact List.mem_map_of_mem (by decide))
theorem opsG_keep (W : Valuation τ sig (Elt F)) (r : Ref sig .tc) (h : r ∉ opsG_W) :
    after opsG W (r : DevRef τ sig) = W (r : DevRef τ sig) :=
  after_of_writes_sub opsG W opsG_writes h

/-! ## Each piece's result, of the contents it starts from -/

theorem A1_v3 (W : Valuation τ sig (Elt F)) : after opsA1 W (main_v3 : DevRef τ sig) = srcOf (W (main_arg1 : DevRef τ sig)) := by
  after_results
  rfl

theorem A1_v6 (W : Valuation τ sig (Elt F)) : after opsA1 W (main_v6 : DevRef τ sig) = dstOf (W (main_arg1 : DevRef τ sig)) := by
  after_results
  rfl

set_option maxHeartbeats 1000000 in
theorem A2_v29 (W : Valuation τ sig (Elt F)) (ei : IVec S2x1600000 32)
    (h3 : W (main_v3 : DevRef τ sig) = srcOf ei) (h6 : W (main_v6 : DevRef τ sig) = dstOf ei) :
    after opsA2 W (main_v29 : DevRef τ sig) = normOf ei := by
  simp only [opsA2]
  after_results_simp
  simp only [TRef.ofBuf, TRef.toBuf, cast_eq, h3, h6]
  rfl

set_option maxHeartbeats 1000000 in
theorem B_v46 (W : Valuation τ sig (Elt F)) (ei : IVec S2x1600000 32)
    (h3 : W (main_v3 : DevRef τ sig) = srcOf ei) (h6 : W (main_v6 : DevRef τ sig) = dstOf ei) (h29 : W (main_v29 : DevRef τ sig) = normOf ei) :
    after opsB W (main_v46 : DevRef τ sig) = layerTail ei (dense (W (main_arg0 : DevRef τ sig)) (W (main_arg3 : DevRef τ sig))) (W (main_arg4 : DevRef τ sig)) := by
  simp only [opsB]
  after_results_simp
  simp only [h3, h6, h29]
  rfl

set_option maxHeartbeats 2000000 in
theorem C_v66 (W : Valuation τ sig (Elt F)) :
    after opsC W (main_v66 : DevRef τ sig) = bnRelu (W (main_v46 : DevRef τ sig)) (W (main_arg5 : DevRef τ sig)) (W (main_arg6 : DevRef τ sig)) := by
  simp only [opsC]
  after_results_simp
  simp only [TRef.ofBuf, TRef.toBuf, cast_eq]
  rfl

set_option maxHeartbeats 1000000 in
theorem D_v83 (W : Valuation τ sig (Elt F)) (ei : IVec S2x1600000 32)
    (h3 : W (main_v3 : DevRef τ sig) = srcOf ei) (h6 : W (main_v6 : DevRef τ sig) = dstOf ei) (h29 : W (main_v29 : DevRef τ sig) = normOf ei) :
    after opsD W (main_v83 : DevRef τ sig) = layerTail ei (dense (W (main_v66 : DevRef τ sig)) (W (main_arg7 : DevRef τ sig))) (W (main_arg8 : DevRef τ sig)) := by
  simp only [opsD]
  after_results_simp
  simp only [h3, h6, h29]
  rfl

set_option maxHeartbeats 2000000 in
theorem E_v103 (W : Valuation τ sig (Elt F)) :
    after opsE W (main_v103 : DevRef τ sig) = bnRelu (W (main_v83 : DevRef τ sig)) (W (main_arg9 : DevRef τ sig)) (W (main_arg10 : DevRef τ sig)) := by
  simp only [opsE]
  after_results_simp
  simp only [TRef.ofBuf, TRef.toBuf, cast_eq]
  rfl

set_option maxHeartbeats 1000000 in
theorem G_v119 (W : Valuation τ sig (Elt F)) :
    after opsG W (main_v119 : DevRef τ sig) = poolTail (W (main_arg2 : DevRef τ sig)) (W (main_v103 : DevRef τ sig)) (W (main_arg11 : DevRef τ sig)) (W (main_arg12 : DevRef τ sig)) := by
  simp only [opsG]
  after_results_simp
  rfl

/-! ## The line's effect, piece after piece

`valK V` is the contents after the first `K` pieces from contents `V`. No piece writes an argument; the edge
vectors and weights made by the first two pieces are kept by every later one; each stage's result is read from the
piece that makes it at the contents the pieces before it left. -/

/-- The thirteen argument buffers. -/
abbrev argRefs : List (Ref sig .tc) := [main_arg0, main_arg1, main_arg2, main_arg3, main_arg4, main_arg5, main_arg6, main_arg7, main_arg8, main_arg9, main_arg10, main_arg11, main_arg12]

theorem args_opsA1 : ∀ r ∈ argRefs, r ∉ opsA1_W := by decide
theorem args_opsA2 : ∀ r ∈ argRefs, r ∉ opsA2_W := by decide
theorem args_opsB : ∀ r ∈ argRefs, r ∉ opsB_W := by decide
theorem args_opsC : ∀ r ∈ argRefs, r ∉ opsC_W := by decide
theorem args_opsD : ∀ r ∈ argRefs, r ∉ opsD_W := by decide
theorem args_opsE : ∀ r ∈ argRefs, r ∉ opsE_W := by decide
theorem args_opsG : ∀ r ∈ argRefs, r ∉ opsG_W := by decide

/-- The contents after the first 1 piece. -/
def val1 (V : Valuation τ sig (Elt F)) : Valuation τ sig (Elt F) := after opsA1 V
/-- The contents after the first 2 pieces. -/
def val2 (V : Valuation τ sig (Elt F)) : Valuation τ sig (Elt F) := after opsA2 (val1 V)
/-- The contents after the first 3 pieces. -/
def val3 (V : Valuation τ sig (Elt F)) : Valuation τ sig (Elt F) := after opsB (val2 V)
/-- The contents after the first 4 pieces. -/
def val4 (V : Valuation τ sig (Elt F)) : Valuation τ sig (Elt F) := after opsC (val3 V)
/-- The contents after the first 5 pieces. -/
def val5 (V : Valuation τ sig (Elt F)) : Valuation τ sig (Elt F) := after opsD (val4 V)
/-- The contents after the first 6 pieces. -/
def val6 (V : Valuation τ sig (Elt F)) : Valuation τ sig (Elt F) := after opsE (val5 V)
/-- The contents after the first 7 pieces. -/
def val7 (V : Valuation τ sig (Elt F)) : Valuation τ sig (Elt F) := after opsG (val6 V)

/-- The fold over two lines in a row is the second's over the first's. -/
theorem after_concat : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_concat l₁ l₂]

theorem after_ops (V : Valuation τ sig (Elt F)) : after ops V = val7 V := by
  simp only [ops, after_concat]
  rfl

theorem val1_arg (V : Valuation τ sig (Elt F)) (r : Ref sig .tc) (h : r ∈ argRefs) :
    val1 V (r : DevRef τ sig) = V (r : DevRef τ sig) :=
  opsA1_keep V r (args_opsA1 r h)
theorem val2_arg (V : Valuation τ sig (Elt F)) (r : Ref sig .tc) (h : r ∈ argRefs) :
    val2 V (r : DevRef τ sig) = V (r : DevRef τ sig) :=
  (opsA2_keep (val1 V) r (args_opsA2 r h)).trans (val1_arg V r h)
theorem val3_arg (V : Valuation τ sig (Elt F)) (r : Ref sig .tc) (h : r ∈ argRefs) :
    val3 V (r : DevRef τ sig) = V (r : DevRef τ sig) :=
  (opsB_keep (val2 V) r (args_opsB r h)).trans (val2_arg V r h)
theorem val4_arg (V : Valuation τ sig (Elt F)) (r : Ref sig .tc) (h : r ∈ argRefs) :
    val4 V (r : DevRef τ sig) = V (r : DevRef τ sig) :=
  (opsC_keep (val3 V) r (args_opsC r h)).trans (val3_arg V r h)
theorem val5_arg (V : Valuation τ sig (Elt F)) (r : Ref sig .tc) (h : r ∈ argRefs) :
    val5 V (r : DevRef τ sig) = V (r : DevRef τ sig) :=
  (opsD_keep (val4 V) r (args_opsD r h)).trans (val4_arg V r h)
theorem val6_arg (V : Valuation τ sig (Elt F)) (r : Ref sig .tc) (h : r ∈ argRefs) :
    val6 V (r : DevRef τ sig) = V (r : DevRef τ sig) :=
  (opsE_keep (val5 V) r (args_opsE r h)).trans (val5_arg V r h)
theorem val7_arg (V : Valuation τ sig (Elt F)) (r : Ref sig .tc) (h : r ∈ argRefs) :
    val7 V (r : DevRef τ sig) = V (r : DevRef τ sig) :=
  (opsG_keep (val6 V) r (args_opsG r h)).trans (val6_arg V r h)

theorem val1_v3 (V : Valuation τ sig (Elt F)) : val1 V (main_v3 : DevRef τ sig) = srcOf (V (main_arg1 : DevRef τ sig)) := A1_v3 V
theorem val1_v6 (V : Valuation τ sig (Elt F)) : val1 V (main_v6 : DevRef τ sig) = dstOf (V (main_arg1 : DevRef τ sig)) := A1_v6 V

theorem val2_v3 (V : Valuation τ sig (Elt F)) : val2 V (main_v3 : DevRef τ sig) = srcOf (V (main_arg1 : DevRef τ sig)) :=
  (opsA2_keep (val1 V) main_v3 (by decide)).trans (val1_v3 V)
theorem val2_v6 (V : Valuation τ sig (Elt F)) : val2 V (main_v6 : DevRef τ sig) = dstOf (V (main_arg1 : DevRef τ sig)) :=
  (opsA2_keep (val1 V) main_v6 (by decide)).trans (val1_v6 V)
theorem val2_v29 (V : Valuation τ sig (Elt F)) : val2 V (main_v29 : DevRef τ sig) = normOf (V (main_arg1 : DevRef τ sig)) :=
  A2_v29 (val1 V) _ (val1_v3 V) (val1_v6 V)

theorem val3_v3 (V : Valuation τ sig (Elt F)) : val3 V (main_v3 : DevRef τ sig) = srcOf (V (main_arg1 : DevRef τ sig)) :=
  (opsB_keep (val2 V) main_v3 (by decide)).trans (val2_v3 V)
theorem val3_v6 (V : Valuation τ sig (Elt F)) : val3 V (main_v6 : DevRef τ sig) = dstOf (V (main_arg1 : DevRef τ sig)) :=
  (opsB_keep (val2 V) main_v6 (by decide)).trans (val2_v6 V)
theorem val3_v29 (V : Valuation τ sig (Elt F)) : val3 V (main_v29 : DevRef τ sig) = normOf (V (main_arg1 : DevRef τ sig)) :=
  (opsB_keep (val2 V) main_v29 (by decide)).trans (val2_v29 V)
theorem val3_v46 (V : Valuation τ sig (Elt F)) : val3 V (main_v46 : DevRef τ sig) = layerTail (V (main_arg1 : DevRef τ sig)) (dense (V (main_arg0 : DevRef τ sig)) (V (main_arg3 : DevRef τ sig))) (V (main_arg4 : DevRef τ sig)) :=
  (B_v46 (val2 V) _ (val2_v3 V) (val2_v6 V) (val2_v29 V)).trans (by
    rw [val2_arg V main_arg0 (by decide), val2_arg V main_arg3 (by decide), val2_arg V main_arg4 (by decide)])

theorem val4_v3 (V : Valuation τ sig (Elt F)) : val4 V (main_v3 : DevRef τ sig) = srcOf (V (main_arg1 : DevRef τ sig)) :=
  (opsC_keep (val3 V) main_v3 (by decide)).trans (val3_v3 V)
theorem val4_v6 (V : Valuation τ sig (Elt F)) : val4 V (main_v6 : DevRef τ sig) = dstOf (V (main_arg1 : DevRef τ sig)) :=
  (opsC_keep (val3 V) main_v6 (by decide)).trans (val3_v6 V)
theorem val4_v29 (V : Valuation τ sig (Elt F)) : val4 V (main_v29 : DevRef τ sig) = normOf (V (main_arg1 : DevRef τ sig)) :=
  (opsC_keep (val3 V) main_v29 (by decide)).trans (val3_v29 V)
theorem val4_v66 (V : Valuation τ sig (Elt F)) : val4 V (main_v66 : DevRef τ sig) = bnRelu (layerTail (V (main_arg1 : DevRef τ sig)) (dense (V (main_arg0 : DevRef τ sig)) (V (main_arg3 : DevRef τ sig))) (V (main_arg4 : DevRef τ sig))) (V (main_arg5 : DevRef τ sig)) (V (main_arg6 : DevRef τ sig)) :=
  (C_v66 (val3 V)).trans (by
    rw [val3_v46 V, val3_arg V main_arg5 (by decide), val3_arg V main_arg6 (by decide)])

theorem val5_v83 (V : Valuation τ sig (Elt F)) : val5 V (main_v83 : DevRef τ sig) = layerTail (V (main_arg1 : DevRef τ sig)) (dense (bnRelu (layerTail (V (main_arg1 : DevRef τ sig)) (dense (V (main_arg0 : DevRef τ sig)) (V (main_arg3 : DevRef τ sig))) (V (main_arg4 : DevRef τ sig))) (V (main_arg5 : DevRef τ sig)) (V (main_arg6 : DevRef τ sig))) (V (main_arg7 : DevRef τ sig))) (V (main_arg8 : DevRef τ sig)) :=
  (D_v83 (val4 V) _ (val4_v3 V) (val4_v6 V) (val4_v29 V)).trans (by
    rw [val4_v66 V, val4_arg V main_arg7 (by decide), val4_arg V main_arg8 (by decide)])

theorem val6_v103 (V : Valuation τ sig (Elt F)) : val6 V (main_v103 : DevRef τ sig) = bnRelu (layerTail (V (main_arg1 : DevRef τ sig)) (dense (bnRelu (layerTail (V (main_arg1 : DevRef τ sig)) (dense (V (main_arg0 : DevRef τ sig)) (V (main_arg3 : DevRef τ sig))) (V (main_arg4 : DevRef τ sig))) (V (main_arg5 : DevRef τ sig)) (V (main_arg6 : DevRef τ sig))) (V (main_arg7 : DevRef τ sig))) (V (main_arg8 : DevRef τ sig))) (V (main_arg9 : DevRef τ sig)) (V (main_arg10 : DevRef τ sig)) :=
  (E_v103 (val5 V)).trans (by
    rw [val5_v83 V, val5_arg V main_arg9 (by decide), val5_arg V main_arg10 (by decide)])

theorem val7_v119 (V : Valuation τ sig (Elt F)) :
    val7 V (main_v119 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) :=
  (G_v119 (val6 V)).trans (by
    rw [val6_v103 V, val6_arg V main_arg2 (by decide), val6_arg V main_arg11 (by decide), val6_arg V main_arg12 (by decide)]
    rfl)

/-! ## The line's effect at the result and at the arguments -/

/-- The fold at the result buffer is `out` of the thirteen arguments' contents. -/
theorem out_eq (V : Valuation τ sig (Elt F)) :
    after ops V (main_v119 : DevRef τ sig) = out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  exact val7_v119 V

theorem arg_eq0 (V : Valuation τ sig (Elt F)) : after ops V (main_arg0 : DevRef τ sig) = V (main_arg0 : DevRef τ sig) := by
  rw [after_ops]
  exact val7_arg V main_arg0 (by decide)
theorem arg_eq1 (V : Valuation τ sig (Elt F)) : after ops V (main_arg1 : DevRef τ sig) = V (main_arg1 : DevRef τ sig) := by
  rw [after_ops]
  exact val7_arg V main_arg1 (by decide)
theorem arg_eq2 (V : Valuation τ sig (Elt F)) : after ops V (main_arg2 : DevRef τ sig) = V (main_arg2 : DevRef τ sig) := by
  rw [after_ops]
  exact val7_arg V main_arg2 (by decide)
theorem arg_eq3 (V : Valuation τ sig (Elt F)) : after ops V (main_arg3 : DevRef τ sig) = V (main_arg3 : DevRef τ sig) := by
  rw [after_ops]
  exact val7_arg V main_arg3 (by decide)
theorem arg_eq4 (V : Valuation τ sig (Elt F)) : after ops V (main_arg4 : DevRef τ sig) = V (main_arg4 : DevRef τ sig) := by
  rw [after_ops]
  exact val7_arg V main_arg4 (by decide)
theorem arg_eq5 (V : Valuation τ sig (Elt F)) : after ops V (main_arg5 : DevRef τ sig) = V (main_arg5 : DevRef τ sig) := by
  rw [after_ops]
  exact val7_arg V main_arg5 (by decide)
theorem arg_eq6 (V : Valuation τ sig (Elt F)) : after ops V (main_arg6 : DevRef τ sig) = V (main_arg6 : DevRef τ sig) := by
  rw [after_ops]
  exact val7_arg V main_arg6 (by decide)
theorem arg_eq7 (V : Valuation τ sig (Elt F)) : after ops V (main_arg7 : DevRef τ sig) = V (main_arg7 : DevRef τ sig) := by
  rw [after_ops]
  exact val7_arg V main_arg7 (by decide)
theorem arg_eq8 (V : Valuation τ sig (Elt F)) : after ops V (main_arg8 : DevRef τ sig) = V (main_arg8 : DevRef τ sig) := by
  rw [after_ops]
  exact val7_arg V main_arg8 (by decide)
theorem arg_eq9 (V : Valuation τ sig (Elt F)) : after ops V (main_arg9 : DevRef τ sig) = V (main_arg9 : DevRef τ sig) := by
  rw [after_ops]
  exact val7_arg V main_arg9 (by decide)
theorem arg_eq10 (V : Valuation τ sig (Elt F)) : after ops V (main_arg10 : DevRef τ sig) = V (main_arg10 : DevRef τ sig) := by
  rw [after_ops]
  exact val7_arg V main_arg10 (by decide)
theorem arg_eq11 (V : Valuation τ sig (Elt F)) : after ops V (main_arg11 : DevRef τ sig) = V (main_arg11 : DevRef τ sig) := by
  rw [after_ops]
  exact val7_arg V main_arg11 (by decide)
theorem arg_eq12 (V : Valuation τ sig (Elt F)) : after ops V (main_arg12 : DevRef τ sig) = V (main_arg12 : DevRef τ sig) := by
  rw [after_ops]
  exact val7_arg V main_arg12 (by decide)

/-- At the compiled mesh, for any float values, from any memory with zero counters: every weakly fair execution of
    @main terminates with the result buffer at `out` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v119) = out (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v119).trans (out_eq _),
      (h c main_arg0).trans (arg_eq0 _),
      (h c main_arg1).trans (arg_eq1 _),
      (h c main_arg2).trans (arg_eq2 _),
      (h c main_arg3).trans (arg_eq3 _),
      (h c main_arg4).trans (arg_eq4 _),
      (h c main_arg5).trans (arg_eq5 _),
      (h c main_arg6).trans (arg_eq6 _),
      (h c main_arg7).trans (arg_eq7 _),
      (h c main_arg8).trans (arg_eq8 _),
      (h c main_arg9).trans (arg_eq9 _),
      (h c main_arg10).trans (arg_eq10 _),
      (h c main_arg11).trans (arg_eq11 _),
      (h c main_arg12).trans (arg_eq12 _)⟩)
    (run_main m ρ)

end Cert.ReferenceIdeal.RefRun

end
-- ==== Proof.PreReal.lean ====
/-
  What the precondition says of the float arguments: each of its eleven conjuncts is "every entry of this array has
  absolute value below +infinity", and an extended real with |x| < +infinity is a real number. So under the
  precondition every float argument is an array of real numbers.
-/
import proofs.«417032_j62294205661279_1_alg».proof.Pre_finite_inputs
import proofs.«417032_j62294205661279_1_alg».proof.Proof.Gen.Pre_finite_inputs
import proofs.«417032_j62294205661279_1_alg».proof.Proof.Spec
import Idealize.ShloMosaic.Lib.ReduceAll

noncomputable section

namespace Cert.PreReal

open Idealize.ShloMosaic Idealize.ShloMosaic.ValueIdx Cert.Spec Cert.Pre_finite_inputs

/-- The scalar shape has exactly one index (the empty tuple of coordinates). -/
instance scalarIdx_subsingleton : Subsingleton (⟨0, ![]⟩ : Shape).Idx := ⟨fun a b => funext fun d => d.elim0⟩

/-- The single-precision pattern 0x7F800000 denotes +infinity. -/
theorem posInf_eq_top : Ideal.ofBits .f32 0x7F800000#32 = (⊤ : EReal) := by simp [Ideal.ofBits, Ideal.ieee]

/-- One element: an extended real whose absolute value max x (-x) lies strictly below +infinity is a real number.
    Of the three kinds of extended real, -infinity has absolute value +infinity and so has +infinity; only a real passes. -/
theorem real_of_abs_lt_inf (x : EReal)
    (h : Ideal.cmp .olt (max x (-x)) (Ideal.ofBits .f32 0x7F800000#32) = 1#1) : ∃ r : ℝ, x = (r : EReal) := by
  rw [posInf_eq_top] at h
  have hlt : max x (-x) < ⊤ := by
    by_contra hn
    have : Ideal.cmp .olt (max x (-x)) ⊤ = 0#1 := by simp [Ideal.cmp, hn]
    rw [this] at h
    exact absurd h (by decide)
  induction x using EReal.rec with
  | bot => exact absurd hlt (by simp)
  | coe r => exact ⟨r, rfl⟩
  | top => exact absurd hlt (by simp)

/-- One whole array, of any shape: if the conjunction over ALL entries of "|v i| < +infinity" (the comparison of the
    array of absolute values with +infinity spread over the same shape, reduced by `and` over every axis from 1 to a
    scalar) is 1, then every entry of `v` is a real number. The conjunction being 1 gives the comparison 1 at each
    entry; the spread constant reads +infinity there; the element fact above finishes. -/
theorem real_of_all_abs_lt_inf {s : Shape} {axes : List (Fin s.rank)} (v : FVec Ideal s .f32)
    (hb : (⟨0, ![]⟩ : Shape).BroadcastsInDim s (![] : Fin 0 → Fin s.rank)) (hr : s.ReducesTo axes ⟨0, ![]⟩)
    (h0 : 0 < (⟨0, ![]⟩ : Shape).numel) (j : (⟨0, ![]⟩ : Shape).Idx)
    (e : Host.reduce IntOp.andi
        (cmpf .olt (Host.absf (F := Ideal) v) (broadcastInDim s ![] hb (constant (F := Ideal) ⟨0, ![]⟩ .f32 0x7F800000#32)))
        (constantI ⟨0, ![]⟩ 1 1#1) hr h0 j = 1#1)
    (i : s.Idx) : ∃ r : ℝ, v i = (r : EReal) :=
  real_of_abs_lt_inf (v i) (Host.reduce_andi_all _ _ hr h0 j e i)

/-- Under the precondition every float argument holds real numbers only (the two integer arguments are free). -/
theorem real_of_pre (x : FVec Ideal S100000x128 .f32) (ei : IVec S2x1600000 32) (bt : IVec S100000 32)
    (w0 : FVec Ideal S128x128 .f32) (b0 g0 be0 : FVec Ideal S128 .f32) (w1 : FVec Ideal S128x128 .f32)
    (b1 g1 be1 : FVec Ideal S128 .f32) (wfc : FVec Ideal S128x32 .f32) (bfc : FVec Ideal S32 .f32)
    (h : Cert.Pre_finite_inputs.fn (F := Ideal) x ei bt w0 b0 g0 be0 w1 b1 g1 be1 wfc bfc = (fun _ => 1#1)) :
    Real2 (cur2 x) ∧ Real2 (cur2 w0) ∧ Real1 (cur1 b0) ∧ Real1 (cur1 g0) ∧ Real1 (cur1 be0) ∧ Real2 (cur2 w1)
      ∧ Real1 (cur1 b1) ∧ Real1 (cur1 g1) ∧ Real1 (cur1 be1) ∧ Real2 (cur2 wfc) ∧ Real1 (cur1 bfc) := by
  have h1 := congrFun h ValueIdx.ix0
  dsimp only [fn, fn_part1, fn_part2, fn_part3, andi] at h1
  -- the eleven conjuncts, peeled off the left-nested conjunction from the last to the first
  obtain ⟨h1, hbfc⟩ := IntOp.andi_eq_one.1 h1
  obtain ⟨h1, hwfc⟩ := IntOp.andi_eq_one.1 h1
  obtain ⟨h1, hbe1⟩ := IntOp.andi_eq_one.1 h1
  obtain ⟨h1, hg1⟩ := IntOp.andi_eq_one.1 h1
  obtain ⟨h1, hb1⟩ := IntOp.andi_eq_one.1 h1
  obtain ⟨h1, hw1⟩ := IntOp.andi_eq_one.1 h1
  obtain ⟨h1, hbe0⟩ := IntOp.andi_eq_one.1 h1
  obtain ⟨h1, hg0⟩ := IntOp.andi_eq_one.1 h1
  obtain ⟨h1, hb0⟩ := IntOp.andi_eq_one.1 h1
  obtain ⟨hx, hw0⟩ := IntOp.andi_eq_one.1 h1
  -- each conjunct read at every entry: a matrix entry through its row and column, a vector entry through its position
  exact ⟨fun p q => real_of_all_abs_lt_inf x _ _ _ _ hx (ix2 p q),
    fun p q => real_of_all_abs_lt_inf w0 _ _ _ _ hw0 (ix2 p q),
    fun p => real_of_all_abs_lt_inf b0 _ _ _ _ hb0 (ix1 p),
    fun p => real_of_all_abs_lt_inf g0 _ _ _ _ hg0 (ix1 p),
    fun p => real_of_all_abs_lt_inf be0 _ _ _ _ hbe0 (ix1 p),
    fun p q => real_of_all_abs_lt_inf w1 _ _ _ _ hw1 (ix2 p q),
    fun p => real_of_all_abs_lt_inf b1 _ _ _ _ hb1 (ix1 p),
    fun p => real_of_all_abs_lt_inf g1 _ _ _ _ hg1 (ix1 p),
    fun p => real_of_all_abs_lt_inf be1 _ _ _ _ hbe1 (ix1 p),
    fun p q => real_of_all_abs_lt_inf wfc _ _ _ _ hwfc (ix2 p q),
    fun p => real_of_all_abs_lt_inf bfc _ _ _ _ hbfc (ix1 p)⟩

end Cert.PreReal

end
-- ==== Proof.BridgeLayer.lean ====
/-
  The graph-convolution layer, the reference's text against the kernel program's.
  (1) The reference's dense product is, row by column, the sum over the shared axis of the products: the function the
      kernel's tiled product was shown to compute.
  (2) After the dense product both programs run the SAME operations on the edge list (sources and targets with their
      self-loops, in-degrees, the inverse-root table, the edge weights, gather, scale, scatter-add from zero, bias):
      the two texts are one function, read in the two programs' own names for the same shapes and facts.
  (3) That function keeps real numbers real. The in-degree is zero plus a finite sum of ones, a real number; the table
      is its inverse square root only where it is positive, a real number, and the literal zero elsewhere; a gathered
      entry is an entry of the table; an edge weight is a product of two such; a scatter-add from zero is a finite sum
      of products of reals; the bias is real. So a layer's output is real whenever its input and its bias are.
-/
import proofs.«417032_j62294205661279_1_alg».proof.Proof.RefRun
import proofs.«417032_j62294205661279_1_alg».proof.Proof.KOut
import Idealize.ShloMosaic.Lib.ValueIdx
import Idealize.ShloMosaic.Lib.ValueLayout
import Idealize.ShloMosaic.Lib.Pipeline.Value
import Idealize.ShloMosaic.PureOps.Ideal.Laws

noncomputable section

namespace Cert.Bridge

open Idealize.ShloMosaic Idealize.ShloMosaic.ValueIdx Cert.Spec

-- the two programs print the same shapes under their own names; the kernel program's are used for the statements
open Cert.KernelIdeal (S100000x128 S128x128 S128 S1x128 S100000 S2x1600000 S1700000 S100000x64 S64x128 S1x64 S128x32 S32 S64x32)
open Cert.KernelIdeal.Val (denseK sumRow sqRow applyK bnK layerK pooledK countK outK)

/-! ## (1) The dense product, entry by entry

The reference contracts axis 1 of the features with axis 0 of the weights. At result index (p, q) and contraction
position k the left operand is read at (p, k) and the right one at (k, q): one lemma per operand axis. -/

/-- The left operand's row is the result's row. -/
theorem dense_lhs_row (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx i k 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide),
    dif_pos (show (0 : Fin Cert.ReferenceIdeal.S100000x128.rank) ∈ Cert.ReferenceIdeal.dot_S100000x128_S128x128_S100000x128_1_0_0_1_n_n.lhsNonContracting by decide)]
  rfl

/-- The left operand's column is the contraction position. -/
theorem dense_lhs_col (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.lhsIdx i k 1).val = (k ⟨0, by decide⟩).val :=
  Cert.ReferenceIdeal.dot_S100000x128_S128x128_S100000x128_1_0_0_1_n_n.lhsIdx_val_of_single rfl i k

/-- The right operand's row is the contraction position. -/
theorem dense_rhs_row (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx i k 0).val = (k ⟨0, by decide⟩).val :=
  Cert.ReferenceIdeal.dot_S100000x128_S128x128_S100000x128_1_0_0_1_n_n.rhsIdx_val_of_single rfl i k

/-- The right operand's column is the result's column. -/
theorem dense_rhs_col (i : Cert.ReferenceIdeal.S100000x128.Idx) (k : Cert.ReferenceIdeal.dot_S100000x128_S128x128_S100000x128_1_0_0_1_n_n.contr.Idx) :
    (Cert.ReferenceIdeal.dot_S100000x128_S128x128_S100000x128_1_0_0_1_n_n.rhsIdx i k 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide),
    dif_pos (show (1 : Fin Cert.ReferenceIdeal.S128x128.rank) ∈ Cert.ReferenceIdeal.dot_S100000x128_S128x128_S100000x128_1_0_0_1_n_n.rhsNonContracting by decide)]
  rfl

/-- The reference's dense product, read entry by entry, is the kernel program's. -/
theorem dense_eq (x : FVec Ideal S100000x128 .f32) (w : FVec Ideal S128x128 .f32) :
    Cert.ReferenceIdeal.RefRun.dense (F := Ideal) x w = denseK x w := by
  funext i
  obtain ⟨p, q, rfl⟩ : ∃ (p : Fin 100000) (q : Fin 128), i = ix2 p q := ⟨i 0, i 1, eq_ix2 i⟩
  unfold Cert.ReferenceIdeal.RefRun.dense Cert.KernelIdeal.Val.denseK Cert.Spec.mm
  simp only [Host.dotGeneral]
  -- the host's product at an index is the sum over the contraction positions; those are the numbers 0 … 127
  rw [Ideal.dotGeneral_apply, ← Equiv.sum_comp (contrEquiv1 Cert.ReferenceIdeal.dot_S100000x128_S128x128_S100000x128_1_0_0_1_n_n 128 rfl rfl).symm]
  refine Finset.sum_congr rfl fun k _ => ?_
  have hk := contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ix2 p q) ((contrEquiv1 Cert.ReferenceIdeal.dot_S100000x128_S128x128_S100000x128_1_0_0_1_n_n 128 rfl rfl).symm k) = ix2 p k :=
    funext fun a => Fin.ext (by
      match a with
      | ⟨0, _⟩ => exact dense_lhs_row _ _
      | ⟨1, _⟩ => exact (dense_lhs_col _ _).trans hk)
  have er : Cert.ReferenceIdeal.dot_S100000x128_S128x128_S100000x128_1_0_0_1_n_n.rhsIdx (ix2 p q) ((contrEquiv1 Cert.ReferenceIdeal.dot_S100000x128_S128x128_S100000x128_1_0_0_1_n_n 128 rfl rfl).symm k) = ix2 k q :=
    funext fun a => Fin.ext (by
      match a with
      | ⟨0, _⟩ => exact (dense_rhs_row _ _).trans hk
      | ⟨1, _⟩ => exact dense_rhs_col _ _)
  rw [el, er]

/-! ## Real entries -/

/-- A finite sum of real numbers, taken in the extended reals, is the real sum. -/
theorem sum_coe {ι : Type*} (s : Finset ι) (f : ι → ℝ) :
    ∑ i ∈ s, ((f i : ℝ) : EReal) = ((∑ i ∈ s, f i : ℝ) : EReal) := by
  classical
  refine Finset.induction_on s (by simp) fun a s ha ih => ?_
  rw [Finset.sum_insert ha, Finset.sum_insert ha, ih, EReal.coe_add]

/-- A finite sum of extended reals that are all real is real. -/
theorem real_sum {ι : Type*} (s : Finset ι) (f : ι → EReal) (hf : ∀ i, ∃ r : ℝ, f i = (r : EReal)) :
    ∃ r : ℝ, ∑ i ∈ s, f i = (r : EReal) := by
  choose g hg using hf
  exact ⟨∑ i ∈ s, g i, by rw [← sum_coe]; exact Finset.sum_congr rfl fun i _ => hg i⟩

/-- A product of real matrices is real. -/
theorem mm_real {n k o : ℕ} (x : Fin n → Fin k → EReal) (w : Fin k → Fin o → EReal) (hx : Real2 x) (hw : Real2 w) :
    Real2 (mm x w) := by
  intro p j
  unfold Cert.Spec.mm
  refine real_sum _ _ fun l => ?_
  obtain ⟨a, ha⟩ := hx p l
  obtain ⟨b, hb⟩ := hw l j
  exact ⟨a * b, by rw [ha, hb, EReal.coe_mul]⟩

/-- Every entry of an array is a real number (neither infinity). -/
def RealV {s : Shape} (v : s.Idx → EReal) : Prop := ∀ i, ∃ r : ℝ, v i = (r : EReal)

/-- The zero word is the real number zero, everywhere. -/
theorem real_zero {s : Shape} : RealV (constant (F := Ideal) s .f32 0x00000000#32) := fun i =>
  ⟨0, by rw [constant_apply, Ideal.ofBits_zero_f32]; rfl⟩

/-- The word of one is the real number one. -/
theorem ofBits_one_f32 : Ideal.ofBits .f32 0x3F800000#32 = ((1 : ℝ) : EReal) := by
  simp [Ideal.ofBits, Ideal.ieee, -EReal.coe_mul]
  norm_num

/-- The word of one is real, everywhere. -/
theorem real_one {s : Shape} : RealV (constant (F := Ideal) s .f32 0x3F800000#32) := fun i =>
  ⟨1, by rw [constant_apply, ofBits_one_f32]⟩

/-- A broadcast reads entries of its operand. -/
theorem real_bcast {s t : Shape} (dims : Fin s.rank → Fin t.rank) (h : s.BroadcastsInDim t dims) (x : s.Idx → EReal)
    (hx : RealV x) : RealV (broadcastInDim t dims h x) := fun j => hx _

/-- A gather reads entries of its operand, whatever the indices. -/
theorem real_gather {s si t : Shape} {w : Nat} (d : GatherDims s si t) (x : s.Idx → EReal) (idx : IVec si w)
    (hx : RealV x) : RealV (Host.gather d x idx) := fun j => hx _

/-- Sums of reals are real. -/
theorem real_addf {s : Shape} {φ : FTy} (a b : FVec Ideal s φ) (ha : RealV a) (hb : RealV b) : RealV (addf a b) := fun i => by
  obtain ⟨r, hr⟩ := ha i
  obtain ⟨t, ht⟩ := hb i
  exact ⟨r + t, by rw [addf_apply, hr, ht, EReal.coe_add]⟩

/-- Products of reals are real. -/
theorem real_mulf {s : Shape} {φ : FTy} (a b : FVec Ideal s φ) (ha : RealV a) (hb : RealV b) : RealV (mulf a b) := fun i => by
  obtain ⟨r, hr⟩ := ha i
  obtain ⟨t, ht⟩ := hb i
  exact ⟨r * t, by rw [mulf_apply, hr, ht, EReal.coe_mul]⟩

/-- A real number plus a finite sum of real numbers is real. -/
theorem real_add_sum {ι : Type*} (a : EReal) (ha : ∃ r : ℝ, a = (r : EReal)) (s : Finset ι) (f : ι → EReal)
    (hf : ∀ i, ∃ r : ℝ, f i = (r : EReal)) : ∃ r : ℝ, a + ∑ i ∈ s, f i = (r : EReal) := by
  obtain ⟨r, hr⟩ := ha
  obtain ⟨t, ht⟩ := real_sum s f hf
  exact ⟨r + t, by rw [hr, ht, EReal.coe_add]⟩

/-- An accumulating scatter leaves at each entry the operand's entry plus the finite sum of the updates that land
    there: real when the operand and the updates are, whatever the indices. -/
theorem real_scatterAdd {s si su : Shape} {φ : FTy} {w : Nat} (d : ScatterDims s si su) (x : FVec Ideal s φ)
    (idx : IVec si w) (upd : FVec Ideal su φ) (hx : RealV x) (hu : RealV upd) :
    RealV (Host.scatterAdd (F := Ideal) d x idx upd) := fun i => by
  unfold Host.scatterAdd
  rw [Ideal.hostScatterAdd_def]
  unfold Ideal.hostScatterAdd
  exact real_add_sum _ (hx i) _ _ hu

/-- The inverse square root of a positive real number is a real number. -/
theorem rsqrt_pos {r : ℝ} (h : 0 < r) : Ideal.rsqrt (r : EReal) = (((Real.sqrt r)⁻¹ : ℝ) : EReal) := by
  rw [Ideal.rsqrt_coe, if_neg (not_lt.mpr h.le), if_neg h.ne']

/-- The inverse-root table: the inverse square root where the entry exceeds zero, a real fill-in elsewhere. Where the
    comparison holds the entry is a positive real and its inverse root is real; elsewhere the fill-in is read. -/
theorem real_select_rsqrt {s : Shape} (d z z' : FVec Ideal s .f32) (hd : RealV d) (hz : ∀ i, z i = 0) (hz' : RealV z') :
    RealV (select (cmpf (F := Ideal) .ogt d z) (Host.rsqrt d) z') := fun i => by
  rw [select_apply, cmpf_apply]
  obtain ⟨r, hr⟩ := hd i
  by_cases hc : FloatOps.cmpf (F := Ideal) .ogt (d i) (z i) = 1#1
  · rw [hc, select_one]
    have hpos : (0 : EReal) < (r : EReal) := by
      rw [Ideal.cmpf_def, hz i, hr] at hc
      unfold Ideal.cmp at hc
      by_contra hn
      simp [hn] at hc
    have hr0 : 0 < r := by exact_mod_cast hpos
    refine ⟨(Real.sqrt r)⁻¹, ?_⟩
    show FloatOps.hostUnary .rsqrt (d i) = _
    rw [Ideal.hostUnary_rsqrt_def, hr, rsqrt_pos hr0]
  · rw [eq_zero_of_ne_one hc, select_zero]
    exact hz' i

/-! ## (2) The aggregation over the edges is one text in the two programs

Both programs print the same shapes, side conditions and dimension numbers, each under its own names; the operations
applied are the same, in the same order. -/

/-- The source ends, in the two programs' names. -/
theorem srcOf_eq (ei : IVec S2x1600000 32) :
    Cert.ReferenceIdeal.RefRun.srcOf ei = Cert.KernelIdeal.Val.srcOf ei := rfl

/-- The target ends, in the two programs' names. -/
theorem dstOf_eq (ei : IVec S2x1600000 32) :
    Cert.ReferenceIdeal.RefRun.dstOf ei = Cert.KernelIdeal.Val.dstOf ei := rfl

/-- The edge weights: the reference writes the in-degree and the inverse-root table out in place, the kernel program
    names them; the operations are the same. -/
theorem normOf_eq (ei : IVec S2x1600000 32) :
    Cert.ReferenceIdeal.RefRun.normOf (F := Ideal) ei = Cert.KernelIdeal.Val.normOf (F := Ideal) ei := by
  unfold Cert.ReferenceIdeal.RefRun.normOf Cert.KernelIdeal.Val.normOf Cert.KernelIdeal.Val.dinvOf
    Cert.KernelIdeal.Val.degOf Cert.KernelIdeal.Val.wrapIdx
  rw [srcOf_eq, dstOf_eq]
  rfl

/-- A whole layer before normalisation: the reference's text is the kernel program's function. -/
theorem layer_eq (ei : IVec S2x1600000 32) (y : FVec Ideal S100000x128 .f32) (w : FVec Ideal S128x128 .f32)
    (b : FVec Ideal S128 .f32) :
    Cert.ReferenceIdeal.RefRun.layerTail (F := Ideal) ei (Cert.ReferenceIdeal.RefRun.dense (F := Ideal) y w) b = layerK ei y w b := by
  rw [dense_eq]
  unfold Cert.ReferenceIdeal.RefRun.layerTail Cert.KernelIdeal.Val.layerK Cert.KernelIdeal.Val.layerTail
  rw [normOf_eq, srcOf_eq, dstOf_eq]
  rfl

/-! ## (3) A layer keeps real numbers real -/

/-- The in-degree: zero plus a finite sum of ones. -/
theorem real_deg (ei : IVec S2x1600000 32) : RealV (Cert.KernelIdeal.Val.degOf (F := Ideal) ei) := by
  unfold Cert.KernelIdeal.Val.degOf
  exact real_scatterAdd _ _ _ _ (real_bcast _ _ _ real_zero) (real_bcast _ _ _ real_one)

/-- The inverse-root table: the inverse root of a positive real degree, the literal zero elsewhere. -/
theorem real_dinv (ei : IVec S2x1600000 32) : RealV (Cert.KernelIdeal.Val.dinvOf (F := Ideal) ei) := by
  unfold Cert.KernelIdeal.Val.dinvOf
  exact real_select_rsqrt _ _ _ (real_deg ei) (fun i => Ideal.ofBits_zero_f32) (real_bcast _ _ _ real_zero)

/-- An edge's weight: the product of two entries of the table. -/
theorem real_norm (ei : IVec S2x1600000 32) : RealV (Cert.KernelIdeal.Val.normOf (F := Ideal) ei) := by
  unfold Cert.KernelIdeal.Val.normOf
  exact real_mulf _ _ (real_gather _ _ _ (real_dinv ei)) (real_gather _ _ _ (real_dinv ei))

/-- A layer's output is real when its input, its weights and its bias are, whatever the edge list. -/
theorem layer_real (ei : IVec S2x1600000 32) (y : FVec Ideal S100000x128 .f32) (w : FVec Ideal S128x128 .f32)
    (b : FVec Ideal S128 .f32) (hy : Real2 (cur2 y)) (hw : Real2 (cur2 w)) (hb : Real1 (cur1 b)) :
    Real2 (cur2 (layerK ei y w b)) := by
  -- the dense product of real matrices
  have hd : RealV (denseK y w) := fun i => mm_real _ _ hy hw (i 0) (i 1)
  have hb' : RealV b := fun i => by
    obtain ⟨r, hr⟩ := hb (i 0)
    exact ⟨r, by rw [eq_ix1 i]; exact hr⟩
  -- gathered rows times edge weights, summed from zero at the targets, plus the bias on every row
  have h : RealV (layerK ei y w b) := by
    unfold Cert.KernelIdeal.Val.layerK Cert.KernelIdeal.Val.layerTail
    exact real_addf _ _
      (real_scatterAdd _ _ _ _ (real_bcast _ _ _ real_zero)
        (real_mulf _ _ (real_gather _ _ _ hd) (real_bcast _ _ _ (real_bcast _ _ _ (real_norm ei)))))
      (real_bcast _ _ _ (real_bcast _ _ _ hb'))
  exact fun p q => h (ix2 p q)

end Cert.Bridge

end
-- ==== Proof.AlgBN.lean ====
/-
  Batch normalisation over the rows of a real matrix, written two ways, is one function.
  One way keeps the column sum `s` and the column sum of squares `q` and forms the mean `s / n`, the variance
  `q / n - mean²`, a scale `g · (var + e)^(-1/2)` and a shift `be - mean · scale`, and applies `a · scale + shift`.
  The other subtracts the mean first, takes the variance as the mean of the squared differences, and applies
  `(a - mean) · (var' + e)^(-1/2) · g + be`. Over the reals `var = var'` (expand the square: the cross term is
  `-2 · mean · s / n` and `mean = s / n`) and the two affine forms differ by distributivity; on the extended reals both
  steps need every entry to be a real number, which is what the hypotheses say. The variance is a mean of squares, so
  `var + e > 0` for `e > 0` and the inverse square root is a real number as well: the result is real again.
-/
import proofs.«417032_j62294205661279_1_alg».proof.Proof.Spec
import Mathlib.Tactic.Ring
import Mathlib.Tactic.Linarith
import Mathlib.Tactic.FieldSimp

noncomputable section

namespace Cert.AlgBN

open Idealize.ShloMosaic Cert.Spec

/-- A finite sum of real numbers, read in the extended reals, is the sum of the entries read there. -/
theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- Over the reals the mean of the squares less the square of the mean is the mean of the squared differences from
    the mean: expanding the square, the cross term is twice the mean times the sum and the constant term is the
    square of the mean taken once for every row. -/
theorem var_eq {n : ℕ} (hn : 0 < n) (x : Fin n → ℝ) :
    (∑ p, x p * x p) / (n : ℝ) - (∑ p, x p) / (n : ℝ) * ((∑ p, x p) / (n : ℝ))
      = (∑ p, (x p - (∑ p, x p) / (n : ℝ)) * (x p - (∑ p, x p) / (n : ℝ))) / (n : ℝ) := by
  have hN : (n : ℝ) ≠ 0 := by exact_mod_cast hn.ne'
  obtain ⟨s, hs⟩ : ∃ s : ℝ, s = ∑ p, x p := ⟨_, rfl⟩
  rw [← hs]
  have hsq : ∑ p, (x p - s / (n : ℝ)) * (x p - s / (n : ℝ))
      = (∑ p, x p * x p) - 2 * (s / (n : ℝ)) * s + (n : ℝ) * (s / (n : ℝ) * (s / (n : ℝ))) := by
    have hexp : ∀ p, (x p - s / (n : ℝ)) * (x p - s / (n : ℝ))
        = x p * x p - 2 * (s / (n : ℝ)) * x p + s / (n : ℝ) * (s / (n : ℝ)) := fun p => by ring
    rw [Finset.sum_congr rfl (fun p _ => hexp p), Finset.sum_add_distrib, Finset.sum_sub_distrib,
      ← Finset.mul_sum, ← hs, Finset.sum_const, Finset.card_univ, Fintype.card_fin, nsmul_eq_mul]
  rw [hsq]
  field_simp
  ring

/-- The two forms of batch normalisation followed by the clamp at zero agree entry by entry, and the entry is real. -/
theorem bn_agree {n h : ℕ} (hn : 0 < n) (a : Fin n → Fin h → EReal) (g be : Fin h → EReal)
    (ha : Real2 a) (hg : Real1 g) (hbe : Real1 be) (e : ℝ) (he : 0 < e) (p : Fin n) (j : Fin h) :
    let N : EReal := ((n : ℝ) : EReal)
    let mean : EReal := Ideal.div (colSum a j) N
    let var : EReal := Ideal.div (colSumSq a j) N - mean * mean
    let sc : EReal := g j * Ideal.rsqrt (var + (e : EReal))
    let sh : EReal := be j - mean * sc
    let var' : EReal := Ideal.div (∑ p' : Fin n, (a p' j - mean) * (a p' j - mean)) N
    max (a p j * sc + sh) 0 = max ((a p j - mean) * Ideal.rsqrt (var' + (e : EReal)) * g j + be j) 0
    ∧ ∃ r : ℝ, max (a p j * sc + sh) 0 = (r : EReal) := by
  intro N mean var sc sh var'
  have hN : (n : ℝ) ≠ 0 := by exact_mod_cast hn.ne'
  -- every entry of the column, the scale and the shift parameter is the image of a real number
  obtain ⟨x, hx⟩ : ∃ x : Fin n → ℝ, ∀ p', a p' j = (x p' : EReal) :=
    ⟨fun p' => (ha p' j).choose, fun p' => (ha p' j).choose_spec⟩
  obtain ⟨γ, hγ⟩ := hg j
  obtain ⟨β, hβ⟩ := hbe j
  -- the column sum and the column sum of squares are the images of the real sums
  have hs : colSum a j = ((∑ p', x p' : ℝ) : EReal) := by
    rw [coe_sum]; exact Finset.sum_congr rfl (fun p' _ => hx p')
  have hq : colSumSq a j = ((∑ p', x p' * x p' : ℝ) : EReal) := by
    rw [coe_sum]; exact Finset.sum_congr rfl (fun p' _ => by rw [hx p', EReal.coe_mul])
  -- the mean is real: division by the nonzero row count is a product with its reciprocal
  obtain ⟨m, hm⟩ : ∃ m : ℝ, m = (∑ p', x p') / (n : ℝ) := ⟨_, rfl⟩
  have hmean : mean = (m : EReal) := by
    show Ideal.div (colSum a j) ((n : ℝ) : EReal) = _
    rw [hs, Ideal.div_coe hN, ← EReal.coe_mul, mul_one_div, hm]
  -- the variance in its mean-of-squared-differences form is real and nonnegative
  obtain ⟨v, hv⟩ : ∃ v : ℝ, v = (∑ p', (x p' - m) * (x p' - m)) / (n : ℝ) := ⟨_, rfl⟩
  have hvar' : var' = (v : EReal) := by
    show Ideal.div (∑ p' : Fin n, (a p' j - mean) * (a p' j - mean)) ((n : ℝ) : EReal) = _
    have hd : (∑ p' : Fin n, (a p' j - mean) * (a p' j - mean))
        = ((∑ p', (x p' - m) * (x p' - m) : ℝ) : EReal) := by
      rw [coe_sum]
      exact Finset.sum_congr rfl (fun p' _ => by rw [hx p', hmean, ← EReal.coe_sub, ← EReal.coe_mul])
    rw [hd, Ideal.div_coe hN, ← EReal.coe_mul, mul_one_div, hv]
  -- the variance in its mean-of-squares form is the same real number
  have hvar : var = (v : EReal) := by
    show Ideal.div (colSumSq a j) ((n : ℝ) : EReal) - mean * mean = _
    rw [hq, hmean, Ideal.div_coe hN, ← EReal.coe_mul, ← EReal.coe_mul, ← EReal.coe_sub, mul_one_div, hv, hm,
      var_eq hn x]
  have hv0 : 0 ≤ v := by
    rw [hv]
    exact div_nonneg (Finset.sum_nonneg fun p' _ => mul_self_nonneg _) (Nat.cast_nonneg n)
  have hpos : 0 < v + e := by linarith
  -- so the inverse square root is taken at a positive real and is real
  obtain ⟨ρ, hρ⟩ : ∃ ρ : ℝ, ρ = (Real.sqrt (v + e))⁻¹ := ⟨_, rfl⟩
  have hrs : Ideal.rsqrt ((v : EReal) + (e : EReal)) = (ρ : EReal) := by
    rw [← EReal.coe_add, Ideal.rsqrt_coe, if_neg (not_lt.mpr hpos.le), if_neg hpos.ne', hρ]
  have hsc : sc = ((γ * ρ : ℝ) : EReal) := by
    show g j * Ideal.rsqrt (var + (e : EReal)) = _
    rw [hvar, hrs, hγ, EReal.coe_mul]
  have hsh : sh = ((β - m * (γ * ρ) : ℝ) : EReal) := by
    show be j - mean * sc = _
    rw [hβ, hmean, hsc, ← EReal.coe_mul, ← EReal.coe_sub]
  -- both affine forms are the image of one real number: they differ by distributivity
  have hL : a p j * sc + sh = ((x p * (γ * ρ) + (β - m * (γ * ρ)) : ℝ) : EReal) := by
    rw [hx p, hsc, hsh, ← EReal.coe_mul, ← EReal.coe_add]
  have hR : (a p j - mean) * Ideal.rsqrt (var' + (e : EReal)) * g j + be j
      = ((x p * (γ * ρ) + (β - m * (γ * ρ)) : ℝ) : EReal) := by
    rw [hx p, hmean, hvar', hrs, hγ, hβ, ← EReal.coe_sub, ← EReal.coe_mul, ← EReal.coe_mul, ← EReal.coe_add]
    congr 1
    ring
  rw [hL, hR]
  -- the clamp at zero of a real number is real: the embedding of the reals is monotone
  refine ⟨rfl, max (x p * (γ * ρ) + (β - m * (γ * ρ))) 0, ?_⟩
  exact (EReal.coe_strictMono.monotone.map_max (a := x p * (γ * ρ) + (β - m * (γ * ρ))) (b := 0)).symm

end Cert.AlgBN

end
-- ==== Proof.BridgeBN.lean ====
/-
  Batch normalisation and the rectifier, the reference's text against the kernel program's.
  The reference takes the column mean, the mean of the squared differences from it (divided by the row count less the
  literal zero, kept where that divisor is positive), the inverse square root of that plus a small constant, and
  applies `max ((a - mean) · root · gain + offset) 0`. The kernel program forms, from the column sums and the column
  sums of squares, a scale and a shift per column and applies `max (a · scale + shift) 0`. Both divide by the word
  0x47C35000, which is exactly 100000, the number of rows, and add the word 0x3727C5AC, a positive real. On real
  inputs the two are one function (Proof/AlgBN.lean), and its values are real.
-/
import proofs.«417032_j62294205661279_1_alg».proof.Proof.RefRun
import proofs.«417032_j62294205661279_1_alg».proof.Proof.KOut
import proofs.«417032_j62294205661279_1_alg».proof.Proof.AlgBN
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.Bridge

open Idealize.ShloMosaic Idealize.ShloMosaic.ValueIdx Cert.Spec

-- the two programs print the same shapes under their own names; the kernel program's are used for the statements
open Cert.KernelIdeal (S100000x128 S128x128 S128 S1x128 S100000 S2x1600000 S1700000 S100000x64 S64x128 S1x64 S128x32 S32 S64x32)
open Cert.KernelIdeal.Val (denseK sumRow sqRow applyK bnK layerK pooledK countK outK)

/-! ## The plan

Read each text at one entry `(p, j)`. A row vector spread over a one-row matrix, and a one-row matrix repeated down the
rows, read the vector at the column; a spread scalar reads the scalar; the host's sum over the rows from zero reads the
sum of the column. After that both sides are expressions in the entries of column `j`, the gain and the offset at `j`,
and the two literals, and the algebra of Proof/AlgBN.lean joins them. -/

/-! ## The two literals -/

/-- The word 0x47C35000 is the real number 100000, the number of rows. -/
theorem lit_rows : Ideal.ofBits .f32 0x47C35000#32 = (((100000 : ℕ) : ℝ) : EReal) := by
  simp [Ideal.ofBits, Ideal.ieee, -EReal.coe_mul]; norm_num

/-- The word 0x3727C5AC is a positive real number. -/
theorem lit_eps : ∃ e : ℝ, 0 < e ∧ Ideal.ofBits .f32 0x3727C5AC#32 = (e : EReal) := by
  simp [Ideal.ofBits, Ideal.ieee, -EReal.coe_mul]

/-! ## Spreading and summing, read at an index -/

/-- A vector laid along the columns of a one-row matrix reads, at column `c`, the vector at `c`. -/
theorem bcRow_apply {α : Type} (h : (⟨1, ![128]⟩ : Shape).BroadcastsInDim ⟨2, ![1, 128]⟩ ![1])
    (v : (⟨1, ![128]⟩ : Shape).Idx → α) (u : Fin 1) (c : Fin 128) :
    broadcastInDim ⟨2, ![1, 128]⟩ ![1] h v (ix2 u c) = v (ix1 c) :=
  broadcastInDim_apply _ h v _ _ fun ax => by
    match ax with
    | ⟨0, _⟩ =>
      show c.val = if (128 : ℕ) = 1 then 0 else c.val
      rw [if_neg (by decide)]

/-- A one-row matrix repeated down 100000 rows reads, at `(p, c)`, its one row at `c`. -/
theorem bcRows_apply {α : Type} (h : (⟨2, ![1, 128]⟩ : Shape).BroadcastsInDim ⟨2, ![100000, 128]⟩ ![0, 1])
    (v : (⟨2, ![1, 128]⟩ : Shape).Idx → α) (p : Fin 100000) (c : Fin 128) :
    broadcastInDim ⟨2, ![100000, 128]⟩ ![0, 1] h v (ix2 p c) = v (ix2 (0 : Fin 1) c) :=
  broadcastInDim_apply _ h v _ _ fun ax => by
    match ax with
    | ⟨0, _⟩ => rfl
    | ⟨1, _⟩ =>
      show c.val = if (128 : ℕ) = 1 then 0 else c.val
      rw [if_neg (by decide)]

/-- The host's sum over the rows, from the zero word, read at column `j`: the sum of the column's entries. -/
theorem reduceRows_apply (x : FVec Ideal ⟨2, ![100000, 128]⟩ .f32)
    (hr : (⟨2, ![100000, 128]⟩ : Shape).ReducesTo [0] ⟨1, ![128]⟩) (hu : 0 < (⟨0, ![]⟩ : Shape).numel) (j : Fin 128) :
    Host.reduceAdd (F := Ideal) x (constant (F := Ideal) ⟨0, ![]⟩ .f32 0x00000000#32) hr hu (ix1 j)
      = ∑ p : Fin 100000, x (ix2 p j) := by
  have h : (⟨2, ![100000, 128]⟩ : Shape).Reduces [0] ⟨1, ![128]⟩ := by decide
  rw [hostReduceAdd_apply, Ideal.hostReduceAdd_single hr h, constant_apply, Ideal.ofBits_zero_f32, zero_add]
  -- the index over column `j` with row `p` put back on the summed axis is `(p, j)`
  refine Finset.sum_congr rfl fun p _ => congrArg x ?_
  funext ax
  match ax with
  | ⟨0, _⟩ => rfl
  | ⟨1, _⟩ => rfl

/-- The host's reciprocal square root at an index is the extended reals' of the entry. -/
theorem hostRsqrt_apply {s : Shape} {φ : FTy} (x : FVec Ideal s φ) (i : s.Idx) :
    Host.rsqrt x i = Ideal.rsqrt (x i) := rfl

/-- The sum over the rows of the squared differences from a one-row matrix `m` repeated down the rows, at column `j`. -/
theorem reduceSq_apply (a : FVec Ideal ⟨2, ![100000, 128]⟩ .f32) (m : FVec Ideal ⟨2, ![1, 128]⟩ .f32)
    (h : (⟨2, ![1, 128]⟩ : Shape).BroadcastsInDim ⟨2, ![100000, 128]⟩ ![0, 1])
    (hr : (⟨2, ![100000, 128]⟩ : Shape).ReducesTo [0] ⟨1, ![128]⟩) (hu : 0 < (⟨0, ![]⟩ : Shape).numel) (j : Fin 128) :
    Host.reduceAdd (F := Ideal)
        (mulf (subf a (broadcastInDim ⟨2, ![100000, 128]⟩ ![0, 1] h m)) (subf a (broadcastInDim ⟨2, ![100000, 128]⟩ ![0, 1] h m)))
        (constant (F := Ideal) ⟨0, ![]⟩ .f32 0x00000000#32) hr hu (ix1 j)
      = ∑ p : Fin 100000, (a (ix2 p j) - m (ix2 0 j)) * (a (ix2 p j) - m (ix2 0 j)) := by
  rw [reduceRows_apply]
  exact Finset.sum_congr rfl fun p _ => by rw [mulf_apply, subf_apply, bcRows_apply]

/-! ## The reference's guard on the variance's divisor -/

/-- The reference's divisor of the variance, the row count less the integer zero read as a float, is the row count. -/
theorem divisor_val :
    subf (constant (F := Ideal) ⟨0, ![]⟩ .f32 0x47C35000#32) (sitofp (F := Ideal) .f32 (constantI ⟨0, ![]⟩ 32 0#32)) ix0
      = Ideal.ofBits .f32 0x47C35000#32 := by
  rw [subf_apply, constant_apply]
  show Ideal.ofBits .f32 0x47C35000#32 - (((0#32 : BitVec 32).toInt : ℝ) : EReal) = _
  rw [show (0#32 : BitVec 32).toInt = 0 from rfl, Int.cast_zero, EReal.coe_zero, sub_zero]

/-- That divisor is above zero, so the reference's guard on it answers the bit one. -/
theorem bit_val :
    cmpf (F := Ideal) .ogt
        (subf (constant (F := Ideal) ⟨0, ![]⟩ .f32 0x47C35000#32) (sitofp (F := Ideal) .f32 (constantI ⟨0, ![]⟩ 32 0#32)))
        (constant (F := Ideal) ⟨0, ![]⟩ .f32 0x00000000#32) ix0 = 1#1 := by
  rw [cmpf_apply, divisor_val, constant_apply, Ideal.ofBits_zero_f32, lit_rows, Ideal.cmpf_def]
  have h : (0 : EReal) < (((100000 : ℕ) : ℝ) : EReal) := by exact_mod_cast (by norm_num : (0 : ℝ) < ((100000 : ℕ) : ℝ))
  simp [Ideal.cmp, h]

/-! ## The kernel program's text at an entry -/

section KernelSide
open Cert.KernelIdeal.Val (bnScale bnShift)

/-- The kernel program's scale at column `j`: the gain times the inverse root of the variance, taken as the mean of
    the squares less the square of the mean, plus the small constant. -/
theorem scale_at (s q : FVec Ideal S1x128 .f32) (g : FVec Ideal S128 .f32) (j : Fin 128) :
    bnScale (F := Ideal) s q g (ix2 0 j)
      = g (ix1 j) * Ideal.rsqrt (Ideal.div (q (ix2 0 j)) (Ideal.ofBits .f32 0x47C35000#32)
          - Ideal.div (s (ix2 0 j)) (Ideal.ofBits .f32 0x47C35000#32) * Ideal.div (s (ix2 0 j)) (Ideal.ofBits .f32 0x47C35000#32)
          + Ideal.ofBits .f32 0x3727C5AC#32) := by
  simp only [Cert.KernelIdeal.Val.bnScale, mulf_apply, addf_apply, subf_apply, hostDivf_apply, hostRsqrt_apply]
  rw [bcRow_apply, broadcastInDim_scalar_apply, broadcastInDim_scalar_apply, constant_apply, constant_apply]

/-- The kernel program's shift at column `j`: the offset less the mean times the scale. -/
theorem shift_at (s q : FVec Ideal S1x128 .f32) (g be : FVec Ideal S128 .f32) (j : Fin 128) :
    bnShift (F := Ideal) s q g be (ix2 0 j)
      = be (ix1 j) - Ideal.div (s (ix2 0 j)) (Ideal.ofBits .f32 0x47C35000#32) * bnScale (F := Ideal) s q g (ix2 0 j) := by
  simp only [Cert.KernelIdeal.Val.bnShift, mulf_apply, subf_apply, hostDivf_apply]
  rw [bcRow_apply, broadcastInDim_scalar_apply, constant_apply]

/-- The kernel program's scale-shift-clamp at an entry, its coefficients written out over the two column statistics. -/
theorem ker_at (a : FVec Ideal S100000x128 .f32) (g be : FVec Ideal S128 .f32) (p : Fin 100000) (j : Fin 128) :
    bnK a g be (ix2 p j)
      = max (cur2 a p j
            * (cur1 g j * Ideal.rsqrt (Ideal.div (colSumSq (cur2 a) j) (Ideal.ofBits .f32 0x47C35000#32)
                - Ideal.div (colSum (cur2 a) j) (Ideal.ofBits .f32 0x47C35000#32)
                  * Ideal.div (colSum (cur2 a) j) (Ideal.ofBits .f32 0x47C35000#32)
                + Ideal.ofBits .f32 0x3727C5AC#32))
          + (cur1 be j - Ideal.div (colSum (cur2 a) j) (Ideal.ofBits .f32 0x47C35000#32)
              * (cur1 g j * Ideal.rsqrt (Ideal.div (colSumSq (cur2 a) j) (Ideal.ofBits .f32 0x47C35000#32)
                - Ideal.div (colSum (cur2 a) j) (Ideal.ofBits .f32 0x47C35000#32)
                  * Ideal.div (colSum (cur2 a) j) (Ideal.ofBits .f32 0x47C35000#32)
                + Ideal.ofBits .f32 0x3727C5AC#32)))) 0 := by
  -- the clamp of entry times scale plus shift, the two coefficients read in the one row at column `j`
  show max (cur2 a p j * bnScale (F := Ideal) (sumRow a) (sqRow a) g (ix2 0 j)
      + bnShift (F := Ideal) (sumRow a) (sqRow a) g be (ix2 0 j)) 0 = _
  rw [shift_at, scale_at]
  -- the two statistics' rows at column `j` are the column sum and the column sum of squares
  rfl

end KernelSide

/-! ## The reference's text at an entry -/

/-- The reference's normalise-and-clamp at an entry: both of its means are the column sum over the row count, its
    guard holds, and its variance is the mean of the squared differences from that mean. -/
theorem ref_at (a : FVec Ideal S100000x128 .f32) (g be : FVec Ideal S128 .f32) (p : Fin 100000) (j : Fin 128) :
    Cert.ReferenceIdeal.RefRun.bnRelu (F := Ideal) a g be (ix2 p j)
      = max ((cur2 a p j - Ideal.div (colSum (cur2 a) j) (Ideal.ofBits .f32 0x47C35000#32))
            * Ideal.rsqrt (Ideal.div (∑ p' : Fin 100000,
                  (cur2 a p' j - Ideal.div (colSum (cur2 a) j) (Ideal.ofBits .f32 0x47C35000#32))
                  * (cur2 a p' j - Ideal.div (colSum (cur2 a) j) (Ideal.ofBits .f32 0x47C35000#32)))
                (Ideal.ofBits .f32 0x47C35000#32) + Ideal.ofBits .f32 0x3727C5AC#32)
            * cur1 g j + cur1 be j) 0 := by
  unfold Cert.ReferenceIdeal.RefRun.bnRelu
  -- the outer maximum, sum, two products and difference, entry by entry
  simp only [maximumf_apply, addf_apply, mulf_apply, subf_apply]
  -- the four row vectors spread over the matrix read at column `j`; the clamp's zero
  rw [bcRows_apply, bcRows_apply, bcRows_apply, bcRows_apply, bcRow_apply, bcRow_apply, bcRow_apply, bcRow_apply,
    broadcastInDim_scalar_apply, constant_apply, Ideal.ofBits_zero_f32]
  -- the mean's quotient, the inverse root of variance plus constant, the guarded choice
  simp only [hostDivf_apply, hostRsqrt_apply, addf_apply, select_apply]
  -- the two sums over the rows
  rw [reduceRows_apply, reduceSq_apply]
  -- the spread scalars: row count, guard bit, divisor, the unused alternative, the small constant
  rw [broadcastInDim_scalar_apply, broadcastInDim_scalar_apply, broadcastInDim_scalar_apply,
    broadcastInDim_scalar_apply, broadcastInDim_scalar_apply]
  rw [bit_val, select_one, divisor_val, constant_apply, constant_apply]
  -- the mean inside the variance, formed in the one-row matrix
  rw [hostDivf_apply, bcRow_apply, reduceRows_apply, broadcastInDim_scalar_apply, constant_apply]
  rfl

/-- On real inputs the reference's normalise-and-clamp is the kernel program's scale-shift-clamp. -/
theorem bn_eq (a : FVec Ideal S100000x128 .f32) (g be : FVec Ideal S128 .f32)
    (ha : Real2 (cur2 a)) (hg : Real1 (cur1 g)) (hbe : Real1 (cur1 be)) :
    Cert.ReferenceIdeal.RefRun.bnRelu (F := Ideal) a g be = bnK a g be := by
  funext i
  obtain ⟨p, j, rfl⟩ : ∃ (p : Fin 100000) (j : Fin 128), i = ix2 p j := ⟨i 0, i 1, eq_ix2 i⟩
  obtain ⟨e, he, hlit⟩ := lit_eps
  rw [ref_at, ker_at, lit_rows, hlit]
  exact ((Cert.AlgBN.bn_agree (n := 100000) (h := 128) (by norm_num) (cur2 a) (cur1 g) (cur1 be) ha hg hbe e he p j).1).symm

/-- …and its values are real numbers. -/
theorem bn_real (a : FVec Ideal S100000x128 .f32) (g be : FVec Ideal S128 .f32)
    (ha : Real2 (cur2 a)) (hg : Real1 (cur1 g)) (hbe : Real1 (cur1 be)) :
    Real2 (cur2 (bnK a g be)) := by
  intro p j
  obtain ⟨e, he, hlit⟩ := lit_eps
  show ∃ r : ℝ, bnK a g be (ix2 p j) = (r : EReal)
  rw [ker_at, lit_rows, hlit]
  exact (Cert.AlgBN.bn_agree (n := 100000) (h := 128) (by norm_num) (cur2 a) (cur1 g) (cur1 be) ha hg hbe e he p j).2

end Cert.Bridge

end
-- ==== Proof.BridgePool.lean ====
/-
  The pooling tail, the reference's text against the kernel program's.
  The reference sums, per graph, the rows whose graph id is that graph (a scatter-add from zero at the ids: an id
  outside 0 … 63, negative ones included, lands nowhere and contributes nothing) and counts them the same way. The
  kernel program multiplies by membership weights that are 1 exactly where the id word equals the column's number
  0 … 63 and 0 elsewhere; `1 · y = y` and `0 · y = 0` for every extended real `y`, so its weighted sums are the same
  sums over the same rows, and its weight sums the same counts. From there both divide by max(count, 1) (the kernel
  program's count is a 1 x 64 row it transposes, the reference's a vector it spreads: the same entry), multiply by
  the last weight matrix and add the last bias.
-/
import proofs.«417032_j62294205661279_1_alg».proof.Proof.RefRun
import proofs.«417032_j62294205661279_1_alg».proof.Proof.KOut
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

noncomputable section

namespace Cert.Bridge

open Idealize.ShloMosaic Idealize.ShloMosaic.ValueIdx Cert.Spec

-- the two programs print the same shapes under their own names; the kernel program's are used for the statements
open Cert.KernelIdeal (S100000x128 S128x128 S128 S1x128 S100000 S2x1600000 S1700000 S100000x64 S64x128 S1x64 S128x32 S32 S64x32)
open Cert.KernelIdeal.Val (denseK sumRow sqRow applyK bnK layerK pooledK countK outK)

namespace Pool

open Cert.KernelIdeal (S64 S64x1 S100000x1 S_)

/-! ## Words and literals -/

/-- A 32-bit word is the word of a number below 64 exactly when its signed value is that number: both say the word
    is one of the 64 small non-negative words, and on those the signed value is injective. -/
theorem word_eq_iff (b : BitVec 32) (k : ℕ) (hk : k < 64) : b = BitVec.ofNat 32 k ↔ b.toInt = (k : Int) := by
  constructor
  · rintro rfl; exact StableHlo.Predicate.toInt_ofNat_small k (by omega)
  · intro h; apply BitVec.eq_of_toInt_eq; rw [h, StableHlo.Predicate.toInt_ofNat_small k (by omega)]

/-- The single-precision pattern with exponent field 127 and an empty fraction denotes `2^23 · 2^(-23) = 1`. -/
theorem one_f32 : Ideal.ofBits .f32 0x3F800000#32 = 1 := by
  simp [Ideal.ofBits, Ideal.ieee, -EReal.coe_mul]
  norm_num

/-- A sum over the indices of a vector is the sum over its one coordinate. -/
theorem sum_idx1 {M : Type*} [AddCommMonoid M] {n : Nat} (f : (⟨1, ![n]⟩ : Shape).Idx → M) :
    ∑ i, f i = ∑ a : Fin n, f (ix1 a) := by
  refine Fintype.sum_equiv ⟨fun j => j 0, ix1, fun j => (eq_ix1 j).symm, fun a => rfl⟩ _ _ (fun j => ?_)
  exact congrArg f (eq_ix1 j)

/-! ## Where an update of a scatter lands -/

/-- An update lands on an operand index exactly when, on every axis, its start plus its window coordinate is that
    index's coordinate: the landing index is defined only when every such sum lies inside the operand, and is then the
    index with those sums as coordinates. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · next H =>
      have e := congrArg Fin.val (congrFun (Option.some.inj h) a)
      have h0 := (H a).1
      simp only at e
      omega
    · cases h
  · intro h
    have H : ∀ a, 0 ≤ d.start j idx a + d.window j a ∧ d.start j idx a + d.window j a < s.size a := by
      intro a
      rw [h a]
      exact ⟨Int.natCast_nonneg _, by exact_mod_cast (i a).isLt⟩
    rw [dif_pos H]
    congr 1
    funext a
    apply Fin.ext
    show (d.start j idx a + ↑(d.window j a)).toNat = (i a).val
    rw [h a]
    exact Int.toNat_natCast _

/-- The reference's counting scatter: 100000 scalar updates into a vector of 64, the one operand axis scattered. -/
abbrev dC := Cert.ReferenceIdeal.scatter_S64_S100000x1_S100000_n_0_0_1
/-- The reference's row scatter: 100000 rows of 128 into 64 rows of 128, the row axis scattered, the column axis the
    window. -/
abbrev dP := Cert.ReferenceIdeal.scatter_S64x128_S100000x1_S100000x128_1_0_0_1

/-- The counting scatter starts update `n` at the signed value of the id in row `n` of the index column. -/
theorem dC_start (idx : IVec S100000x1 32) (j : S100000.Idx) :
    dC.start j idx 0 = (idx (ix2 (j 0) 0)).toInt := by
  unfold ScatterDims.start
  rw [dif_pos (show (0 : Fin 1) ∈ dC.scatterDimsToOperandDims from List.mem_singleton.2 rfl)]
  congr 2
  funext b
  match b with
  | ⟨0, _⟩ => rfl
  | ⟨1, _⟩ => rfl

/-- The counting scatter has no window: its one operand axis is inserted. -/
theorem dC_window (j : S100000.Idx) : dC.window j 0 = 0 := by
  unfold ScatterDims.window
  rw [dif_neg]
  decide

/-- Update `n` of the counting scatter lands on entry `g` exactly when the signed value of id `n` is `g`. -/
theorem dC_land (idx : IVec S100000x1 32) (n : Fin 100000) (g : Fin 64) :
    dC.resultIdx? (ix1 n) idx = some (ix1 g) ↔ (idx (ix2 n 0)).toInt = (g.val : Int) := by
  rw [resultIdx?_eq_some_iff]
  constructor
  · intro h
    have := h 0
    rw [dC_start, dC_window] at this
    simpa using this
  · intro h a
    have ha : a = 0 := Subsingleton.elim _ _
    subst ha
    rw [dC_start, dC_window]
    simpa using h

/-- On the row axis the row scatter starts update `(n, c)` at the signed value of the id in row `n`. -/
theorem dP_start0 (idx : IVec S100000x1 32) (j : S100000x128.Idx) :
    dP.start j idx 0 = (idx (ix2 (j 0) 0)).toInt := by
  unfold ScatterDims.start
  rw [dif_pos (show (0 : Fin 2) ∈ dP.scatterDimsToOperandDims from List.mem_singleton.2 rfl)]
  congr 2
  funext b
  match b with
  | ⟨0, _⟩ => rfl
  | ⟨1, _⟩ => rfl

/-- On the column axis, which the indices do not name, the start is 0. -/
theorem dP_start1 (idx : IVec S100000x1 32) (j : S100000x128.Idx) : dP.start j idx 1 = 0 := by
  unfold ScatterDims.start
  rw [dif_neg]
  decide

/-- The row axis is inserted: no window coordinate there. -/
theorem dP_window0 (j : S100000x128.Idx) : dP.window j 0 = 0 := by
  unfold ScatterDims.window
  rw [dif_neg]
  decide

/-- The column axis is the window: its coordinate is the update's column. -/
theorem dP_window1 (j : S100000x128.Idx) : dP.window j 1 = (j 1).val := by
  unfold ScatterDims.window
  rw [dif_pos (show (1 : Fin 2) ∈ dP.sKept by decide)]
  rfl

/-- Update `(n, c)` of the row scatter lands on `(g, c')` exactly when the signed value of id `n` is `g` and the
    columns agree. -/
theorem dP_land (idx : IVec S100000x1 32) (n : Fin 100000) (c : Fin 128) (g : Fin 64) (c' : Fin 128) :
    dP.resultIdx? (ix2 n c) idx = some (ix2 g c') ↔ (idx (ix2 n 0)).toInt = (g.val : Int) ∧ c = c' := by
  rw [resultIdx?_eq_some_iff]
  constructor
  · intro h
    have h0 := h 0
    have h1 := h 1
    rw [dP_start0, dP_window0] at h0
    rw [dP_start1, dP_window1] at h1
    refine ⟨by simpa using h0, ?_⟩
    apply Fin.ext
    have : ((c.val : Int)) = (c'.val : Int) := by simpa using h1
    exact_mod_cast this
  · rintro ⟨h, rfl⟩ a
    match a with
    | ⟨0, _⟩ =>
      show dP.start _ idx 0 + (dP.window _ 0 : Int) = _
      rw [dP_start0, dP_window0]
      simpa using h
    | ⟨1, _⟩ =>
      show dP.start _ idx 1 + (dP.window _ 1 : Int) = _
      rw [dP_start1, dP_window1]
      simp

/-! ## The arrays both programs read the ids through -/

/-- The ids as a column: row `k` holds id `k`. -/
theorem col_read (h : S100000.BroadcastsInDim S100000x1 ![0]) (bt : IVec S100000 32) (k : S100000x1.Idx) :
    broadcastInDim S100000x1 ![0] h bt k = bt (ix1 (k 0)) :=
  broadcastInDim_apply _ h bt k (ix1 (k 0)) (fun a => by match a with | ⟨0, _⟩ => rfl)

theorem col_read0 (h : S100000.BroadcastsInDim S100000x1 ![0]) (bt : IVec S100000 32) (n : Fin 100000) :
    broadcastInDim S100000x1 ![0] h bt (ix2 n 0) = bt (ix1 n) := col_read h bt (ix2 n 0)

/-- A vector spread along the rows of a 100000 x 64 rectangle reads, at `(p, q)`, its entry `p`. -/
theorem rows_read {α : Type} (h1 : S100000.BroadcastsInDim S100000x1 ![0])
    (h2 : S100000x1.BroadcastsInDim S100000x64 ![0, 1]) (v : S100000.Idx → α) (p : Fin 100000) (q : Fin 64) :
    broadcastInDim S100000x64 ![0, 1] h2 (broadcastInDim S100000x1 ![0] h1 v) (ix2 p q) = v (ix1 p) :=
  (broadcastInDim_apply _ h2 _ (ix2 p q) (ix2 p 0) (fun a => by match a with | ⟨0, _⟩ => rfl | ⟨1, _⟩ => rfl)).trans
    (broadcastInDim_apply _ h1 v (ix2 p 0) (ix1 p) (fun a => by match a with | ⟨0, _⟩ => rfl))

/-- A vector spread down the columns of a 100000 x 64 rectangle reads, at `(p, q)`, its entry `q`. -/
theorem cols_read {α : Type} (h1 : S64.BroadcastsInDim S1x64 ![1])
    (h2 : S1x64.BroadcastsInDim S100000x64 ![0, 1]) (v : S64.Idx → α) (p : Fin 100000) (q : Fin 64) :
    broadcastInDim S100000x64 ![0, 1] h2 (broadcastInDim S1x64 ![1] h1 v) (ix2 p q) = v (ix1 q) :=
  (broadcastInDim_apply _ h2 _ (ix2 p q) (ix2 0 q) (fun a => by match a with | ⟨0, _⟩ => rfl | ⟨1, _⟩ => rfl)).trans
    (broadcastInDim_apply _ h1 v (ix2 0 q) (ix1 q) (fun a => by match a with | ⟨0, _⟩ => rfl))

/-! ## The membership weights -/

/-- The unsigned value of the equality bit of two words, as an extended real: 1 when they are equal, 0 when not. -/
theorem bit_weight (a b : BitVec 32) :
    (FloatOps.uitofp (F := Ideal) .bf16 (IntOp.cmpi .eq a b) : EReal) = if a = b then 1 else 0 := by
  show (((IntOp.cmpi .eq a b).toNat : ℝ) : EReal) = _
  by_cases h : a = b
  · rw [if_pos h, (StableHlo.Predicate.cmpi_eq_iff).2 h]; simp
  · rw [if_neg h, eq_zero_of_ne_one (fun h' => h (StableHlo.Predicate.cmpi_eq_iff.1 h'))]; simp

/-- The weight at `(p, q)` is 1 when id `p` is the word of `q`, else 0. -/
theorem oneHot_apply (bt : IVec S100000 32) (p : Fin 100000) (q : Fin 64) :
    (Cert.KernelIdeal.Val.oneHot (F := Ideal) bt (ix2 p q) : EReal)
      = if bt (ix1 p) = BitVec.ofNat 32 q.val then 1 else 0 := by
  unfold Cert.KernelIdeal.Val.oneHot
  refine (bit_weight _ _).trans ?_
  rw [rows_read, cols_read]
  rfl

/-! ## The two sums -/

/-- The rows landing on graph `g`, summed at column `c`, are the weighted sum of column `c` with the weights of
    `g`: split the double sum by row; in row `p` only column `c` can land, and it does exactly when id `p` is `g`,
    which is when the weight is 1 (`1 · y = y`); otherwise nothing lands and the weight is 0 (`0 · y = 0`). -/
theorem pooled_core (idx : IVec S100000x1 32) (bt : IVec S100000 32) (hrd : ∀ n : Fin 100000, idx (ix2 n 0) = bt (ix1 n))
    (y : FVec Ideal S100000x128 .f32) (g : Fin 64) (c : Fin 128) :
    ∑ j ∈ Finset.univ.filter (fun j => dP.resultIdx? j idx = some (ix2 g c)), (y j : EReal)
      = ∑ p : Fin 100000, (Cert.KernelIdeal.Val.oneHot (F := Ideal) bt (ix2 p g) : EReal) * y (ix2 p c) := by
  rw [Finset.sum_filter, sum_idx2]
  refine Finset.sum_congr rfl fun p _ => ?_
  simp only [dP_land, hrd]
  rw [oneHot_apply]
  by_cases hg : bt (ix1 p) = BitVec.ofNat 32 g.val
  · have hg' := (word_eq_iff _ _ g.isLt).1 hg
    rw [if_pos hg, one_mul]
    simp [hg']
  · have hg' : ¬ (bt (ix1 p)).toInt = (g.val : Int) := fun h => hg ((word_eq_iff _ _ g.isLt).2 h)
    rw [if_neg hg, zero_mul]
    simp [hg']

/-- The number of ids landing on graph `g` is the sum of the weights of `g`: node by node, 1 on both sides when id
    `p` is `g`, 0 on both when not. -/
theorem count_core (idx : IVec S100000x1 32) (bt : IVec S100000 32) (hrd : ∀ n : Fin 100000, idx (ix2 n 0) = bt (ix1 n))
    (g : Fin 64) :
    ∑ j ∈ Finset.univ.filter (fun j => dC.resultIdx? j idx = some (ix1 g)), (1 : EReal)
      = ∑ p : Fin 100000, (Cert.KernelIdeal.Val.oneHot (F := Ideal) bt (ix2 p g) : EReal) := by
  rw [Finset.sum_filter, sum_idx1]
  refine Finset.sum_congr rfl fun p _ => ?_
  simp only [dC_land, hrd]
  rw [oneHot_apply]
  by_cases hg : bt (ix1 p) = BitVec.ofNat 32 g.val
  · rw [if_pos hg, if_pos ((word_eq_iff _ _ g.isLt).1 hg)]
  · rw [if_neg hg, if_neg (fun h => hg ((word_eq_iff _ _ g.isLt).2 h))]

/-- The reference's row scatter-add from zero is the kernel program's array of weighted sums. -/
theorem pooled_eq (h0 : S_.BroadcastsInDim S64x128 ![]) (h1 : S100000.BroadcastsInDim S100000x1 ![0])
    (bt : IVec S100000 32) (y : FVec Ideal S100000x128 .f32) :
    Host.scatterAdd (F := Ideal) dP (broadcastInDim S64x128 ![] h0 (constant (F := Ideal) S_ .f32 0x00000000#32))
      (broadcastInDim S100000x1 ![0] h1 bt) y = pooledK bt y := by
  funext i
  obtain ⟨g, c, rfl⟩ : ∃ (g : Fin 64) (c : Fin 128), i = ix2 g c := ⟨i 0, i 1, eq_ix2 i⟩
  show Ideal.ofBits .f32 0x00000000#32
      + ∑ j ∈ Finset.univ.filter (fun j => dP.resultIdx? j (broadcastInDim S100000x1 ![0] h1 bt) = some (ix2 g c)), y j
    = ∑ p : Fin 100000, (Cert.KernelIdeal.Val.oneHot (F := Ideal) bt (ix2 p g) : EReal) * y (ix2 p c)
  rw [Ideal.ofBits_zero_f32, zero_add]
  exact pooled_core _ bt (col_read0 h1 bt) y g c

/-- The reference's count of graph `g` (ones scatter-added from zero) is entry `(0, g)` of the kernel program's row
    of weight sums. -/
theorem count_eq (h0 : S_.BroadcastsInDim S64 ![]) (h1 : S100000.BroadcastsInDim S100000x1 ![0])
    (h2 : S_.BroadcastsInDim S100000 ![]) (bt : IVec S100000 32) (g : Fin 64) :
    Host.scatterAdd (F := Ideal) dC (broadcastInDim S64 ![] h0 (constant (F := Ideal) S_ .f32 0x00000000#32))
      (broadcastInDim S100000x1 ![0] h1 bt) (broadcastInDim S100000 ![] h2 (constant (F := Ideal) S_ .f32 0x3F800000#32))
      (ix1 g) = countK bt (ix2 0 g) := by
  show Ideal.ofBits .f32 0x00000000#32
      + ∑ j ∈ Finset.univ.filter (fun j => dC.resultIdx? j (broadcastInDim S100000x1 ![0] h1 bt) = some (ix1 g)),
          Ideal.ofBits .f32 0x3F800000#32
    = ∑ p : Fin 100000, (Cert.KernelIdeal.Val.oneHot (F := Ideal) bt (ix2 p g) : EReal)
  rw [Ideal.ofBits_zero_f32, zero_add, one_f32]
  exact count_core _ bt (col_read0 h1 bt) g

/-- The two divisors are the same 64 x 128 array: at `(g, c)` the reference reads entry `g` of max(count, 1) spread
    along the row, the kernel program entry `(g, 0)` of max(transposed row of weight sums, 1); the counts agree by
    `count_eq` and the second operand of the maximum is the same literal. -/
theorem denom_eq (hA : S64x1.BroadcastsInDim S64x128 ![0, 1]) (hB : S64.BroadcastsInDim S64x1 ![0])
    (hC : S_.BroadcastsInDim S64 ![]) (h0 : S_.BroadcastsInDim S64 ![]) (h1 : S100000.BroadcastsInDim S100000x1 ![0])
    (h2 : S_.BroadcastsInDim S100000 ![]) (hT : S1x64.Transposes [1, 0] S64x1) (hD : S_.BroadcastsInDim S64x1 ![])
    (bt : IVec S100000 32) :
    broadcastInDim S64x128 ![0, 1] hA (broadcastInDim S64x1 ![0] hB
        (maximumf (Host.scatterAdd (F := Ideal) dC (broadcastInDim S64 ![] h0 (constant (F := Ideal) S_ .f32 0x00000000#32))
            (broadcastInDim S100000x1 ![0] h1 bt) (broadcastInDim S100000 ![] h2 (constant (F := Ideal) S_ .f32 0x3F800000#32)))
          (broadcastInDim S64 ![] hC (constant (F := Ideal) S_ .f32 0x3F800000#32))))
      = broadcastInDim S64x128 ![0, 1] hA (maximumf (transpose S64x1 [1, 0] (countK bt) hT)
          (broadcastInDim S64x1 ![] hD (constant (F := Ideal) S_ .f32 0x3F800000#32))) := by
  funext i
  obtain ⟨g, c, rfl⟩ : ∃ (g : Fin 64) (c : Fin 128), i = ix2 g c := ⟨i 0, i 1, eq_ix2 i⟩
  refine ((broadcastInDim_apply _ hA _ (ix2 g c) (ix2 g 0) (fun a => by match a with | ⟨0, _⟩ => rfl | ⟨1, _⟩ => rfl)).trans
    (broadcastInDim_apply _ hB _ (ix2 g 0) (ix1 g) (fun a => by match a with | ⟨0, _⟩ => rfl))).trans ?_
  refine Eq.trans ?_ (broadcastInDim_apply _ hA _ (ix2 g c) (ix2 g 0)
    (fun a => by match a with | ⟨0, _⟩ => rfl | ⟨1, _⟩ => rfl)).symm
  rw [maximumf_apply, maximumf_apply, count_eq,
    transpose_apply [1, 0] (countK bt) hT (ix2 g 0) (ix2 0 g) (fun b => by match b with | ⟨0, _⟩ => rfl | ⟨1, _⟩ => rfl)]
  rfl

end Pool

open Pool in
/-- The reference's pooling tail is the kernel program's tail applied to the weighted sums and the weight sums over all
    nodes, for every assignment of graph ids. -/
theorem pool_eq (bt : IVec S100000 32) (y : FVec Ideal S100000x128 .f32) (wfc : FVec Ideal S128x32 .f32)
    (bfc : FVec Ideal S32 .f32) :
    Cert.ReferenceIdeal.RefRun.poolTail (F := Ideal) bt y wfc bfc
      = Cert.KernelIdeal.Val.poolTail (F := Ideal) (pooledK bt y) (countK bt) wfc bfc := by
  -- both sides are (sums / divisor) times the last weight matrix plus the last bias: replace the reference's sums and
  -- divisor by the kernel program's; what is left differs only in the names of the dimension records
  unfold Cert.ReferenceIdeal.RefRun.poolTail Cert.KernelIdeal.Val.poolTail
  rw [pooled_eq, denom_eq (hT := Cert.KernelIdeal.Facts₀.transposes_S1x64_S64x1_1_0) (hD := Cert.KernelIdeal.Facts₀.bcast_S_S64x1)]
  rfl

end Cert.Bridge

end
-- ==== Proof.Bridge.lean ====
/-
  The two programs compute one function. Layer by layer: the reference's dense product and aggregation over the edges
  is the kernel program's (`layer_eq`); on real inputs its normalise-and-clamp is the kernel program's
  scale-shift-clamp (`bn_eq`); and the pooling tails agree for every assignment of graph ids (`pool_eq`). The
  normalisation step needs its input real, so realness is carried along: the arguments are real by hypothesis, a layer
  keeps reals real (`layer_real`), and so does the normalisation (`bn_real`).
-/
import proofs.«417032_j62294205661279_1_alg».proof.Proof.BridgeLayer
import proofs.«417032_j62294205661279_1_alg».proof.Proof.BridgeBN
import proofs.«417032_j62294205661279_1_alg».proof.Proof.BridgePool

noncomputable section

namespace Cert.Bridge

open Idealize.ShloMosaic Idealize.ShloMosaic.ValueIdx Cert.Spec
open Cert.KernelIdeal (S100000x128 S128x128 S128 S1x128 S100000 S2x1600000 S1700000 S100000x64 S64x128 S1x64 S128x32 S32 S64x32)
open Cert.KernelIdeal.Val (denseK sumRow sqRow applyK bnK layerK pooledK countK outK)

/-- On real float arguments the reference's result is the kernel program's, whatever the two integer arguments. -/
theorem out_eq (x : FVec Ideal S100000x128 .f32) (ei : IVec S2x1600000 32) (bt : IVec S100000 32)
    (w0 : FVec Ideal S128x128 .f32) (b0 g0 be0 : FVec Ideal S128 .f32) (w1 : FVec Ideal S128x128 .f32)
    (b1 g1 be1 : FVec Ideal S128 .f32) (wfc : FVec Ideal S128x32 .f32) (bfc : FVec Ideal S32 .f32)
    (hx : Real2 (cur2 x)) (hw0 : Real2 (cur2 w0)) (hb0 : Real1 (cur1 b0)) (hg0 : Real1 (cur1 g0))
    (hbe0 : Real1 (cur1 be0)) (hw1 : Real2 (cur2 w1)) (hb1 : Real1 (cur1 b1)) (hg1 : Real1 (cur1 g1))
    (hbe1 : Real1 (cur1 be1)) :
    Cert.ReferenceIdeal.RefRun.out (F := Ideal) x ei bt w0 b0 g0 be0 w1 b1 g1 be1 wfc bfc
      = outK x ei bt w0 b0 g0 be0 w1 b1 g1 be1 wfc bfc := by
  have hA0 : Real2 (cur2 (layerK ei x w0 b0)) := layer_real ei x w0 b0 hx hw0 hb0
  have hY0 : Real2 (cur2 (bnK (layerK ei x w0 b0) g0 be0)) := bn_real _ g0 be0 hA0 hg0 hbe0
  have hA1 : Real2 (cur2 (layerK ei (bnK (layerK ei x w0 b0) g0 be0) w1 b1)) :=
    layer_real ei _ w1 b1 hY0 hw1 hb1
  unfold Cert.ReferenceIdeal.RefRun.out outK
  rw [layer_eq ei x w0 b0, bn_eq _ g0 be0 hA0 hg0 hbe0, layer_eq ei _ w1 b1, bn_eq _ g1 be1 hA1 hg1 hbe1, pool_eq]

end Cert.Bridge

end
-- ==== Proof.lean ====
/-
  The certificate's proof: a two-layer graph convolution with batch normalisation, mean pooling and a final linear map,
  written as seven tiled kernels around shared host arithmetic, against a plain host program.

  The three frames. The kernel program at both instances has its frame from the segments of @main (host stretches
  and regions in turn); the reference is one straight line of host operations and its frame is its run with the
  result forgotten.
  The idealisation rewrote nothing, so there is nothing to preserve.
  The values. The kernel program's run ends with the result buffer at `outK` of the argument arrays (Proof/KThread.lean:
  each region's arrays are whole-array functions of its inputs — a tiled product is the product, an accumulator over
  the grid is the sum over all rows —, each host stretch a named function of what it reads). The reference's run ends
  at `out` of its argument arrays (Proof/RefRun.lean). The two functions are equal wherever the float arguments are
  real numbers (Proof/Bridge.lean: variance as mean of squares less squared mean, scale-and-shift against
  subtract-and-scale, a one-hot product against a scatter-add), and the precondition says they are
  (Proof/PreReal.lean). The integer arguments are free.
-/
import proofs.«417032_j62294205661279_1_alg».proof.Defs
import proofs.«417032_j62294205661279_1_alg».proof.Proof.Gen.Kernel
import proofs.«417032_j62294205661279_1_alg».proof.Proof.Gen.Kernel.Skeleton
import proofs.«417032_j62294205661279_1_alg».proof.Proof.Gen.Kernel.Launch
import proofs.«417032_j62294205661279_1_alg».proof.Proof.Gen.Kernel.Points
import proofs.«417032_j62294205661279_1_alg».proof.Proof.Gen.Kernel.Frame
import proofs.«417032_j62294205661279_1_alg».proof.Proof.Gen.KernelIdeal
import proofs.«417032_j62294205661279_1_alg».proof.Proof.Gen.KernelIdeal.Skeleton
import proofs.«417032_j62294205661279_1_alg».proof.Proof.Gen.KernelIdeal.Launch
import proofs.«417032_j62294205661279_1_alg».proof.Proof.Gen.KernelIdeal.Points
import proofs.«417032_j62294205661279_1_alg».proof.Proof.Gen.KernelIdeal.Frame
import proofs.«417032_j62294205661279_1_alg».proof.Proof.Gen.ReferenceIdeal
import proofs.«417032_j62294205661279_1_alg».proof.Proof.Gen.Pre_finite_inputs
import proofs.«417032_j62294205661279_1_alg».proof.Proof.KThread
import proofs.«417032_j62294205661279_1_alg».proof.Proof.RefRun
import proofs.«417032_j62294205661279_1_alg».proof.Proof.PreReal
import proofs.«417032_j62294205661279_1_alg».proof.Proof.Bridge
import Idealize.ShloMosaic.Adequacy
import Idealize.ShloMosaic.Init

noncomputable section

namespace Cert.Proof

open Idealize.ShloMosaic Idealize.SL.Sem

/-- The kernel program as printed runs and leaves its arguments alone. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments alone: its run, the result forgotten. -/
theorem frame_ri : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- From memories agreeing on the arguments both idealised programs run and end with the same result: `outK` of the
    kernel program's launch contents, which the reference's `out` of its own equals once the arguments are rewritten
    by the agreement and the float ones are known to be real. -/
theorem algebraic : Cert.algebraic_KernelIdeal_ReferenceIdeal := by
  intro m ρ m' ρ' hpre hagree
  refine ⟨fun c => Cert.KernelIdeal.Val.outK (Cert.KernelIdeal.Val.aX m c) (Cert.KernelIdeal.Val.aEI m c) (Cert.KernelIdeal.Val.aBT m c) (Cert.KernelIdeal.Val.aW0 m c) (Cert.KernelIdeal.Val.aB0 m c) (Cert.KernelIdeal.Val.aG0 m c) (Cert.KernelIdeal.Val.aBE0 m c) (Cert.KernelIdeal.Val.aW1 m c) (Cert.KernelIdeal.Val.aB1 m c) (Cert.KernelIdeal.Val.aG1 m c) (Cert.KernelIdeal.Val.aBE1 m c) (Cert.KernelIdeal.Val.aWFC m c) (Cert.KernelIdeal.Val.aBFC m c),
    Cert.KernelIdeal.Val.run m ρ, ?_⟩
  refine (θ_run Cert.ReferenceIdeal.defs _ _).mono (fun _ h c => ⟨(h c).1.trans ?_, (h c).2⟩)
    (Cert.ReferenceIdeal.RefRun.run (F := Ideal) m' ρ')
  obtain ⟨e0, e1, e2, e3, e4, e5, e6, e7, e8, e9, e10, e11, e12⟩ := hagree c
  rw [e0, e1, e2, e3, e4, e5, e6, e7, e8, e9, e10, e11, e12]
  obtain ⟨hx, hw0, hb0, hg0, hbe0, hw1, hb1, hg1, hbe1, -, -⟩ := Cert.PreReal.real_of_pre _ _ _ _ _ _ _ _ _ _ _ _ _ (hpre c)
  exact Cert.Bridge.out_eq _ _ _ _ _ _ _ _ _ _ _ _ _ hx hw0 hb0 hg0 hbe0 hw1 hb1 hg1 hbe1

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
